-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : IVec S1x1600000 32 := (extractStridedSlice S1x1600000 ![0, 0] · slices_S2x1600000_S1x1600000_0_0) main_arg1
  let main_v5 : IVec S1600000 32 := shapeCast S1600000 main_v4 shapeCasts_S1x1600000_S1600000
  let main_c_0 : IVec S_ 32 := constantI S_ 32 0#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![0, 0] · slices_S2x1600000_S1x1600000_0_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1601536 : Shape := ⟨1, ![1601536]⟩
abbrev S1x1601536 : Shape := ⟨2, ![1, 1601536]⟩
abbrev S100352x64 : Shape := ⟨2, ![100352, 64]⟩
abbrev S1601536x64 : Shape := ⟨2, ![1601536, 64]⟩
abbrev S1x2048 : Shape := ⟨2, ![1, 2048]⟩
abbrev S2048x64 : Shape := ⟨2, ![2048, 64]⟩
abbrev S2048x1 : Shape := ⟨2, ![2048, 1]⟩
abbrev S2048x2048 : Shape := ⟨2, ![2048, 2048]⟩
abbrev S101376x64 : Shape := ⟨2, ![101376, 64]⟩
abbrev S3072x64 : Shape := ⟨2, ![3072, 64]⟩
abbrev S3072x1 : Shape := ⟨2, ![3072, 1]⟩
abbrev S3072x2048 : Shape := ⟨2, ![3072, 2048]⟩

abbrev nBuf : Space → Nat
  | .hbm => 21
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S_, .i32⟩
  | .hbm, ⟨8, _⟩ => ⟨S1601536, .i32⟩
  | .hbm, ⟨9, _⟩ => ⟨S1x1601536, .i32⟩
  | .hbm, ⟨10, _⟩ => ⟨S_, .i32⟩
  | .hbm, ⟨11, _⟩ => ⟨S_, .i32⟩
  | .hbm, ⟨12, _⟩ => ⟨S1601536, .i32⟩
  | .hbm, ⟨13, _⟩ => ⟨S1x1601536, .i32⟩
  | .hbm, ⟨14, _⟩ => ⟨S100000x64, .bf16⟩
  | .hbm, ⟨15, _⟩ => ⟨S_, .i32⟩
  | .hbm, ⟨16, _⟩ => ⟨S_, .bf16⟩
  | .hbm, ⟨17, _⟩ => ⟨S100352x64, .bf16⟩
  | .hbm, ⟨18, _⟩ => ⟨S1601536x64, .bf16⟩
  | .hbm, ⟨19, _⟩ => ⟨S101376x64, .f32⟩
  | .hbm, ⟨20, _⟩ => ⟨S100000x64, .f32⟩
  | .local _ .vmem, ⟨0, _⟩ => ⟨S1x2048, .i32⟩
  | .local _ .vmem, ⟨1, _⟩ => ⟨S1x2048, .i32⟩
  | .local _ .vmem, ⟨2, _⟩ => ⟨S2048x64, .bf16⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .f32⟩
  | .local _ .vmem, ⟨7, _⟩ => ⟨S1x2048, .i32⟩
  | .local _ .vmem, ⟨8, _⟩ => ⟨S1x2048, .i32⟩
  | .local _ .vmem, ⟨9, _⟩ => ⟨S2048x64, .bf16⟩
  | .local _ .vmem, ⟨10, _⟩ => ⟨S2048x64, .bf16⟩
  | .local _ .vmem, ⟨11, _⟩ => ⟨S3072x64, .f32⟩
  | .local _ .vmem, ⟨12, _⟩ => ⟨S3072x64, .f32⟩
  | .local _ .vmem, ⟨13, _⟩ => ⟨S3072x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![782, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![33, 782], ![false, false]⟩

def k1_cond2 (i : grid1.Coords) : BitVec 1 :=
  let arg1 : BitVec 32 := BitVec.ofNat 32 (i 1).val
  let c781_i32 : BitVec 32 := 781#32
  let v23 : BitVec 1 := Scalar.cmpi .eq arg1 c781_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3072x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  shapeCasts_S1601536_S1x1601536 : S1601536.ShapeCasts S1x1601536
  bitsLt_bf16_f32 : FTy.bits .bf16 < FTy.bits .f32
  pads_S100000x64_S100352x64_03520_000 : S100000x64.Pads (![0, 0] : Fin 2 → Nat) ![352, 0] ![0, 0] S100352x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  packedbf16_S2048x64_S2048x64_0_0 : (Rect.unit (s := S2048x64) ![0, 0] S2048x64.size inb_S2048x64_S2048x64_0_0).PackedRows (EltTy.packing .bf16)
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  iota_S3072x1_d0_w32 : S3072x1.Iotas .tc 32 [0]
  broadcasts_S3072x1_S3072x2048 : S3072x1.Broadcasts S3072x2048
  broadcasts_S1x2048_S3072x2048 : S1x2048.Broadcasts S3072x2048
  slices_S101376x64_S100000x64_0_0 : S101376x64.Slices ![0, 0] S100000x64
  dot_S2048x2048_S2048x64_S2048x64_0_0_1_1_n_n_wf : DotDims.WF S2048x2048 S2048x64 S2048x64 [0] [0] [1] [1] [] []
  dot_S3072x2048_S2048x64_S3072x64_1_0_0_1_n_n_wf : DotDims.WF S3072x2048 S2048x64 S3072x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x1601536.size a
  hwx0_0 : ∀ i : grid0.Coords, EltTy.bits .i32 = 32 ∨ (Rect.block (s := S1x1601536) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .bf16 = 32 ∨ (Rect.block (s := S100352x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S1601536x64.size a
  hwx0_2 : ∀ i : grid0.Coords, EltTy.bits .bf16 = 32 ∨ (Rect.block (s := S1601536x64) S2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x1601536.size a
  hwx1_0 : ∀ i : grid1.Coords, EltTy.bits .i32 = 32 ∨ (Rect.block (s := S1x1601536) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S1601536x64.size a
  hwx1_1 : ∀ i : grid1.Coords, EltTy.bits .bf16 = 32 ∨ (Rect.block (s := S1601536x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3072x64.size a ≤ S101376x64.size a
  hwx1_2 : ∀ i : grid1.Coords, EltTy.bits .f32 = 32 ∨ (Rect.block (s := S101376x64) S3072x64.size (cc1_transform_2 i) (hinb1_2 i)).WholeWords (EltTy.packing .f32)

variable [Facts₀]

def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S3072x2048_S2048x64_S3072x64_1_0_0_1_n_n : DotDims S3072x2048 S2048x64 S3072x64 where
  lhsContracting := [1]
  rhsContracting := [0]
  lhsNonContracting := [0]
  rhsNonContracting := [1]
  lhsBatch := []
  rhsBatch := []
  wf := dot_S3072x2048_S2048x64_S3072x64_1_0_0_1_n_n_wf

abbrev win0_0 : Pipeline.Window sig grid0 :=
  Pipeline.Window.ofSpec (Memref.whole main_v5) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v7) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S3072x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 19
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x64, .f32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.Body0.lean ====
/-
  The gather kernel's body at one grid point, as one triple over the contents of its four buffers.
  The grid is (edge block, node block). At a point the body resets the accumulator to zero when the node block is the
  row's first, adds the one-hot product of the point's node block to it, and stores the accumulator (narrowed) into the
  output block when the node block is the row's last; otherwise the output block is left as it was found.
-/
import proofs.«420660_j45414984188550_2_alg».proof.Proof.Gen.Kernel.Launch
import proofs.«420660_j45414984188550_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The node block is the first of its row: the body's first conditional, from the grid coordinates. -/
abbrev first0 (i : grid0.Coords) : Prop :=
  (Scalar.cmpi .ne (Scalar.extui (Scalar.cmpi .eq (BitVec.ofNat 32 (i 1).val) 0#32)) 0#32) = 1#1

/-- The accumulator after the point: the one-hot product of this node block added to the accumulator found, or to zero
    when the node block is the row's first. -/
def accNext0 (i : grid0.Coords) (x0 : Vec F S1x2048 .i32) (x1 : Vec F S2048x64 .bf16) (a : Vec F S2048x64 .f32) :
    Vec F S2048x64 .f32 :=
  k0_pay2 i x0 x1 (if first0 i then k0_pay1 else a)

/-- The output block after the point: the narrowed accumulator at the row's last node block, untouched elsewhere. -/
def outNext0 (i : grid0.Coords) (x0 : Vec F S1x2048 .i32) (x1 : Vec F S2048x64 .bf16) (x2 : Vec F S2048x64 .bf16)
    (a : Vec F S2048x64 .f32) : Vec F S2048x64 .bf16 :=
  if k0_cond2 i = 1#1 then k0_pay3 (accNext0 i x0 x1 a) else x2

/-! ## Whole-buffer accesses

Every load and store of the body goes through the rectangle that starts at offset zero on both axes and has the
buffer's own extents: a load through it reads the contents, and a store through it replaces them, whatever was stored
before. -/

/-- The offsets of the body's rectangles are zero on both axes. -/
private theorem hz : (![0, 0] : Fin 2 → Nat) = fun _ => 0 := funext fun a => by fin_cases a <;> rfl

/-- A buffer whose LAST store went through the whole-buffer rectangle reads as that store's payload: the rectangle
    holds every index, so the earlier stores and the contents found are all overwritten. -/
private theorem read_last_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  refine (View.read_writes_eq_canon _ _ _ ?_).trans (View.canon_cons_unit_zero h inb w L)
  exact fun y => ⟨_, List.Mem.head _, View.mem_set_unit_zero h inb y⟩

/-! ## The triple, with the written buffers' final contents left open

The body's two conditionals depend on the grid point only, so the body runs in one of four ways. Each way is a triple
of the same form, differing in what the output block and the accumulator hold at the end. -/

/-- From the four buffers at `x0`, `x1`, `x2`, `a` the body runs to the continuation with the index block and the
    feature block as found, the output block at `o` and the accumulator at `a'`. -/
private def RunsTo0 (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (o : Vec F S2048x64 .bf16) (a' : Vec F S2048x64 .f32) : Prop :=
  iprop(owns (c : Thread nD τ) arg2 fullShare x0 ∗ owns (c : Thread nD τ) arg3 fullShare x1
      ∗ owns (c : Thread nD τ) arg4 fullShare x2 ∗ owns (c : Thread nD τ) arg5 fullShare a
      ∗ (iprop(owns (c : Thread nD τ) arg2 fullShare x0 ∗ owns (c : Thread nD τ) arg3 fullShare x1
          ∗ owns (c : Thread nD τ) arg4 fullShare o
          ∗ owns (c : Thread nD τ) arg5 fullShare a') -∗ K ⟨⟩))
    ⊢ wp frame (wpE (defs₀ (F := F)) Variants.none c none) E (cc0__gather_kernel i arg2 harg2 arg3 harg3 arg4 harg4 arg5 harg5) K

/-- First and last node block of the row: the accumulator is zeroed, the product is added to the zero, and the sum,
    read back from the accumulator, is narrowed into the output block. -/
private theorem runs0_first_last (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : first0 i) (h2 : k0_cond2 i = 1#1) :
    RunsTo0 c E i arg2 harg2 arg3 harg3 arg4 harg4 arg5 harg5 x0 x1 x2 a K
      (k0_pay3 (k0_pay2 i x0 x1 k0_pay1)) (k0_pay2 i x0 x1 k0_pay1) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- First node block of the row, not the last: the accumulator is zeroed and the product added to the zero; the output
    block is not touched. -/
private theorem runs0_first_inner (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : first0 i) (h2 : ¬k0_cond2 i = 1#1) :
    RunsTo0 c E i arg2 harg2 arg3 harg3 arg4 harg4 arg5 harg5 x0 x1 x2 a K
      x2 (k0_pay2 i x0 x1 k0_pay1) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- Last node block of the row, not the first: the product is added to the accumulator found, and the sum, read back
    from the accumulator, is narrowed into the output block. -/
private theorem runs0_later_last (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : ¬first0 i) (h2 : k0_cond2 i = 1#1) :
    RunsTo0 c E i arg2 harg2 arg3 harg3 arg4 harg4 arg5 harg5 x0 x1 x2 a K
      (k0_pay3 (k0_pay2 i x0 x1 a)) (k0_pay2 i x0 x1 a) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- Neither the first nor the last node block of the row: the product is added to the accumulator found; the output
    block is not touched. -/
private theorem runs0_later_inner (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : ¬first0 i) (h2 : ¬k0_cond2 i = 1#1) :
    RunsTo0 c E i arg2 harg2 arg3 harg3 arg4 harg4 arg5 harg5 x0 x1 x2 a K
      x2 (k0_pay2 i x0 x1 a) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- The body on whole buffers: the index block and the feature block are read and kept, the accumulator and the output
    block end as `accNext0` and `outNext0` say. -/
theorem sound_kernel0 (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare a
        ∗ (iprop(owns (c : Thread nD τ) arg2 fullShare x0 ∗ owns (c : Thread nD τ) arg3 fullShare x1
            ∗ owns (c : Thread nD τ) arg4 fullShare (outNext0 i x0 x1 x2 a)
            ∗ owns (c : Thread nD τ) arg5 fullShare (accNext0 i x0 x1 a)) -∗ K ⟨⟩))
      ⊢ wp frame (wpE (defs₀ (F := F)) Variants.none c none) E (cc0__gather_kernel i arg2 harg2 arg3 harg3 arg4 harg4 arg5 harg5) K := by
  unfold outNext0 accNext0
  by_cases h1 : first0 i
  · by_cases h2 : k0_cond2 i = 1#1
    · rw [if_pos h1, if_pos h2]; exact runs0_first_last c E i arg2 harg2 arg3 harg3 arg4 harg4 arg5 harg5 x0 x1 x2 a K h1 h2
    · rw [if_pos h1, if_neg h2]; exact runs0_first_inner c E i arg2 harg2 arg3 harg3 arg4 harg4 arg5 harg5 x0 x1 x2 a K h1 h2
  · by_cases h2 : k0_cond2 i = 1#1
    · rw [if_neg h1, if_pos h2]; exact runs0_later_last c E i arg2 harg2 arg3 harg3 arg4 harg4 arg5 harg5 x0 x1 x2 a K h1 h2
    · rw [if_neg h1, if_neg h2]; exact runs0_later_inner c E i arg2 harg2 arg3 harg3 arg4 harg4 arg5 harg5 x0 x1 x2 a K h1 h2

end Cert.Kernel.Hand

end
-- ==== Proof.K.Sched0.lean ====
/-
  The schedule of pipeline 0 on its grid of 782 × 49 points, by arithmetic: point `t` has coordinates
  (t / 49, t % 49); the body's two conditionals hold at a row's first and last point; the output window is written back
  exactly at a row's last point and is idle at every other; and each window's block index at a point.
-/
import proofs.«420660_j45414984188550_2_alg».proof.Proof.K.Body0
import Idealize.ShloMosaic.Lib.Affine

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N0_eq : cfg0.N = 38318 := by decide

/-- Consecutive points share coordinate 0 in runs of 49 (the bound of axis 1) and coordinate 1 in runs of 1. -/
private theorem stride0_0 : grid0.stride 0 = 49 := by decide
private theorem stride0_1 : grid0.stride 1 = 1 := by decide

private theorem lt0 (t : Fin cfg0.N) : t.val < 38318 := lt_of_lt_of_eq t.isLt N0_eq

/-- Two 32-bit words made from numbers below 2 ^ 32 are equal exactly when the numbers are. -/
private theorem ofNat32_inj0 (k c : ℕ) (hk : k < 2 ^ 32) (hc : c < 2 ^ 32) :
    BitVec.ofNat 32 k = BitVec.ofNat 32 c ↔ k = c := by
  rw [← BitVec.toNat_inj, BitVec.toNat_ofNat, BitVec.toNat_ofNat, Nat.mod_eq_of_lt hk, Nat.mod_eq_of_lt hc]

/-- A conditional as the kernel computes it (a comparison's bit, widened, tested against zero) holds exactly when
    the coordinate compared is the literal. -/
private theorem guard_ofNat0 (k c : ℕ) (hk : k < 2 ^ 32) (hc : c < 2 ^ 32) :
    Scalar.cmpi .ne (Scalar.extui (Scalar.cmpi .eq (BitVec.ofNat 32 k) (BitVec.ofNat 32 c))) 0#32 = 1#1 ↔ k = c := by
  rw [Scalar.guard_iff, Scalar.cmpi, IntOp.cmpi_eq, ofNat32_inj0 k c hk hc]

theorem coords0_0 (t : Fin cfg0.N) : ((grid0.coords t) 0).val = t.val / 49 := by
  have ht := lt0 t
  show t.val / grid0.stride 0 % 782 = t.val / 49
  rw [stride0_0]
  omega
theorem coords0_1 (t : Fin cfg0.N) : ((grid0.coords t) 1).val = t.val % 49 := by
  show t.val / grid0.stride 1 % 49 = t.val % 49
  rw [stride0_1, Nat.div_one]

/-- The first conditional holds exactly at a row's first point. -/
theorem first0_iff (t : Fin cfg0.N) : first0 (grid0.coords t) ↔ t.val % 49 = 0 := by
  show Scalar.cmpi .ne (Scalar.extui (Scalar.cmpi .eq (BitVec.ofNat 32 ((grid0.coords t) 1).val) (BitVec.ofNat 32 0))) 0#32 = 1#1 ↔ _
  rw [coords0_1, guard_ofNat0 _ _ (by omega) (by omega)]
/-- The second conditional holds exactly at a row's last point. -/
theorem last0_iff (t : Fin cfg0.N) : k0_cond2 (grid0.coords t) = 1#1 ↔ t.val % 49 = 48 := by
  show Scalar.cmpi .ne (Scalar.extui (Scalar.cmpi .eq (BitVec.ofNat 32 ((grid0.coords t) 1).val) (BitVec.ofNat 32 48))) 0#32 = 1#1 ↔ _
  rw [coords0_1, guard_ofNat0 _ _ (by omega) (by omega)]

/-- The output window is idle exactly off a row's last point; the input windows never. -/
theorem idle0_2 (t : Fin cfg0.N) : cfg0.idle 2 (grid0.coords t) = true ↔ t.val % 49 ≠ 48 := by
  show (!(k0_cond2 (grid0.coords t) == 1#1)) = true ↔ _
  rw [Bool.not_eq_true', beq_eq_false_iff_ne, ne_eq, last0_iff]
theorem live0_0 (i : grid0.Coords) : cfg0.idle 0 i = false := rfl
theorem live0_1 (i : grid0.Coords) : cfg0.idle 1 i = false := rfl

/-- The windows' block indices at a point. -/
theorem index0_0 (t : Fin cfg0.N) (a : Fin 2) : (cfg0.win 0).index t a = (![0, t.val / 49] : Fin 2 → ℕ) a := by
  have ht := lt0 t
  show cc0_transform_0 (grid0.coords t) a = _
  unfold cc0_transform_0
  fin_cases a
  · rfl
  · show (BitVec.ofNat 32 ((grid0.coords t) 0).val).toNat = t.val / 49
    rw [BitVec.toNat_ofNat, coords0_0]
    omega
theorem index0_1 (t : Fin cfg0.N) (a : Fin 2) : (cfg0.win 1).index t a = (![t.val % 49, 0] : Fin 2 → ℕ) a := by
  show cc0_transform_1 (grid0.coords t) a = _
  unfold cc0_transform_1
  fin_cases a
  · show (BitVec.ofNat 32 ((grid0.coords t) 1).val).toNat = t.val % 49
    rw [BitVec.toNat_ofNat, coords0_1]
    omega
  · rfl
theorem index0_2 (t : Fin cfg0.N) (a : Fin 2) : (cfg0.win 2).index t a = (![t.val / 49, 0] : Fin 2 → ℕ) a := by
  have ht := lt0 t
  show cc0_transform_2 (grid0.coords t) a = _
  unfold cc0_transform_2
  fin_cases a
  · show (BitVec.ofNat 32 ((grid0.coords t) 0).val).toNat = t.val / 49
    rw [BitVec.toNat_ofNat, coords0_0]
    omega
  · rfl

/-- The output window is written back exactly at a row's last point: its block index is the row, which changes
    between a point and the next exactly when the point is its row's last, and the grid's last point is a row's last. -/
theorem flush0_2 (t : Fin cfg0.N) : (cfg0.win 2).flush t = true ↔ t.val % 49 = 48 := by
  have ht := lt0 t
  have hidx : ∀ s : Fin cfg0.N, (cfg0.win 2).index s = (![s.val / 49, 0] : Fin 2 → ℕ) := fun s => funext (index0_2 s)
  unfold Pipeline.Window.flush
  rw [show (cfg0.win 2).isOut = true from rfl, Bool.true_and, Bool.or_eq_true, decide_eq_true_eq, decide_eq_true_eq]
  constructor
  · rintro (h | ⟨h, hne⟩)
    · have h' : t.val + 1 = 38318 := h.trans N0_eq
      omega
    · rw [hidx, hidx] at hne
      by_contra hc
      apply hne
      have hd : (t.val + 1) / 49 = t.val / 49 := by omega
      show (![(t.val + 1) / 49, 0] : Fin 2 → ℕ) = ![t.val / 49, 0]
      rw [hd]
  · intro h
    by_cases hl : t.val + 1 = 38318
    · exact Or.inl (hl.trans N0_eq.symm)
    · refine Or.inr ⟨lt_of_lt_of_eq (by omega : t.val + 1 < 38318) N0_eq.symm, ?_⟩
      rw [hidx, hidx]
      intro heq
      have h0 := congrFun heq 0
      have h0' : (t.val + 1) / 49 = t.val / 49 := h0
      omega

end Cert.Kernel.Hand

end
-- ==== Proof.K.Dat0.lean ====
/-
  The proof data of the gather region (pipeline 0) at the buffer contents `V` the region is entered from:
  the accumulator's contents point by point (a recursion over the points, each step the body's `accNext0`), the
  invariant that keeps the scratch buffer at that value between points, what each window's staging buffer holds after
  the body, and the body obligation.
-/
import proofs.«420660_j45414984188550_2_alg».proof.Proof.K.Sched0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the first `n` points (zero before the first). -/
def acc0 (c : Dev nD) : ℕ → Vec F S2048x64 .f32
  | 0 => k0_pay1
  | n + 1 => if h : n < cfg0.N then accNext0 (grid0.coords ⟨n, h⟩) (iblk0 V c 0 ⟨n, h⟩) (iblk0 V c 1 ⟨n, h⟩) (acc0 c n) else acc0 c n

theorem acc0_succ (c : Dev nD) (n : ℕ) (h : n < cfg0.N) :
    acc0 V c (n + 1) = accNext0 (grid0.coords ⟨n, h⟩) (iblk0 V c 0 ⟨n, h⟩) (iblk0 V c 1 ⟨n, h⟩) (acc0 V c n) := by
  rw [acc0, dif_pos h]

/-- The kernel's scratch buffer, whole. -/
abbrev scM0 : Memref sig .tc .vmem S2048x64 .f32 := Memref.whole cc0_scratch0

/-- The scoped buffers that are neither this pipeline's staging buffers nor its scratch, each at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- The invariant before point `t`: the scratch buffer holds the accumulator left by the points before (anything before
    the first point), the other scoped buffers are held at some contents. -/
def Phi0 (c : Dev nD) (t : Fin (cfg0.N + 1)) : sProp 𝕄 :=
  iprop((∃ a : Vec F S2048x64 .f32, ⌜t.val ≠ 0 → a = acc0 V c t.val⌝ ∗ owns (c : Thread nD τ) scM0 fullShare a) ∗ rest0 c)

/-- The invariant at the first point, from the scoped buffers the pipeline does not stage. -/
theorem Phi0_intro (c : Dev nD) :
    (Pipeline.scopedRest (Ix := Unit) (Name := ℕ) (U := UR sig nD τ) (Lvl := ℕ) (Val := Elt F) spec0 c : sProp 𝕄) ⊢ Phi0 V c 0 := by
  rw [scopedRest0_eq]; unfold Phi0 rest0; simp only [scM0, owns_whole]
  iintro ⟨⟨%f, Hs⟩, Hr⟩
  isplitl [Hs]
  · iexists f; isplitr
    · ipureintro; intro h; exact absurd (Fin.val_zero _) h
    · iexact Hs
  · iexact Hr

/-- The invariant at any point gives those scoped buffers back. -/
theorem Phi0_elim (c : Dev nD) (t : Fin (cfg0.N + 1)) :
    Phi0 V c t ⊢ (Pipeline.scopedRest (Ix := Unit) (Name := ℕ) (U := UR sig nD τ) (Lvl := ℕ) (Val := Elt F) spec0 c : sProp 𝕄) := by
  rw [scopedRest0_eq]; unfold Phi0 rest0; simp only [scM0, owns_whole]
  iintro ⟨⟨%a, -, Hs⟩, Hr⟩
  isplitl [Hs]
  · iexists a; iexact Hs
  · iexact Hr

/-- The proof data: the arrays as the region finds them; after the body each input's buffer at its block and the
    output's at the accumulator after the point (narrowed); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c (t.val + 1))
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c (t.val + 1)) := by dsimp only [dat0]
theorem Phi_eq0 (c : Dev nD) (t : Fin (cfg0.N + 1)) : (dat0 V c).Φ t = Phi0 V c t := by dsimp only [dat0]

/-- An input window's current buffer holds the window's block at the point, whether the block was fetched at this
    point or is the one fetched at an earlier point of the same index: the body leaves the inputs in place. -/
private theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]
  rw [(dat0 V c).before_in_eq_fetched 0 rfl (fun _ => rfl) (fun _ _ _ => rfl) hkeep t d]
  unfold Dat.fetched Dat.blockOf iblk0; rw [A_eq0]; rfl

private theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]
  rw [(dat0 V c).before_in_eq_fetched 1 rfl (fun _ => rfl) (fun _ _ _ => rfl) hkeep t d]
  unfold Dat.fetched Dat.blockOf iblk0; rw [A_eq0]; rfl

/-- One step of the accumulator's recursion from what the scratch buffer holds before the point: after the first point
    it holds the accumulator so far; at the first point, a row's first, the body resets it whatever it holds. -/
private theorem acc0_step (c : Dev nD) (t : Fin cfg0.N) (a : Vec F S2048x64 .f32) (ha : t.val ≠ 0 → a = acc0 V c t.val) :
    accNext0 (grid0.coords t) (iblk0 V c 0 t) (iblk0 V c 1 t) a = acc0 V c (t.val + 1) := by
  rw [acc0_succ V c t.val t.isLt]
  by_cases h0 : t.val = 0
  · have hf : first0 (grid0.coords t) := (first0_iff t).mpr (by rw [h0])
    show k0_pay2 _ _ _ (if first0 (grid0.coords t) then k0_pay1 else a)
      = k0_pay2 _ _ _ (if first0 (grid0.coords t) then k0_pay1 else acc0 V c t.val)
    rw [if_pos hf, if_pos hf]
  · rw [ha h0]

/-- The body at a point, the windows one by one: the inputs' buffers at their blocks, the output's at whatever it holds,
    the scratch at the accumulator so far. The body's triple hands back the inputs, the next accumulator and the output
    block; what the obligation asks of the output block is decided by the point's place in its row. -/
private theorem sound_body0 (c : Dev nD) (t : Fin cfg0.N) :
    iprop(Phi0 V c t.castSucc ∗ (dat0 V c).owesAt () t.castSucc
      ∗ (∃ d, owns (c : Thread nD τ) ((cfg0.win 0).stage (cfg0.slots t 0)) fullShare ((dat0 V c).before 0 t d))
      ∗ (∃ d, owns (c : Thread nD τ) ((cfg0.win 1).stage (cfg0.slots t 1)) fullShare ((dat0 V c).before 1 t d))
      ∗ (∃ d, owns (c : Thread nD τ) ((cfg0.win 2).stage (cfg0.slots t 2)) fullShare ((dat0 V c).before 2 t d)))
    ⊢ wp frame (wpE (defs₀ (F := F)) Variants.none c none) Set.univ
        (cc0__gather_kernel (grid0.coords t) (win0_0.stage (cfg0.slots t 0)) (hstage0_0 ((cfg0.slots t 0).cast nbuf0_0))
          (win0_1.stage (cfg0.slots t 1)) (hstage0_1 ((cfg0.slots t 1).cast nbuf0_1))
          (win0_2.stage (cfg0.slots t 2)) (hstage0_2 ((cfg0.slots t 2).cast nbuf0_2))
          (Memref.whole cc0_scratch0) (Memref.isWhole_whole _))
        (fun _ => iprop(Phi0 V c t.succ ∗ (dat0 V c).owesAt () t.succ
          ∗ owns (c : Thread nD τ) ((cfg0.win 0).stage (cfg0.slots t 0)) fullShare ((dat0 V c).after 0 t)
          ∗ owns (c : Thread nD τ) ((cfg0.win 1).stage (cfg0.slots t 1)) fullShare ((dat0 V c).after 1 t)
          ∗ (dat0 V c).leavesExact 2 t)) := by
  simp only [before0_0, before0_1]
  rw [after0_0, after0_1]
  unfold Phi0
  by_cases h48 : t.val % 49 = 48
  · -- the row's last point: the window is live and written back, the body stores the narrowed accumulator
    have hi : cfg0.idle 2 (cfg0.grid.coords t) = false := Bool.eq_false_iff.mpr fun h => (idle0_2 t).mp h h48
    rw [show (dat0 V c).leavesExact 2 t
        = owns (c : Thread nD τ) ((cfg0.win 2).stage (cfg0.slots t 2)) fullShare ((dat0 V c).after 2 t) from by
      unfold Dat.leavesExact; rw [hi], after0_2]
    iintro ⟨⟨⟨%a, %ha, Hs⟩, Hr⟩, Ho, ⟨%d0, H0⟩, ⟨%d1, H1⟩, ⟨%d2, H2⟩⟩
    iapply (sound_kernel0 c Set.univ (grid0.coords t) _ _ _ _ _ _ _ _ (iblk0 V c 0 t) (iblk0 V c 1 t) ((dat0 V c).before 2 t d2) a _)
    isplitl [H0]; · iexact H0
    isplitl [H1]; · iexact H1
    isplitl [H2]; · iexact H2
    isplitl [Hs]; · iexact Hs
    iintro ⟨H0, H1, H2, Hs⟩
    rw [outNext0, if_pos ((last0_iff t).mpr h48), acc0_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexact H2
  · -- any other point: the window is idle and not written back, the body hands the buffer back as found
    have hi : cfg0.idle 2 (cfg0.grid.coords t) = true := (idle0_2 t).mpr h48
    have hf : (cfg0.win 2).flush t = false := Bool.eq_false_iff.mpr fun h => h48 ((flush0_2 t).mp h)
    rw [Dat.leavesExact_idle (dat0 V c) 2 t hi hf]
    iintro ⟨⟨⟨%a, %ha, Hs⟩, Hr⟩, Ho, ⟨%d0, H0⟩, ⟨%d1, H1⟩, ⟨%d2, H2⟩⟩
    iapply (sound_kernel0 c Set.univ (grid0.coords t) _ _ _ _ _ _ _ _ (iblk0 V c 0 t) (iblk0 V c 1 t) ((dat0 V c).before 2 t d2) a _)
    isplitl [H0]; · iexact H0
    isplitl [H1]; · iexact H1
    isplitl [H2]; · iexact H2
    isplitl [Hs]; · iexact Hs
    iintro ⟨H0, H1, H2, Hs⟩
    rw [outNext0, if_neg fun h => h48 ((last0_iff t).mp h), acc0_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexists d2; iexact H2

/-- The body obligation at every point: the inputs' buffers hold their blocks, the scratch the accumulator so far; the
    body's triple gives the next accumulator, and the output block either stored (the row's last point) or handed back
    as found (every other point, where the window is idle and not written back). -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The scatter kernel's body at one grid point, as one triple over the contents of its four buffers.
  The grid is (node block, edge block). At a point the body resets the accumulator to zero when the edge block is the
  row's first, adds the one-hot product of the point's edge block of messages to it, and stores the accumulator into the
  output block when the edge block is the row's last; otherwise the output block is left as it was found.
-/
import proofs.«420660_j45414984188550_2_alg».proof.Proof.Gen.Kernel.Launch
import proofs.«420660_j45414984188550_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The edge block is the first of its row: the body's first conditional, from the grid coordinates. -/
abbrev first1 (i : grid1.Coords) : Prop :=
  (Scalar.cmpi .ne (Scalar.extui (Scalar.cmpi .eq (BitVec.ofNat 32 (i 1).val) 0#32)) 0#32) = 1#1

/-- The accumulator after the point: the one-hot product of this edge block added to the accumulator found, or to zero
    when the edge block is the row's first. -/
def accNext1 (i : grid1.Coords) (x0 : Vec F S1x2048 .i32) (x1 : Vec F S2048x64 .bf16) (a : Vec F S3072x64 .f32) :
    Vec F S3072x64 .f32 :=
  k1_pay2 i x0 x1 (if first1 i then k1_pay1 else a)

/-- The output block after the point: the accumulator at the row's last edge block, untouched elsewhere. -/
def outNext1 (i : grid1.Coords) (x0 : Vec F S1x2048 .i32) (x1 : Vec F S2048x64 .bf16) (x2 : Vec F S3072x64 .f32)
    (a : Vec F S3072x64 .f32) : Vec F S3072x64 .f32 :=
  if k1_cond2 i = 1#1 then accNext1 i x0 x1 a else x2

/-! ## Whole-buffer accesses

Every load and store of the body goes through the rectangle that starts at offset zero on both axes and has the
buffer's own extents: a load through it reads the contents, and a store through it replaces them, whatever was stored
before. -/

/-- The offsets of the body's rectangles are zero on both axes. -/
private theorem hz : (![0, 0] : Fin 2 → Nat) = fun _ => 0 := funext fun a => by fin_cases a <;> rfl

/-- A buffer whose LAST store went through the whole-buffer rectangle reads as that store's payload: the rectangle
    holds every index, so the earlier stores and the contents found are all overwritten. -/
private theorem read_last_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  refine (View.read_writes_eq_canon _ _ _ ?_).trans (View.canon_cons_unit_zero h inb w L)
  exact fun y => ⟨_, List.Mem.head _, View.mem_set_unit_zero h inb y⟩

/-! ## The triple, with the written buffers' final contents left open

The body's two conditionals depend on the grid point only, so the body runs in one of four ways. Each way is a triple
of the same form, differing in what the output block and the accumulator hold at the end. -/

/-- From the four buffers at `x0`, `x1`, `x2`, `a` the body runs to the continuation with the index block and the
    message block as found, the output block at `o` and the accumulator at `a'`. -/
private def RunsTo1 (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (o : Vec F S3072x64 .f32) (a' : Vec F S3072x64 .f32) : Prop :=
  iprop(owns (c : Thread nD τ) arg2 fullShare x0 ∗ owns (c : Thread nD τ) arg3 fullShare x1
      ∗ owns (c : Thread nD τ) arg4 fullShare x2 ∗ owns (c : Thread nD τ) arg5 fullShare a
      ∗ (iprop(owns (c : Thread nD τ) arg2 fullShare x0 ∗ owns (c : Thread nD τ) arg3 fullShare x1
          ∗ owns (c : Thread nD τ) arg4 fullShare o
          ∗ owns (c : Thread nD τ) arg5 fullShare a') -∗ K ⟨⟩))
    ⊢ wp frame (wpE (defs₀ (F := F)) Variants.none c none) E (cc1__scatter_kernel i arg2 harg2 arg3 harg3 arg4 harg4 arg5 harg5) K

/-- First and last edge block of the row: the accumulator is zeroed, the product is added to the zero, and the sum,
    read back from the accumulator, is stored into the output block. -/
private theorem runs1_first_last (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : first1 i) (h2 : k1_cond2 i = 1#1) :
    RunsTo1 c E i arg2 harg2 arg3 harg3 arg4 harg4 arg5 harg5 x0 x1 x2 a K
      (k1_pay2 i x0 x1 k1_pay1) (k1_pay2 i x0 x1 k1_pay1) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz, View.ld_unit_zero (S := S3072x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- First edge block of the row, not the last: the accumulator is zeroed and the product added to the zero; the output
    block is not touched. -/
private theorem runs1_first_inner (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : first1 i) (h2 : ¬k1_cond2 i = 1#1) :
    RunsTo1 c E i arg2 harg2 arg3 harg3 arg4 harg4 arg5 harg5 x0 x1 x2 a K
      x2 (k1_pay2 i x0 x1 k1_pay1) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- Last edge block of the row, not the first: the product is added to the accumulator found, and the sum, read back
    from the accumulator, is stored into the output block. -/
private theorem runs1_later_last (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : ¬first1 i) (h2 : k1_cond2 i = 1#1) :
    RunsTo1 c E i arg2 harg2 arg3 harg3 arg4 harg4 arg5 harg5 x0 x1 x2 a K
      (k1_pay2 i x0 x1 a) (k1_pay2 i x0 x1 a) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz, View.ld_unit_zero (S := S3072x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- Neither the first nor the last edge block of the row: the product is added to the accumulator found; the output
    block is not touched. -/
private theorem runs1_later_inner (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : ¬first1 i) (h2 : ¬k1_cond2 i = 1#1) :
    RunsTo1 c E i arg2 harg2 arg3 harg3 arg4 harg4 arg5 harg5 x0 x1 x2 a K
      x2 (k1_pay2 i x0 x1 a) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- The body on whole buffers: the index block and the message block are read and kept, the accumulator and the output
    block end as `accNext1` and `outNext1` say. -/
theorem sound_kernel1 (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare a
        ∗ (iprop(owns (c : Thread nD τ) arg2 fullShare x0 ∗ owns (c : Thread nD τ) arg3 fullShare x1
            ∗ owns (c : Thread nD τ) arg4 fullShare (outNext1 i x0 x1 x2 a)
            ∗ owns (c : Thread nD τ) arg5 fullShare (accNext1 i x0 x1 a)) -∗ K ⟨⟩))
      ⊢ wp frame (wpE (defs₀ (F := F)) Variants.none c none) E (cc1__scatter_kernel i arg2 harg2 arg3 harg3 arg4 harg4 arg5 harg5) K := by
  unfold outNext1 accNext1
  by_cases h1 : first1 i
  · by_cases h2 : k1_cond2 i = 1#1
    · rw [if_pos h1, if_pos h2]; exact runs1_first_last c E i arg2 harg2 arg3 harg3 arg4 harg4 arg5 harg5 x0 x1 x2 a K h1 h2
    · rw [if_pos h1, if_neg h2]; exact runs1_first_inner c E i arg2 harg2 arg3 harg3 arg4 harg4 arg5 harg5 x0 x1 x2 a K h1 h2
  · by_cases h2 : k1_cond2 i = 1#1
    · rw [if_neg h1, if_pos h2]; exact runs1_later_last c E i arg2 harg2 arg3 harg3 arg4 harg4 arg5 harg5 x0 x1 x2 a K h1 h2
    · rw [if_neg h1, if_neg h2]; exact runs1_later_inner c E i arg2 harg2 arg3 harg3 arg4 harg4 arg5 harg5 x0 x1 x2 a K h1 h2

end Cert.Kernel.Hand

end
-- ==== Proof.K.Sched1.lean ====
/-
  The schedule of pipeline 1 on its grid of 33 × 782 points, by arithmetic: point `t` has coordinates
  (t / 782, t % 782); the body's two conditionals hold at a row's first and last point; the output window is written back
  exactly at a row's last point and is idle at every other; and each window's block index at a point.
-/
import proofs.«420660_j45414984188550_2_alg».proof.Proof.K.Body1
import Idealize.ShloMosaic.Lib.Affine

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N1_eq : cfg1.N = 25806 := by decide

/-- Consecutive points share coordinate 0 in runs of 782 (the bound of axis 1) and coordinate 1 in runs of 1. -/
private theorem stride1_0 : grid1.stride 0 = 782 := by decide
private theorem stride1_1 : grid1.stride 1 = 1 := by decide

private theorem lt1 (t : Fin cfg1.N) : t.val < 25806 := lt_of_lt_of_eq t.isLt N1_eq

/-- Two 32-bit words made from numbers below 2 ^ 32 are equal exactly when the numbers are. -/
private theorem ofNat32_inj1 (k c : ℕ) (hk : k < 2 ^ 32) (hc : c < 2 ^ 32) :
    BitVec.ofNat 32 k = BitVec.ofNat 32 c ↔ k = c := by
  rw [← BitVec.toNat_inj, BitVec.toNat_ofNat, BitVec.toNat_ofNat, Nat.mod_eq_of_lt hk, Nat.mod_eq_of_lt hc]

/-- A conditional as the kernel computes it (a comparison's bit, widened, tested against zero) holds exactly when
    the coordinate compared is the literal. -/
private theorem guard_ofNat1 (k c : ℕ) (hk : k < 2 ^ 32) (hc : c < 2 ^ 32) :
    Scalar.cmpi .ne (Scalar.extui (Scalar.cmpi .eq (BitVec.ofNat 32 k) (BitVec.ofNat 32 c))) 0#32 = 1#1 ↔ k = c := by
  rw [Scalar.guard_iff, Scalar.cmpi, IntOp.cmpi_eq, ofNat32_inj1 k c hk hc]

theorem coords1_0 (t : Fin cfg1.N) : ((grid1.coords t) 0).val = t.val / 782 := by
  have ht := lt1 t
  show t.val / grid1.stride 0 % 33 = t.val / 782
  rw [stride1_0]
  omega
theorem coords1_1 (t : Fin cfg1.N) : ((grid1.coords t) 1).val = t.val % 782 := by
  show t.val / grid1.stride 1 % 782 = t.val % 782
  rw [stride1_1, Nat.div_one]

/-- The first conditional holds exactly at a row's first point. -/
theorem first1_iff (t : Fin cfg1.N) : first1 (grid1.coords t) ↔ t.val % 782 = 0 := by
  show Scalar.cmpi .ne (Scalar.extui (Scalar.cmpi .eq (BitVec.ofNat 32 ((grid1.coords t) 1).val) (BitVec.ofNat 32 0))) 0#32 = 1#1 ↔ _
  rw [coords1_1, guard_ofNat1 _ _ (by omega) (by omega)]
/-- The second conditional holds exactly at a row's last point. -/
theorem last1_iff (t : Fin cfg1.N) : k1_cond2 (grid1.coords t) = 1#1 ↔ t.val % 782 = 781 := by
  show Scalar.cmpi .ne (Scalar.extui (Scalar.cmpi .eq (BitVec.ofNat 32 ((grid1.coords t) 1).val) (BitVec.ofNat 32 781))) 0#32 = 1#1 ↔ _
  rw [coords1_1, guard_ofNat1 _ _ (by omega) (by omega)]

/-- The output window is idle exactly off a row's last point; the input windows never. -/
theorem idle1_2 (t : Fin cfg1.N) : cfg1.idle 2 (grid1.coords t) = true ↔ t.val % 782 ≠ 781 := by
  show (!(k1_cond2 (grid1.coords t) == 1#1)) = true ↔ _
  rw [Bool.not_eq_true', beq_eq_false_iff_ne, ne_eq, last1_iff]
theorem live1_0 (i : grid1.Coords) : cfg1.idle 0 i = false := rfl
theorem live1_1 (i : grid1.Coords) : cfg1.idle 1 i = false := rfl

/-- The windows' block indices at a point. -/
theorem index1_0 (t : Fin cfg1.N) (a : Fin 2) : (cfg1.win 0).index t a = (![0, t.val % 782] : Fin 2 → ℕ) a := by
  show cc1_transform_0 (grid1.coords t) a = _
  unfold cc1_transform_0
  fin_cases a
  · rfl
  · show (BitVec.ofNat 32 ((grid1.coords t) 1).val).toNat = t.val % 782
    rw [BitVec.toNat_ofNat, coords1_1]
    omega
theorem index1_1 (t : Fin cfg1.N) (a : Fin 2) : (cfg1.win 1).index t a = (![t.val % 782, 0] : Fin 2 → ℕ) a := by
  show cc1_transform_1 (grid1.coords t) a = _
  unfold cc1_transform_1
  fin_cases a
  · show (BitVec.ofNat 32 ((grid1.coords t) 1).val).toNat = t.val % 782
    rw [BitVec.toNat_ofNat, coords1_1]
    omega
  · rfl
theorem index1_2 (t : Fin cfg1.N) (a : Fin 2) : (cfg1.win 2).index t a = (![t.val / 782, 0] : Fin 2 → ℕ) a := by
  have ht := lt1 t
  show cc1_transform_2 (grid1.coords t) a = _
  unfold cc1_transform_2
  fin_cases a
  · show (BitVec.ofNat 32 ((grid1.coords t) 0).val).toNat = t.val / 782
    rw [BitVec.toNat_ofNat, coords1_0]
    omega
  · rfl

/-- The output window is written back exactly at a row's last point: its block index is the row, which changes
    between a point and the next exactly when the point is its row's last, and the grid's last point is a row's last. -/
theorem flush1_2 (t : Fin cfg1.N) : (cfg1.win 2).flush t = true ↔ t.val % 782 = 781 := by
  have ht := lt1 t
  have hidx : ∀ s : Fin cfg1.N, (cfg1.win 2).index s = (![s.val / 782, 0] : Fin 2 → ℕ) := fun s => funext (index1_2 s)
  unfold Pipeline.Window.flush
  rw [show (cfg1.win 2).isOut = true from rfl, Bool.true_and, Bool.or_eq_true, decide_eq_true_eq, decide_eq_true_eq]
  constructor
  · rintro (h | ⟨h, hne⟩)
    · have h' : t.val + 1 = 25806 := h.trans N1_eq
      omega
    · rw [hidx, hidx] at hne
      by_contra hc
      apply hne
      have hd : (t.val + 1) / 782 = t.val / 782 := by omega
      show (![(t.val + 1) / 782, 0] : Fin 2 → ℕ) = ![t.val / 782, 0]
      rw [hd]
  · intro h
    by_cases hl : t.val + 1 = 25806
    · exact Or.inl (hl.trans N1_eq.symm)
    · refine Or.inr ⟨lt_of_lt_of_eq (by omega : t.val + 1 < 25806) N1_eq.symm, ?_⟩
      rw [hidx, hidx]
      intro heq
      have h0 := congrFun heq 0
      have h0' : (t.val + 1) / 782 = t.val / 782 := h0
      omega

end Cert.Kernel.Hand

end
-- ==== Proof.K.Dat1.lean ====
/-
  The proof data of the scatter region (pipeline 1) at the buffer contents `V` the region is entered from:
  the accumulator's contents point by point (a recursion over the points, each step the body's `accNext1`), the
  invariant that keeps the scratch buffer at that value between points, what each window's staging buffer holds after
  the body, and the body obligation.
-/
import proofs.«420660_j45414984188550_2_alg».proof.Proof.K.Sched1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the first `n` points (zero before the first). -/
def acc1 (c : Dev nD) : ℕ → Vec F S3072x64 .f32
  | 0 => k1_pay1
  | n + 1 => if h : n < cfg1.N then accNext1 (grid1.coords ⟨n, h⟩) (iblk1 V c 0 ⟨n, h⟩) (iblk1 V c 1 ⟨n, h⟩) (acc1 c n) else acc1 c n

theorem acc1_succ (c : Dev nD) (n : ℕ) (h : n < cfg1.N) :
    acc1 V c (n + 1) = accNext1 (grid1.coords ⟨n, h⟩) (iblk1 V c 0 ⟨n, h⟩) (iblk1 V c 1 ⟨n, h⟩) (acc1 V c n) := by
  rw [acc1, dif_pos h]

/-- The kernel's scratch buffer, whole. -/
abbrev scM1 : Memref sig .tc .vmem S3072x64 .f32 := Memref.whole cc1_scratch0

/-- The scoped buffers that are neither this pipeline's staging buffers nor its scratch, each at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f))

/-- The invariant before point `t`: the scratch buffer holds the accumulator left by the points before (anything before
    the first point), the other scoped buffers are held at some contents. -/
def Phi1 (c : Dev nD) (t : Fin (cfg1.N + 1)) : sProp 𝕄 :=
  iprop((∃ a : Vec F S3072x64 .f32, ⌜t.val ≠ 0 → a = acc1 V c t.val⌝ ∗ owns (c : Thread nD τ) scM1 fullShare a) ∗ rest1 c)

/-- The invariant at the first point, from the scoped buffers the pipeline does not stage. -/
theorem Phi1_intro (c : Dev nD) :
    (Pipeline.scopedRest (Ix := Unit) (Name := ℕ) (U := UR sig nD τ) (Lvl := ℕ) (Val := Elt F) spec1 c : sProp 𝕄) ⊢ Phi1 V c 0 := by
  rw [scopedRest1_eq]; unfold Phi1 rest1; simp only [scM1, owns_whole]
  iintro ⟨H1, H2, H3, H4, H5, H6, H7, ⟨%f, Hs⟩⟩
  isplitl [Hs]
  · iexists f; isplitr
    · ipureintro; intro h; exact absurd (Fin.val_zero _) h
    · iexact Hs
  isplitl [H1]; · iexact H1
  isplitl [H2]; · iexact H2
  isplitl [H3]; · iexact H3
  isplitl [H4]; · iexact H4
  isplitl [H5]; · iexact H5
  isplitl [H6]; · iexact H6
  iexact H7

/-- The invariant at any point gives those scoped buffers back. -/
theorem Phi1_elim (c : Dev nD) (t : Fin (cfg1.N + 1)) :
    Phi1 V c t ⊢ (Pipeline.scopedRest (Ix := Unit) (Name := ℕ) (U := UR sig nD τ) (Lvl := ℕ) (Val := Elt F) spec1 c : sProp 𝕄) := by
  rw [scopedRest1_eq]; unfold Phi1 rest1; simp only [scM1, owns_whole]
  iintro ⟨⟨%a, -, Hs⟩, H1, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexists a; iexact Hs

/-- The proof data: the arrays as the region finds them; after the body each input's buffer at its block and the
    output's at the accumulator after the point; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c (t.val + 1)
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c (t.val + 1) := by dsimp only [dat1]
theorem Phi_eq1 (c : Dev nD) (t : Fin (cfg1.N + 1)) : (dat1 V c).Φ t = Phi1 V c t := by dsimp only [dat1]

/-- An input window's current buffer holds the window's block at the point, whether the block was fetched at this
    point or is the one fetched at an earlier point of the same index: the body leaves the inputs in place. -/
private theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

private theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- One step of the accumulator's recursion from what the scratch buffer holds before the point: after the first point
    it holds the accumulator so far; at the first point, a row's first, the body resets it whatever it holds. -/
private theorem acc1_step (c : Dev nD) (t : Fin cfg1.N) (a : Vec F S3072x64 .f32) (ha : t.val ≠ 0 → a = acc1 V c t.val) :
    accNext1 (grid1.coords t) (iblk1 V c 0 t) (iblk1 V c 1 t) a = acc1 V c (t.val + 1) := by
  rw [acc1_succ V c t.val t.isLt]
  by_cases h0 : t.val = 0
  · have hf : first1 (grid1.coords t) := (first1_iff t).mpr (by rw [h0])
    show k1_pay2 _ _ _ (if first1 (grid1.coords t) then k1_pay1 else a)
      = k1_pay2 _ _ _ (if first1 (grid1.coords t) then k1_pay1 else acc1 V c t.val)
    rw [if_pos hf, if_pos hf]
  · rw [ha h0]

/-- The body at a point, the windows one by one: the inputs' buffers at their blocks, the output's at whatever it holds,
    the scratch at the accumulator so far. The body's triple hands back the inputs, the next accumulator and the output
    block; what the obligation asks of the output block is decided by the point's place in its row. -/
private theorem sound_body1 (c : Dev nD) (t : Fin cfg1.N) :
    iprop(Phi1 V c t.castSucc ∗ (dat1 V c).owesAt () t.castSucc
      ∗ (∃ d, owns (c : Thread nD τ) ((cfg1.win 0).stage (cfg1.slots t 0)) fullShare ((dat1 V c).before 0 t d))
      ∗ (∃ d, owns (c : Thread nD τ) ((cfg1.win 1).stage (cfg1.slots t 1)) fullShare ((dat1 V c).before 1 t d))
      ∗ (∃ d, owns (c : Thread nD τ) ((cfg1.win 2).stage (cfg1.slots t 2)) fullShare ((dat1 V c).before 2 t d)))
    ⊢ wp frame (wpE (defs₀ (F := F)) Variants.none c none) Set.univ
        (cc1__scatter_kernel (grid1.coords t) (win1_0.stage (cfg1.slots t 0)) (hstage1_0 ((cfg1.slots t 0).cast nbuf1_0))
          (win1_1.stage (cfg1.slots t 1)) (hstage1_1 ((cfg1.slots t 1).cast nbuf1_1))
          (win1_2.stage (cfg1.slots t 2)) (hstage1_2 ((cfg1.slots t 2).cast nbuf1_2))
          (Memref.whole cc1_scratch0) (Memref.isWhole_whole _))
        (fun _ => iprop(Phi1 V c t.succ ∗ (dat1 V c).owesAt () t.succ
          ∗ owns (c : Thread nD τ) ((cfg1.win 0).stage (cfg1.slots t 0)) fullShare ((dat1 V c).after 0 t)
          ∗ owns (c : Thread nD τ) ((cfg1.win 1).stage (cfg1.slots t 1)) fullShare ((dat1 V c).after 1 t)
          ∗ (dat1 V c).leavesExact 2 t)) := by
  simp only [before1_0, before1_1]
  rw [after1_0, after1_1]
  unfold Phi1
  by_cases h781 : t.val % 782 = 781
  · -- the row's last point: the window is live and written back, the body stores the accumulator
    have hi : cfg1.idle 2 (cfg1.grid.coords t) = false := Bool.eq_false_iff.mpr fun h => (idle1_2 t).mp h h781
    rw [show (dat1 V c).leavesExact 2 t
        = owns (c : Thread nD τ) ((cfg1.win 2).stage (cfg1.slots t 2)) fullShare ((dat1 V c).after 2 t) from by
      unfold Dat.leavesExact; rw [hi], after1_2]
    iintro ⟨⟨⟨%a, %ha, Hs⟩, Hr⟩, Ho, ⟨%d0, H0⟩, ⟨%d1, H1⟩, ⟨%d2, H2⟩⟩
    iapply (sound_kernel1 c Set.univ (grid1.coords t) _ _ _ _ _ _ _ _ (iblk1 V c 0 t) (iblk1 V c 1 t) ((dat1 V c).before 2 t d2) a _)
    isplitl [H0]; · iexact H0
    isplitl [H1]; · iexact H1
    isplitl [H2]; · iexact H2
    isplitl [Hs]; · iexact Hs
    iintro ⟨H0, H1, H2, Hs⟩
    rw [outNext1, if_pos ((last1_iff t).mpr h781), acc1_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexact H2
  · -- any other point: the window is idle and not written back, the body hands the buffer back as found
    have hi : cfg1.idle 2 (cfg1.grid.coords t) = true := (idle1_2 t).mpr h781
    have hf : (cfg1.win 2).flush t = false := Bool.eq_false_iff.mpr fun h => h781 ((flush1_2 t).mp h)
    rw [Dat.leavesExact_idle (dat1 V c) 2 t hi hf]
    iintro ⟨⟨⟨%a, %ha, Hs⟩, Hr⟩, Ho, ⟨%d0, H0⟩, ⟨%d1, H1⟩, ⟨%d2, H2⟩⟩
    iapply (sound_kernel1 c Set.univ (grid1.coords t) _ _ _ _ _ _ _ _ (iblk1 V c 0 t) (iblk1 V c 1 t) ((dat1 V c).before 2 t d2) a _)
    isplitl [H0]; · iexact H0
    isplitl [H1]; · iexact H1
    isplitl [H2]; · iexact H2
    isplitl [Hs]; · iexact Hs
    iintro ⟨H0, H1, H2, Hs⟩
    rw [outNext1, if_neg fun h => h781 ((last1_iff t).mp h), acc1_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexists d2; iexact H2

/-- The body obligation at every point: the inputs' buffers hold their blocks, the scratch the accumulator so far; the
    body's triple gives the next accumulator, and the output block either stored (the row's last point) or handed back
    as found (every other point, where the window is idle and not written back). -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: its host stretches and its two regions as the launch theorem's segments, from the launch
  memory to a final memory in which every unscoped buffer holds the last valuation — the launch contents folded through
  each host stretch and, at each region, the output array replaced by what the region's write-backs leave. The frame
  claim (the arguments end as launched) and the named result read off it.
-/
import proofs.«420660_j45414984188550_2_alg».proof.Proof.K.Dat0
import proofs.«420660_j45414984188550_2_alg».proof.Proof.K.Dat1
import proofs.«420660_j45414984188550_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffer contents region 0 is entered from, read at the TensorCore's references. -/
abbrev VA : (c : Dev nD) → (b : Ref sig .tc) → Buf (Elt F) ((c : Thread nD τ).loc b) := fun c b => V6 m c b

/-- What region 0 leaves in the message array: its write-backs folded over the entry contents. -/
def out0 (c : Dev nD) : Buf (Elt F) ((c : Thread nD τ).loc main_v10) := (dat0 (VA m) c).arrAt 2 cfg0.N

/-- The buffer contents region 1 is entered from. -/
abbrev VB : (c : Dev nD) → (b : Ref sig .tc) → Buf (Elt F) ((c : Thread nD τ).loc b) :=
  fun c b => Function.update (V6 m c) (Proc.devRef .tc main_v10) (out0 m c) b

/-- What region 1 leaves in the padded result array. -/
def out1 (c : Dev nD) : Buf (Elt F) ((c : Thread nD τ).loc main_v11) := (dat1 (VB m) c).arrAt 2 cfg1.N

/-- What the regions leave, as the family the generated valuations are written over: read only at the message array
    after region 0 and at the padded result after region 1. -/
def outs : Outs (F := F) := fun n r c =>
  if h : r = main_v10 then h ▸ out0 m c else if h' : r = main_v11 then h' ▸ out1 m c else m ((c : Thread nD τ).loc r)

theorem outs_v10 (c : Dev nD) : outs m 7 main_v10 c = out0 m c := by
  unfold outs; rw [dif_pos rfl]
theorem outs_v11 (c : Dev nD) : outs m 8 main_v11 c = out1 m c := by
  unfold outs; rw [dif_neg (by decide), dif_pos rfl]
/-- The valuation after region 0 is region 1's entry contents. -/
theorem V7_eq (c : Dev nD) (b : Ref sig .tc) : V7 m (outs m) c b = VB m c b := by
  show Function.update (V6 m c) _ (outs m 7 main_v10 c) _ = _
  rw [outs_v10]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-- What rides beside the buffers through every segment: the generator register at some state and the core owing
    nothing. -/
abbrev Rr (c : Dev nD) : sProp 𝕄 := iprop((∃ r, prngReg c r) ∗ ∃ W, owes (c : Thread nD τ) (0 : CellTallies nD τ sig Unit) W)
abbrev Ee : Fin 3 → Dev nD → sProp 𝕄 := fun _ c => Rr c
abbrev 𝒱₀ : Variants := Variants.none
abbrev Ll : GSem nD τ sig → Finset Unit := fun _ => ∅
abbrev lvl : GSem nD τ sig → Unit → ℕ := fun _ _ => 0

/-! ## The regions' exit contents against the generated valuations -/

/-- At region 0's exit each of its arrays holds what the pipeline leaves: the two inputs as entered (no write-back
    touches an input array, and no item before changed them), the message array at the folded write-backs. -/
theorem hF0 (c : Dev nD) (w : Fin cfg0.W) :
    (pdats m 0 c).arrAt w cfg0.N = (fun b : Ref sig .tc => V7 m (outs m) c b) (Pipeline.arrRef spec0 w) := by
  match w with
  | ⟨0, _⟩ =>
    exact (((pdats m 0 c).arrAt_in 0 rfl _).trans (A_eq0 (VA m) c 0)).trans (V7_of m (outs m) c main_v5 (by decide)).symm
  | ⟨1, _⟩ =>
    exact (((pdats m 0 c).arrAt_in 1 rfl _).trans (A_eq0 (VA m) c 1)).trans (V7_of m (outs m) c main_v9 (by decide)).symm
  | ⟨2, _⟩ =>
    show out0 m c = Function.update (V6 m c) _ (outs m 7 main_v10 c) _
    rw [outs_v10, Function.update_self]

/-- Off region 0's arrays the exit contents are the entry contents. -/
theorem hrest0 (c : Dev nD) : ∀ b : Ref sig .tc, b ∉ Finset.univ.image (Pipeline.arrRef spec0) →
    (fun b : Ref sig .tc => V7 m (outs m) c b) b = VA m c b := fun b hb =>
  V7_of m (outs m) c b fun h => hb (Finset.mem_image.mpr ⟨2, Finset.mem_univ _, (List.mem_singleton.mp h).symm⟩)

/-- At region 1's exit: the indices and the messages as entered, the padded result at the folded write-backs. -/
theorem hF1 (c : Dev nD) (w : Fin cfg1.W) :
    (pdats m 1 c).arrAt w cfg1.N = (fun b : Ref sig .tc => V8 m (outs m) c b) (Pipeline.arrRef spec1 w) := by
  match w with
  | ⟨0, _⟩ =>
    exact (((pdats m 1 c).arrAt_in 0 rfl _).trans (A_eq1 (VB m) c 0)).trans
      ((V8_of m (outs m) c main_v7 (by decide)).trans (V7_eq m c main_v7)).symm
  | ⟨1, _⟩ =>
    exact (((pdats m 1 c).arrAt_in 1 rfl _).trans (A_eq1 (VB m) c 1)).trans
      ((V8_of m (outs m) c main_v10 (by decide)).trans (V7_eq m c main_v10)).symm
  | ⟨2, _⟩ =>
    show out1 m c = Function.update (V7 m (outs m) c) _ (outs m 8 main_v11 c) _
    rw [outs_v11, Function.update_self]

/-- Off region 1's arrays the exit contents are the entry contents. -/
theorem hrest1 (c : Dev nD) : ∀ b : Ref sig .tc, b ∉ Finset.univ.image (Pipeline.arrRef spec1) →
    (fun b : Ref sig .tc => V8 m (outs m) c b) b = VB m c b := fun b hb =>
  (V8_of m (outs m) c b fun h => hb (Finset.mem_image.mpr ⟨2, Finset.mem_univ _, (List.mem_singleton.mp h).symm⟩)).trans
    (V7_eq m c b)

-- a library lemma stated over the pinned configuration unifies with the printed one only when unification may unfold
-- plain definitions in a metavariable's type
set_option backward.isDefEq.respectTransparency.types false in
/-- Region 0 over the thread state "every unscoped buffer at the valuation, the register, nothing owed". -/
def reg0 : RegionSeg (pcfgs (F := F)) adm (pdats m) () defs₀ 𝒱₀ Ll lvl 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ Ll lvl 0 fun _ _ => rfl
  pre c := iprop(StableHlo.held (c : Thread nD τ) (Pipeline.ucRefs τ sig) (V6 m c) ∗ Ee (F := F) 0 c)
  post c := iprop(StableHlo.held (c : Thread nD τ) (Pipeline.ucRefs τ sig) (V7 m (outs m) c) ∗ Ee (F := F) 1 c)
  X _ := iprop(emp)
  Y _ := iprop(emp)
  Z c := iprop(Pipeline.unscopedRest (Ix := Unit) (Name := ℕ) (U := UR sig nD τ) (Lvl := ℕ) spec0 c (VA m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (VA m) c 0 from Phi_eq0 (VA m) c 0]
    iintro ⟨-, -, Hr⟩
    iapply (Phi0_intro (VA m) c)
    iexact Hr
  hout c := by
    rw [Pipeline.ownSems0_none, show (pdats m 0 c).Φ (Fin.last _) = Phi0 (VA m) c (Fin.last _) from Phi_eq0 (VA m) c _]
    iintro H
    isplitr; · iempintro
    isplitr; · iempintro
    iapply (Phi0_elim (VA m) c (Fin.last _))
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V7 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 likewise. -/
def reg1 : RegionSeg (pcfgs (F := F)) adm (pdats m) () defs₀ 𝒱₀ Ll lvl 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ Ll lvl 1 fun _ _ => rfl
  pre c := iprop(StableHlo.held (c : Thread nD τ) (Pipeline.ucRefs τ sig) (V7 m (outs m) c) ∗ Ee (F := F) 1 c)
  post c := iprop(StableHlo.held (c : Thread nD τ) (Pipeline.ucRefs τ sig) (V8 m (outs m) c) ∗ Ee (F := F) 2 c)
  X _ := iprop(emp)
  Y _ := iprop(emp)
  Z c := iprop(Pipeline.unscopedRest (Ix := Unit) (Name := ℕ) (U := UR sig nD τ) (Lvl := ℕ) spec1 c (VB m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    rw [show V7 m (outs m) c = Function.update (V6 m c) (Proc.devRef .tc main_v10) (out0 m c) from by
      show Function.update (V6 m c) _ (outs m 7 main_v10 c) = _; rw [outs_v10]]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (VB m) c 0 from Phi_eq1 (VB m) c 0]
    iintro ⟨-, -, Hr⟩
    iapply (Phi1_intro (VB m) c)
    iexact Hr
  hout c := by
    rw [Pipeline.ownSems0_none, show (pdats m 1 c).Φ (Fin.last _) = Phi1 (VB m) c (Fin.last _) from Phi_eq1 (VB m) c _]
    iintro H
    isplitr; · iempintro
    isplitr; · iempintro
    iapply (Phi1_elim (VB m) c (Fin.last _))
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V8 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

theorem reg0_pre (c : Dev nD) :
    iprop(StableHlo.held (c : Thread nD τ) (Pipeline.ucRefs τ sig) (V6 m c) ∗ Ee (F := F) 0 c) ⊢ (reg0 m).pre c := .rfl
theorem reg0_post (c : Dev nD) :
    (reg0 m).post c ⊢ iprop(StableHlo.held (c : Thread nD τ) (Pipeline.ucRefs τ sig) (V7 m (outs m) c) ∗ Ee (F := F) 1 c) := .rfl
theorem reg1_pre (c : Dev nD) :
    iprop(StableHlo.held (c : Thread nD τ) (Pipeline.ucRefs τ sig) (V7 m (outs m) c) ∗ Ee (F := F) 1 c) ⊢ (reg1 m).pre c := .rfl
theorem reg1_post (c : Dev nD) :
    (reg1 m).post c ⊢ iprop(StableHlo.held (c : Thread nD τ) (Pipeline.ucRefs τ sig) (V8 m (outs m) c) ∗ Ee (F := F) 2 c) := .rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: every weakly fair execution from `m` with zero counters terminates, and in every final memory each
    unscoped buffer holds the last valuation. -/
theorem run (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = V9 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ Ll lvl m ρ main
    (segs m (outs m) 𝒱₀ Ll lvl (Ee (F := F)) () (pdats m) (reg0 m) (reg1 m))
    (fun c Q => by
      rewrite [main_chain c, Seg.run_eq_chain,
        show (segs m (outs m) 𝒱₀ Ll lvl (Ee (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ee (F := F) 0 c))
    (Tₙ := fun c => StableHlo.held (c : Thread nD τ) (Pipeline.ucRefs τ sig) (V9 m (outs m) c))
    (hch := fun c => ⟨.rfl, .rfl, .rfl, .rfl, .rfl, .rfl, reg0_pre m c, (reg0_post m c).trans (reg1_pre m c), reg1_post m c,
      sep_mono .rfl (by iintro ⟨-, H⟩; iexact H)⟩)
    (hinit := ?_)
    (QY := fun c s => ∀ b ∈ Pipeline.ucRefs τ sig, s.mem ((c : Thread nD τ).1, b) = V9 m (outs m) c b)
    (hfin := fun c s' => ?_) (hQ := hQ)
  · -- the launch: the unscoped buffers are held at the launch contents; the register and the core's dues ride along
    refine Pipeline.initEach Ll lvl fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => ((c : Thread nD τ).1, b)) (V9 m (outs m) c) s')
    isplitl [Hh] <;> iassumption

/-- The frame claim at any instance: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run m ρ fun s h c =>
    ⟨(h c _ (mem_uc main_arg0 (by decide))).trans (V9_main_arg0 m (outs m) c),
      (h c _ (mem_uc main_arg1 (by decide))).trans (V9_main_arg1 m (outs m) c)⟩

/-- The run with the result named: the result buffer ends at the last valuation's, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v12) = V9 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run m ρ fun s h c =>
    ⟨h c _ (mem_uc main_v12 (by decide)),
      (h c _ (mem_uc main_arg0 (by decide))).trans (V9_main_arg0 m (outs m) c),
      (h c _ (mem_uc main_arg1 (by decide))).trans (V9_main_arg1 m (outs m) c)⟩

end Cert.Kernel.Hand

end
-- ==== Proof.KI.Body0.lean ====
/-
  The gather kernel's body at one grid point, as one triple over the contents of its four buffers.
  The grid is (edge block, node block). At a point the body resets the accumulator to zero when the node block is the
  row's first, adds the one-hot product of the point's node block to it, and stores the accumulator (narrowed) into the
  output block when the node block is the row's last; otherwise the output block is left as it was found.
-/
import proofs.«420660_j45414984188550_2_alg».proof.Proof.Gen.KernelIdeal.Launch
import proofs.«420660_j45414984188550_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The node block is the first of its row: the body's first conditional, from the grid coordinates. -/
abbrev first0 (i : grid0.Coords) : Prop :=
  (Scalar.cmpi .ne (Scalar.extui (Scalar.cmpi .eq (BitVec.ofNat 32 (i 1).val) 0#32)) 0#32) = 1#1

/-- The accumulator after the point: the one-hot product of this node block added to the accumulator found, or to zero
    when the node block is the row's first. -/
def accNext0 (i : grid0.Coords) (x0 : Vec F S1x2048 .i32) (x1 : Vec F S2048x64 .bf16) (a : Vec F S2048x64 .f32) :
    Vec F S2048x64 .f32 :=
  k0_pay2 i x0 x1 (if first0 i then k0_pay1 else a)

/-- The output block after the point: the narrowed accumulator at the row's last node block, untouched elsewhere. -/
def outNext0 (i : grid0.Coords) (x0 : Vec F S1x2048 .i32) (x1 : Vec F S2048x64 .bf16) (x2 : Vec F S2048x64 .bf16)
    (a : Vec F S2048x64 .f32) : Vec F S2048x64 .bf16 :=
  if k0_cond2 i = 1#1 then k0_pay3 (accNext0 i x0 x1 a) else x2

/-! ## Whole-buffer accesses

Every load and store of the body goes through the rectangle that starts at offset zero on both axes and has the
buffer's own extents: a load through it reads the contents, and a store through it replaces them, whatever was stored
before. -/

/-- The offsets of the body's rectangles are zero on both axes. -/
private theorem hz : (![0, 0] : Fin 2 → Nat) = fun _ => 0 := funext fun a => by fin_cases a <;> rfl

/-- A buffer whose LAST store went through the whole-buffer rectangle reads as that store's payload: the rectangle
    holds every index, so the earlier stores and the contents found are all overwritten. -/
private theorem read_last_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  refine (View.read_writes_eq_canon _ _ _ ?_).trans (View.canon_cons_unit_zero h inb w L)
  exact fun y => ⟨_, List.Mem.head _, View.mem_set_unit_zero h inb y⟩

/-! ## The triple, with the written buffers' final contents left open

The body's two conditionals depend on the grid point only, so the body runs in one of four ways. Each way is a triple
of the same form, differing in what the output block and the accumulator hold at the end. -/

/-- From the four buffers at `x0`, `x1`, `x2`, `a` the body runs to the continuation with the index block and the
    feature block as found, the output block at `o` and the accumulator at `a'`. -/
private def RunsTo0 (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (o : Vec F S2048x64 .bf16) (a' : Vec F S2048x64 .f32) : Prop :=
  iprop(owns (c : Thread nD τ) arg2 fullShare x0 ∗ owns (c : Thread nD τ) arg3 fullShare x1
      ∗ owns (c : Thread nD τ) arg4 fullShare x2 ∗ owns (c : Thread nD τ) arg5 fullShare a
      ∗ (iprop(owns (c : Thread nD τ) arg2 fullShare x0 ∗ owns (c : Thread nD τ) arg3 fullShare x1
          ∗ owns (c : Thread nD τ) arg4 fullShare o
          ∗ owns (c : Thread nD τ) arg5 fullShare a') -∗ K ⟨⟩))
    ⊢ wp frame (wpE (defs₀ (F := F)) Variants.none c none) E (cc0__gather_kernel i arg2 harg2 arg3 harg3 arg4 harg4 arg5 harg5) K

/-- First and last node block of the row: the accumulator is zeroed, the product is added to the zero, and the sum,
    read back from the accumulator, is narrowed into the output block. -/
private theorem runs0_first_last (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : first0 i) (h2 : k0_cond2 i = 1#1) :
    RunsTo0 c E i arg2 harg2 arg3 harg3 arg4 harg4 arg5 harg5 x0 x1 x2 a K
      (k0_pay3 (k0_pay2 i x0 x1 k0_pay1)) (k0_pay2 i x0 x1 k0_pay1) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- First node block of the row, not the last: the accumulator is zeroed and the product added to the zero; the output
    block is not touched. -/
private theorem runs0_first_inner (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : first0 i) (h2 : ¬k0_cond2 i = 1#1) :
    RunsTo0 c E i arg2 harg2 arg3 harg3 arg4 harg4 arg5 harg5 x0 x1 x2 a K
      x2 (k0_pay2 i x0 x1 k0_pay1) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- Last node block of the row, not the first: the product is added to the accumulator found, and the sum, read back
    from the accumulator, is narrowed into the output block. -/
private theorem runs0_later_last (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : ¬first0 i) (h2 : k0_cond2 i = 1#1) :
    RunsTo0 c E i arg2 harg2 arg3 harg3 arg4 harg4 arg5 harg5 x0 x1 x2 a K
      (k0_pay3 (k0_pay2 i x0 x1 a)) (k0_pay2 i x0 x1 a) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- Neither the first nor the last node block of the row: the product is added to the accumulator found; the output
    block is not touched. -/
private theorem runs0_later_inner (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄)
    (h1 : ¬first0 i) (h2 : ¬k0_cond2 i = 1#1) :
    RunsTo0 c E i arg2 harg2 arg3 harg3 arg4 harg4 arg5 harg5 x0 x1 x2 a K
      x2 (k0_pay2 i x0 x1 a) := by
  unfold RunsTo0
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz]

/-- The body on whole buffers: the index block and the feature block are read and kept, the accumulator and the output
    block end as `accNext0` and `outNext0` say. -/
theorem sound_kernel0 (c : Dev nD) (E : Set ℕ) (i : grid0.Coords)
    (arg2 : Memref sig .tc .vmem S1x2048 .i32) (harg2 : arg2.IsWhole) (arg3 : Memref sig .tc .vmem S2048x64 .bf16) (harg3 : arg3.IsWhole)
    (arg4 : Memref sig .tc .vmem S2048x64 .bf16) (harg4 : arg4.IsWhole) (arg5 : Memref sig .tc .vmem S2048x64 .f32) (harg5 : arg5.IsWhole)
    (x0 : Vec F S1x2048 .i32) (x1 : Vec F S2048x64 .bf16) (x2 : Vec F S2048x64 .bf16) (a : Vec F S2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare a
        ∗ (iprop(owns (c : Thread nD τ) arg2 fullShare x0 ∗ owns (c : Thread nD τ) arg3 fullShare x1
            ∗ owns (c : Thread nD τ) arg4 fullShare (outNext0 i x0 x1 x2 a)
            ∗ owns (c : Thread nD τ) arg5 fullShare (accNext0 i x0 x1 a)) -∗ K ⟨⟩))
      ⊢ wp frame (wpE (defs₀ (F := F)) Variants.none c none) E (cc0__gather_kernel i arg2 harg2 arg3 harg3 arg4 harg4 arg5 harg5) K := by
  unfold outNext0 accNext0
  by_cases h1 : first0 i
  · by_cases h2 : k0_cond2 i = 1#1
    · rw [if_pos h1, if_pos h2]; exact runs0_first_last c E i arg2 harg2 arg3 harg3 arg4 harg4 arg5 harg5 x0 x1 x2 a K h1 h2
    · rw [if_pos h1, if_neg h2]; exact runs0_first_inner c E i arg2 harg2 arg3 harg3 arg4 harg4 arg5 harg5 x0 x1 x2 a K h1 h2
  · by_cases h2 : k0_cond2 i = 1#1
    · rw [if_neg h1, if_pos h2]; exact runs0_later_last c E i arg2 harg2 arg3 harg3 arg4 harg4 arg5 harg5 x0 x1 x2 a K h1 h2
    · rw [if_neg h1, if_neg h2]; exact runs0_later_inner c E i arg2 harg2 arg3 harg3 arg4 harg4 arg5 harg5 x0 x1 x2 a K h1 h2

end Cert.KernelIdeal.Hand

end
-- ==== Proof.KI.Sched0.lean ====
/-
  The schedule of pipeline 0 on its grid of 782 × 49 points, by arithmetic: point `t` has coordinates
  (t / 49, t % 49); the body's two conditionals hold at a row's first and last point; the output window is written back
  exactly at a row's last point and is idle at every other; and each window's block index at a point.
-/
import proofs.«420660_j45414984188550_2_alg».proof.Proof.KI.Body0
import Idealize.ShloMosaic.Lib.Affine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N0_eq : cfg0.N = 38318 := by decide

/-- Consecutive points share coordinate 0 in runs of 49 (the bound of axis 1) and coordinate 1 in runs of 1. -/
private theorem stride0_0 : grid0.stride 0 = 49 := by decide
private theorem stride0_1 : grid0.stride 1 = 1 := by decide

private theorem lt0 (t : Fin cfg0.N) : t.val < 38318 := lt_of_lt_of_eq t.isLt N0_eq

/-- Two 32-bit words made from numbers below 2 ^ 32 are equal exactly when the numbers are. -/
private theorem ofNat32_inj0 (k c : ℕ) (hk : k < 2 ^ 32) (hc : c < 2 ^ 32) :
    BitVec.ofNat 32 k = BitVec.ofNat 32 c ↔ k = c := by
  rw [← BitVec.toNat_inj, BitVec.toNat_ofNat, BitVec.toNat_ofNat, Nat.mod_eq_of_lt hk, Nat.mod_eq_of_lt hc]

/-- A conditional as the kernel computes it (a comparison's bit, widened, tested against zero) holds exactly when
    the coordinate compared is the literal. -/
private theorem guard_ofNat0 (k c : ℕ) (hk : k < 2 ^ 32) (hc : c < 2 ^ 32) :
    Scalar.cmpi .ne (Scalar.extui (Scalar.cmpi .eq (BitVec.ofNat 32 k) (BitVec.ofNat 32 c))) 0#32 = 1#1 ↔ k = c := by
  rw [Scalar.guard_iff, Scalar.cmpi, IntOp.cmpi_eq, ofNat32_inj0 k c hk hc]

theorem coords0_0 (t : Fin cfg0.N) : ((grid0.coords t) 0).val = t.val / 49 := by
  have ht := lt0 t
  show t.val / grid0.stride 0 % 782 = t.val / 49
  rw [stride0_0]
  omega
theorem coords0_1 (t : Fin cfg0.N) : ((grid0.coords t) 1).val = t.val % 49 := by
  show t.val / grid0.stride 1 % 49 = t.val % 49
  rw [stride0_1, Nat.div_one]

/-- The first conditional holds exactly at a row's first point. -/
theorem first0_iff (t : Fin cfg0.N) : first0 (grid0.coords t) ↔ t.val % 49 = 0 := by
  show Scalar.cmpi .ne (Scalar.extui (Scalar.cmpi .eq (BitVec.ofNat 32 ((grid0.coords t) 1).val) (BitVec.ofNat 32 0))) 0#32 = 1#1 ↔ _
  rw [coords0_1, guard_ofNat0 _ _ (by omega) (by omega)]
/-- The second conditional holds exactly at a row's last point. -/
theorem last0_iff (t : Fin cfg0.N) : k0_cond2 (grid0.coords t) = 1#1 ↔ t.val % 49 = 48 := by
  show Scalar.cmpi .ne (Scalar.extui (Scalar.cmpi .eq (BitVec.ofNat 32 ((grid0.coords t) 1).val) (BitVec.ofNat 32 48))) 0#32 = 1#1 ↔ _
  rw [coords0_1, guard_ofNat0 _ _ (by omega) (by omega)]

/-- The output window is idle exactly off a row's last point; the input windows never. -/
theorem idle0_2 (t : Fin cfg0.N) : cfg0.idle 2 (grid0.coords t) = true ↔ t.val % 49 ≠ 48 := by
  show (!(k0_cond2 (grid0.coords t) == 1#1)) = true ↔ _
  rw [Bool.not_eq_true', beq_eq_false_iff_ne, ne_eq, last0_iff]
theorem live0_0 (i : grid0.Coords) : cfg0.idle 0 i = false := rfl
theorem live0_1 (i : grid0.Coords) : cfg0.idle 1 i = false := rfl

/-- The windows' block indices at a point. -/
theorem index0_0 (t : Fin cfg0.N) (a : Fin 2) : (cfg0.win 0).index t a = (![0, t.val / 49] : Fin 2 → ℕ) a := by
  have ht := lt0 t
  show cc0_transform_0 (grid0.coords t) a = _
  unfold cc0_transform_0
  fin_cases a
  · rfl
  · show (BitVec.ofNat 32 ((grid0.coords t) 0).val).toNat = t.val / 49
    rw [BitVec.toNat_ofNat, coords0_0]
    omega
theorem index0_1 (t : Fin cfg0.N) (a : Fin 2) : (cfg0.win 1).index t a = (![t.val % 49, 0] : Fin 2 → ℕ) a := by
  show cc0_transform_1 (grid0.coords t) a = _
  unfold cc0_transform_1
  fin_cases a
  · show (BitVec.ofNat 32 ((grid0.coords t) 1).val).toNat = t.val % 49
    rw [BitVec.toNat_ofNat, coords0_1]
    omega
  · rfl
theorem index0_2 (t : Fin cfg0.N) (a : Fin 2) : (cfg0.win 2).index t a = (![t.val / 49, 0] : Fin 2 → ℕ) a := by
  have ht := lt0 t
  show cc0_transform_2 (grid0.coords t) a = _
  unfold cc0_transform_2
  fin_cases a
  · show (BitVec.ofNat 32 ((grid0.coords t) 0).val).toNat = t.val / 49
    rw [BitVec.toNat_ofNat, coords0_0]
    omega
  · rfl

/-- The output window is written back exactly at a row's last point: its block index is the row, which changes
    between a point and the next exactly when the point is its row's last, and the grid's last point is a row's last. -/
theorem flush0_2 (t : Fin cfg0.N) : (cfg0.win 2).flush t = true ↔ t.val % 49 = 48 := by
  have ht := lt0 t
  have hidx : ∀ s : Fin cfg0.N, (cfg0.win 2).index s = (![s.val / 49, 0] : Fin 2 → ℕ) := fun s => funext (index0_2 s)
  unfold Pipeline.Window.flush
  rw [show (cfg0.win 2).isOut = true from rfl, Bool.true_and, Bool.or_eq_true, decide_eq_true_eq, decide_eq_true_eq]
  constructor
  · rintro (h | ⟨h, hne⟩)
    · have h' : t.val + 1 = 38318 := h.trans N0_eq
      omega
    · rw [hidx, hidx] at hne
      by_contra hc
      apply hne
      have hd : (t.val + 1) / 49 = t.val / 49 := by omega
      show (![(t.val + 1) / 49, 0] : Fin 2 → ℕ) = ![t.val / 49, 0]
      rw [hd]
  · intro h
    by_cases hl : t.val + 1 = 38318
    · exact Or.inl (hl.trans N0_eq.symm)
    · refine Or.inr ⟨lt_of_lt_of_eq (by omega : t.val + 1 < 38318) N0_eq.symm, ?_⟩
      rw [hidx, hidx]
      intro heq
      have h0 := congrFun heq 0
      have h0' : (t.val + 1) / 49 = t.val / 49 := h0
      omega

end Cert.KernelIdeal.Hand

end
-- ==== Proof.KI.Dat0.lean ====
/-
  The proof data of the gather region (pipeline 0) at the buffer contents `V` the region is entered from:
  the accumulator's contents point by point (a recursion over the points, each step the body's `accNext0`), the
  invariant that keeps the scratch buffer at that value between points, what each window's staging buffer holds after
  the body, and the body obligation.
-/
import proofs.«420660_j45414984188550_2_alg».proof.Proof.KI.Sched0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the first `n` points (zero before the first). -/
def acc0 (c : Dev nD) : ℕ → Vec F S2048x64 .f32
  | 0 => k0_pay1
  | n + 1 => if h : n < cfg0.N then accNext0 (grid0.coords ⟨n, h⟩) (iblk0 V c 0 ⟨n, h⟩) (iblk0 V c 1 ⟨n, h⟩) (acc0 c n) else acc0 c n

theorem acc0_succ (c : Dev nD) (n : ℕ) (h : n < cfg0.N) :
    acc0 V c (n + 1) = accNext0 (grid0.coords ⟨n, h⟩) (iblk0 V c 0 ⟨n, h⟩) (iblk0 V c 1 ⟨n, h⟩) (acc0 V c n) := by
  rw [acc0, dif_pos h]

/-- The kernel's scratch buffer, whole. -/
abbrev scM0 : Memref sig .tc .vmem S2048x64 .f32 := Memref.whole cc0_scratch0

/-- The scoped buffers that are neither this pipeline's staging buffers nor its scratch, each at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- The invariant before point `t`: the scratch buffer holds the accumulator left by the points before (anything before
    the first point), the other scoped buffers are held at some contents. -/
def Phi0 (c : Dev nD) (t : Fin (cfg0.N + 1)) : sProp 𝕄 :=
  iprop((∃ a : Vec F S2048x64 .f32, ⌜t.val ≠ 0 → a = acc0 V c t.val⌝ ∗ owns (c : Thread nD τ) scM0 fullShare a) ∗ rest0 c)

/-- The invariant at the first point, from the scoped buffers the pipeline does not stage. -/
theorem Phi0_intro (c : Dev nD) :
    (Pipeline.scopedRest (Ix := Unit) (Name := ℕ) (U := UR sig nD τ) (Lvl := ℕ) (Val := Elt F) spec0 c : sProp 𝕄) ⊢ Phi0 V c 0 := by
  rw [scopedRest0_eq]; unfold Phi0 rest0; simp only [scM0, owns_whole]
  iintro ⟨⟨%f, Hs⟩, Hr⟩
  isplitl [Hs]
  · iexists f; isplitr
    · ipureintro; intro h; exact absurd (Fin.val_zero _) h
    · iexact Hs
  · iexact Hr

/-- The invariant at any point gives those scoped buffers back. -/
theorem Phi0_elim (c : Dev nD) (t : Fin (cfg0.N + 1)) :
    Phi0 V c t ⊢ (Pipeline.scopedRest (Ix := Unit) (Name := ℕ) (U := UR sig nD τ) (Lvl := ℕ) (Val := Elt F) spec0 c : sProp 𝕄) := by
  rw [scopedRest0_eq]; unfold Phi0 rest0; simp only [scM0, owns_whole]
  iintro ⟨⟨%a, -, Hs⟩, Hr⟩
  isplitl [Hs]
  · iexists a; iexact Hs
  · iexact Hr

/-- The proof data: the arrays as the region finds them; after the body each input's buffer at its block and the
    output's at the accumulator after the point (narrowed); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c (t.val + 1))
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c (t.val + 1)) := by dsimp only [dat0]
theorem Phi_eq0 (c : Dev nD) (t : Fin (cfg0.N + 1)) : (dat0 V c).Φ t = Phi0 V c t := by dsimp only [dat0]

/-- An input window's current buffer holds the window's block at the point, whether the block was fetched at this
    point or is the one fetched at an earlier point of the same index: the body leaves the inputs in place. -/
private theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]
  rw [(dat0 V c).before_in_eq_fetched 0 rfl (fun _ => rfl) (fun _ _ _ => rfl) hkeep t d]
  unfold Dat.fetched Dat.blockOf iblk0; rw [A_eq0]; rfl

private theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]
  rw [(dat0 V c).before_in_eq_fetched 1 rfl (fun _ => rfl) (fun _ _ _ => rfl) hkeep t d]
  unfold Dat.fetched Dat.blockOf iblk0; rw [A_eq0]; rfl

/-- One step of the accumulator's recursion from what the scratch buffer holds before the point: after the first point
    it holds the accumulator so far; at the first point, a row's first, the body resets it whatever it holds. -/
private theorem acc0_step (c : Dev nD) (t : Fin cfg0.N) (a : Vec F S2048x64 .f32) (ha : t.val ≠ 0 → a = acc0 V c t.val) :
    accNext0 (grid0.coords t) (iblk0 V c 0 t) (iblk0 V c 1 t) a = acc0 V c (t.val + 1) := by
  rw [acc0_succ V c t.val t.isLt]
  by_cases h0 : t.val = 0
  · have hf : first0 (grid0.coords t) := (first0_iff t).mpr (by rw [h0])
    show k0_pay2 _ _ _ (if first0 (grid0.coords t) then k0_pay1 else a)
      = k0_pay2 _ _ _ (if first0 (grid0.coords t) then k0_pay1 else acc0 V c t.val)
    rw [if_pos hf, if_pos hf]
  · rw [ha h0]

/-- The body at a point, the windows one by one: the inputs' buffers at their blocks, the output's at whatever it holds,
    the scratch at the accumulator so far. The body's triple hands back the inputs, the next accumulator and the output
    block; what the obligation asks of the output block is decided by the point's place in its row. -/
private theorem sound_body0 (c : Dev nD) (t : Fin cfg0.N) :
    iprop(Phi0 V c t.castSucc ∗ (dat0 V c).owesAt () t.castSucc
      ∗ (∃ d, owns (c : Thread nD τ) ((cfg0.win 0).stage (cfg0.slots t 0)) fullShare ((dat0 V c).before 0 t d))
      ∗ (∃ d, owns (c : Thread nD τ) ((cfg0.win 1).stage (cfg0.slots t 1)) fullShare ((dat0 V c).before 1 t d))
      ∗ (∃ d, owns (c : Thread nD τ) ((cfg0.win 2).stage (cfg0.slots t 2)) fullShare ((dat0 V c).before 2 t d)))
    ⊢ wp frame (wpE (defs₀ (F := F)) Variants.none c none) Set.univ
        (cc0__gather_kernel (grid0.coords t) (win0_0.stage (cfg0.slots t 0)) (hstage0_0 ((cfg0.slots t 0).cast nbuf0_0))
          (win0_1.stage (cfg0.slots t 1)) (hstage0_1 ((cfg0.slots t 1).cast nbuf0_1))
          (win0_2.stage (cfg0.slots t 2)) (hstage0_2 ((cfg0.slots t 2).cast nbuf0_2))
          (Memref.whole cc0_scratch0) (Memref.isWhole_whole _))
        (fun _ => iprop(Phi0 V c t.succ ∗ (dat0 V c).owesAt () t.succ
          ∗ owns (c : Thread nD τ) ((cfg0.win 0).stage (cfg0.slots t 0)) fullShare ((dat0 V c).after 0 t)
          ∗ owns (c : Thread nD τ) ((cfg0.win 1).stage (cfg0.slots t 1)) fullShare ((dat0 V c).after 1 t)
          ∗ (dat0 V c).leavesExact 2 t)) := by
  simp only [before0_0, before0_1]
  rw [after0_0, after0_1]
  unfold Phi0
  by_cases h48 : t.val % 49 = 48
  · -- the row's last point: the window is live and written back, the body stores the narrowed accumulator
    have hi : cfg0.idle 2 (cfg0.grid.coords t) = false := Bool.eq_false_iff.mpr fun h => (idle0_2 t).mp h h48
    rw [show (dat0 V c).leavesExact 2 t
        = owns (c : Thread nD τ) ((cfg0.win 2).stage (cfg0.slots t 2)) fullShare ((dat0 V c).after 2 t) from by
      unfold Dat.leavesExact; rw [hi], after0_2]
    iintro ⟨⟨⟨%a, %ha, Hs⟩, Hr⟩, Ho, ⟨%d0, H0⟩, ⟨%d1, H1⟩, ⟨%d2, H2⟩⟩
    iapply (sound_kernel0 c Set.univ (grid0.coords t) _ _ _ _ _ _ _ _ (iblk0 V c 0 t) (iblk0 V c 1 t) ((dat0 V c).before 2 t d2) a _)
    isplitl [H0]; · iexact H0
    isplitl [H1]; · iexact H1
    isplitl [H2]; · iexact H2
    isplitl [Hs]; · iexact Hs
    iintro ⟨H0, H1, H2, Hs⟩
    rw [outNext0, if_pos ((last0_iff t).mpr h48), acc0_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexact H2
  · -- any other point: the window is idle and not written back, the body hands the buffer back as found
    have hi : cfg0.idle 2 (cfg0.grid.coords t) = true := (idle0_2 t).mpr h48
    have hf : (cfg0.win 2).flush t = false := Bool.eq_false_iff.mpr fun h => h48 ((flush0_2 t).mp h)
    rw [Dat.leavesExact_idle (dat0 V c) 2 t hi hf]
    iintro ⟨⟨⟨%a, %ha, Hs⟩, Hr⟩, Ho, ⟨%d0, H0⟩, ⟨%d1, H1⟩, ⟨%d2, H2⟩⟩
    iapply (sound_kernel0 c Set.univ (grid0.coords t) _ _ _ _ _ _ _ _ (iblk0 V c 0 t) (iblk0 V c 1 t) ((dat0 V c).before 2 t d2) a _)
    isplitl [H0]; · iexact H0
    isplitl [H1]; · iexact H1
    isplitl [H2]; · iexact H2
    isplitl [Hs]; · iexact Hs
    iintro ⟨H0, H1, H2, Hs⟩
    rw [outNext0, if_neg fun h => h48 ((last0_iff t).mp h), acc0_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexists d2; iexact H2

/-- The body obligation at every point: the inputs' buffers hold their blocks, the scratch the accumulator so far; the
    body's triple gives the next accumulator, and the output block either stored (the row's last point) or handed back
    as found (every other point, where the window is idle and not written back). -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The scatter kernel's body at one grid point, as one triple over the contents of its four buffers.
  The grid is (node block, edge block). At a point the body resets the accumulator to zero when the edge block is the
  row's first, adds the one-hot product of the point's edge block of messages to it, and stores the accumulator into the
  output block when the edge block is the row's last; otherwise the output block is left as it was found.
-/
import proofs.«420660_j45414984188550_2_alg».proof.Proof.Gen.KernelIdeal.Launch
import proofs.«420660_j45414984188550_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The edge block is the first of its row: the body's first conditional, from the grid coordinates. -/
abbrev first1 (i : grid1.Coords) : Prop :=
  (Scalar.cmpi .ne (Scalar.extui (Scalar.cmpi .eq (BitVec.ofNat 32 (i 1).val) 0#32)) 0#32) = 1#1

/-- The accumulator after the point: the one-hot product of this edge block added to the accumulator found, or to zero
    when the edge block is the row's first. -/
def accNext1 (i : grid1.Coords) (x0 : Vec F S1x2048 .i32) (x1 : Vec F S2048x64 .bf16) (a : Vec F S3072x64 .f32) :
    Vec F S3072x64 .f32 :=
  k1_pay2 i x0 x1 (if first1 i then k1_pay1 else a)

/-- The output block after the point: the accumulator at the row's last edge block, untouched elsewhere. -/
def outNext1 (i : grid1.Coords) (x0 : Vec F S1x2048 .i32) (x1 : Vec F S2048x64 .bf16) (x2 : Vec F S3072x64 .f32)
    (a : Vec F S3072x64 .f32) : Vec F S3072x64 .f32 :=
  if k1_cond2 i = 1#1 then accNext1 i x0 x1 a else x2

/-! ## Whole-buffer accesses

Every load and store of the body goes through the rectangle that starts at offset zero on both axes and has the
buffer's own extents: a load through it reads the contents, and a store through it replaces them, whatever was stored
before. -/

/-- The offsets of the body's rectangles are zero on both axes. -/
private theorem hz : (![0, 0] : Fin 2 → Nat) = fun _ => 0 := funext fun a => by fin_cases a <;> rfl

/-- A buffer whose LAST store went through the whole-buffer rectangle reads as that store's payload: the rectangle
    holds every index, so the earlier stores and the contents found are all overwritten. -/
private theorem read_last_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  refine (View.read_writes_eq_canon _ _ _ ?_).trans (View.canon_cons_unit_zero h inb w L)
  exact fun y => ⟨_, List.Mem.head _, View.mem_set_unit_zero h inb y⟩

/-! ## The triple, with the written buffers' final contents left open

The body's two conditionals depend on the grid point only, so the body runs in one of four ways. Each way is a triple
of the same form, differing in what the output block and the accumulator hold at the end. -/

/-- From the four buffers at `x0`, `x1`, `x2`, `a` the body runs to the continuation with the index block and the
    message block as found, the output block at `o` and the accumulator at `a'`. -/
private def RunsTo1 (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (o : Vec F S3072x64 .f32) (a' : Vec F S3072x64 .f32) : Prop :=
  iprop(owns (c : Thread nD τ) arg2 fullShare x0 ∗ owns (c : Thread nD τ) arg3 fullShare x1
      ∗ owns (c : Thread nD τ) arg4 fullShare x2 ∗ owns (c : Thread nD τ) arg5 fullShare a
      ∗ (iprop(owns (c : Thread nD τ) arg2 fullShare x0 ∗ owns (c : Thread nD τ) arg3 fullShare x1
          ∗ owns (c : Thread nD τ) arg4 fullShare o
          ∗ owns (c : Thread nD τ) arg5 fullShare a') -∗ K ⟨⟩))
    ⊢ wp frame (wpE (defs₀ (F := F)) Variants.none c none) E (cc1__scatter_kernel i arg2 harg2 arg3 harg3 arg4 harg4 arg5 harg5) K

/-- First and last edge block of the row: the accumulator is zeroed, the product is added to the zero, and the sum,
    read back from the accumulator, is stored into the output block. -/
private theorem runs1_first_last (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : first1 i) (h2 : k1_cond2 i = 1#1) :
    RunsTo1 c E i arg2 harg2 arg3 harg3 arg4 harg4 arg5 harg5 x0 x1 x2 a K
      (k1_pay2 i x0 x1 k1_pay1) (k1_pay2 i x0 x1 k1_pay1) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz, View.ld_unit_zero (S := S3072x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- First edge block of the row, not the last: the accumulator is zeroed and the product added to the zero; the output
    block is not touched. -/
private theorem runs1_first_inner (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : first1 i) (h2 : ¬k1_cond2 i = 1#1) :
    RunsTo1 c E i arg2 harg2 arg3 harg3 arg4 harg4 arg5 harg5 x0 x1 x2 a K
      x2 (k1_pay2 i x0 x1 k1_pay1) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- Last edge block of the row, not the first: the product is added to the accumulator found, and the sum, read back
    from the accumulator, is stored into the output block. -/
private theorem runs1_later_last (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : ¬first1 i) (h2 : k1_cond2 i = 1#1) :
    RunsTo1 c E i arg2 harg2 arg3 harg3 arg4 harg4 arg5 harg5 x0 x1 x2 a K
      (k1_pay2 i x0 x1 a) (k1_pay2 i x0 x1 a) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_last_whole _ _ hz]
    simp only [View.readCov_cons_toLoadRect, View.readAt_eq_ld, harg2.read_unread, harg3.read_unread, harg5.read_unread,
      View.ld_unit_zero (S := S1x2048) hz, View.ld_unit_zero (S := S2048x64) hz, View.ld_unit_zero (S := S3072x64) hz]
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- Neither the first nor the last edge block of the row: the product is added to the accumulator found; the output
    block is not touched. -/
private theorem runs1_later_inner (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄)
    (h1 : ¬first1 i) (h2 : ¬k1_cond2 i = 1#1) :
    RunsTo1 c E i arg2 harg2 arg3 harg3 arg4 harg4 arg5 harg5 x0 x1 x2 a K
      x2 (k1_pay2 i x0 x1 a) := by
  unfold RunsTo1
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  rw [read_last_whole _ _ hz]
  simp only [View.readCov_cons_toLoadRect, View.readAt_eq_ld, harg2.read_unread, harg3.read_unread, harg5.read_unread,
    View.ld_unit_zero (S := S1x2048) hz, View.ld_unit_zero (S := S2048x64) hz, View.ld_unit_zero (S := S3072x64) hz]

/-- The body on whole buffers: the index block and the message block are read and kept, the accumulator and the output
    block end as `accNext1` and `outNext1` say. -/
theorem sound_kernel1 (c : Dev nD) (E : Set ℕ) (i : grid1.Coords)
    (arg2 : Memref sig .tc .vmem S1x2048 .i32) (harg2 : arg2.IsWhole) (arg3 : Memref sig .tc .vmem S2048x64 .bf16) (harg3 : arg3.IsWhole)
    (arg4 : Memref sig .tc .vmem S3072x64 .f32) (harg4 : arg4.IsWhole) (arg5 : Memref sig .tc .vmem S3072x64 .f32) (harg5 : arg5.IsWhole)
    (x0 : Vec F S1x2048 .i32) (x1 : Vec F S2048x64 .bf16) (x2 : Vec F S3072x64 .f32) (a : Vec F S3072x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare a
        ∗ (iprop(owns (c : Thread nD τ) arg2 fullShare x0 ∗ owns (c : Thread nD τ) arg3 fullShare x1
            ∗ owns (c : Thread nD τ) arg4 fullShare (outNext1 i x0 x1 x2 a)
            ∗ owns (c : Thread nD τ) arg5 fullShare (accNext1 i x0 x1 a)) -∗ K ⟨⟩))
      ⊢ wp frame (wpE (defs₀ (F := F)) Variants.none c none) E (cc1__scatter_kernel i arg2 harg2 arg3 harg3 arg4 harg4 arg5 harg5) K := by
  unfold outNext1 accNext1
  by_cases h1 : first1 i
  · by_cases h2 : k1_cond2 i = 1#1
    · rw [if_pos h1, if_pos h2]; exact runs1_first_last c E i arg2 harg2 arg3 harg3 arg4 harg4 arg5 harg5 x0 x1 x2 a K h1 h2
    · rw [if_pos h1, if_neg h2]; exact runs1_first_inner c E i arg2 harg2 arg3 harg3 arg4 harg4 arg5 harg5 x0 x1 x2 a K h1 h2
  · by_cases h2 : k1_cond2 i = 1#1
    · rw [if_neg h1, if_pos h2]; exact runs1_later_last c E i arg2 harg2 arg3 harg3 arg4 harg4 arg5 harg5 x0 x1 x2 a K h1 h2
    · rw [if_neg h1, if_neg h2]; exact runs1_later_inner c E i arg2 harg2 arg3 harg3 arg4 harg4 arg5 harg5 x0 x1 x2 a K h1 h2

end Cert.KernelIdeal.Hand

end
-- ==== Proof.KI.Sched1.lean ====
/-
  The schedule of pipeline 1 on its grid of 33 × 782 points, by arithmetic: point `t` has coordinates
  (t / 782, t % 782); the body's two conditionals hold at a row's first and last point; the output window is written back
  exactly at a row's last point and is idle at every other; and each window's block index at a point.
-/
import proofs.«420660_j45414984188550_2_alg».proof.Proof.KI.Body1
import Idealize.ShloMosaic.Lib.Affine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem N1_eq : cfg1.N = 25806 := by decide

/-- Consecutive points share coordinate 0 in runs of 782 (the bound of axis 1) and coordinate 1 in runs of 1. -/
private theorem stride1_0 : grid1.stride 0 = 782 := by decide
private theorem stride1_1 : grid1.stride 1 = 1 := by decide

private theorem lt1 (t : Fin cfg1.N) : t.val < 25806 := lt_of_lt_of_eq t.isLt N1_eq

/-- Two 32-bit words made from numbers below 2 ^ 32 are equal exactly when the numbers are. -/
private theorem ofNat32_inj1 (k c : ℕ) (hk : k < 2 ^ 32) (hc : c < 2 ^ 32) :
    BitVec.ofNat 32 k = BitVec.ofNat 32 c ↔ k = c := by
  rw [← BitVec.toNat_inj, BitVec.toNat_ofNat, BitVec.toNat_ofNat, Nat.mod_eq_of_lt hk, Nat.mod_eq_of_lt hc]

/-- A conditional as the kernel computes it (a comparison's bit, widened, tested against zero) holds exactly when
    the coordinate compared is the literal. -/
private theorem guard_ofNat1 (k c : ℕ) (hk : k < 2 ^ 32) (hc : c < 2 ^ 32) :
    Scalar.cmpi .ne (Scalar.extui (Scalar.cmpi .eq (BitVec.ofNat 32 k) (BitVec.ofNat 32 c))) 0#32 = 1#1 ↔ k = c := by
  rw [Scalar.guard_iff, Scalar.cmpi, IntOp.cmpi_eq, ofNat32_inj1 k c hk hc]

theorem coords1_0 (t : Fin cfg1.N) : ((grid1.coords t) 0).val = t.val / 782 := by
  have ht := lt1 t
  show t.val / grid1.stride 0 % 33 = t.val / 782
  rw [stride1_0]
  omega
theorem coords1_1 (t : Fin cfg1.N) : ((grid1.coords t) 1).val = t.val % 782 := by
  show t.val / grid1.stride 1 % 782 = t.val % 782
  rw [stride1_1, Nat.div_one]

/-- The first conditional holds exactly at a row's first point. -/
theorem first1_iff (t : Fin cfg1.N) : first1 (grid1.coords t) ↔ t.val % 782 = 0 := by
  show Scalar.cmpi .ne (Scalar.extui (Scalar.cmpi .eq (BitVec.ofNat 32 ((grid1.coords t) 1).val) (BitVec.ofNat 32 0))) 0#32 = 1#1 ↔ _
  rw [coords1_1, guard_ofNat1 _ _ (by omega) (by omega)]
/-- The second conditional holds exactly at a row's last point. -/
theorem last1_iff (t : Fin cfg1.N) : k1_cond2 (grid1.coords t) = 1#1 ↔ t.val % 782 = 781 := by
  show Scalar.cmpi .ne (Scalar.extui (Scalar.cmpi .eq (BitVec.ofNat 32 ((grid1.coords t) 1).val) (BitVec.ofNat 32 781))) 0#32 = 1#1 ↔ _
  rw [coords1_1, guard_ofNat1 _ _ (by omega) (by omega)]

/-- The output window is idle exactly off a row's last point; the input windows never. -/
theorem idle1_2 (t : Fin cfg1.N) : cfg1.idle 2 (grid1.coords t) = true ↔ t.val % 782 ≠ 781 := by
  show (!(k1_cond2 (grid1.coords t) == 1#1)) = true ↔ _
  rw [Bool.not_eq_true', beq_eq_false_iff_ne, ne_eq, last1_iff]
theorem live1_0 (i : grid1.Coords) : cfg1.idle 0 i = false := rfl
theorem live1_1 (i : grid1.Coords) : cfg1.idle 1 i = false := rfl

/-- The windows' block indices at a point. -/
theorem index1_0 (t : Fin cfg1.N) (a : Fin 2) : (cfg1.win 0).index t a = (![0, t.val % 782] : Fin 2 → ℕ) a := by
  show cc1_transform_0 (grid1.coords t) a = _
  unfold cc1_transform_0
  fin_cases a
  · rfl
  · show (BitVec.ofNat 32 ((grid1.coords t) 1).val).toNat = t.val % 782
    rw [BitVec.toNat_ofNat, coords1_1]
    omega
theorem index1_1 (t : Fin cfg1.N) (a : Fin 2) : (cfg1.win 1).index t a = (![t.val % 782, 0] : Fin 2 → ℕ) a := by
  show cc1_transform_1 (grid1.coords t) a = _
  unfold cc1_transform_1
  fin_cases a
  · show (BitVec.ofNat 32 ((grid1.coords t) 1).val).toNat = t.val % 782
    rw [BitVec.toNat_ofNat, coords1_1]
    omega
  · rfl
theorem index1_2 (t : Fin cfg1.N) (a : Fin 2) : (cfg1.win 2).index t a = (![t.val / 782, 0] : Fin 2 → ℕ) a := by
  have ht := lt1 t
  show cc1_transform_2 (grid1.coords t) a = _
  unfold cc1_transform_2
  fin_cases a
  · show (BitVec.ofNat 32 ((grid1.coords t) 0).val).toNat = t.val / 782
    rw [BitVec.toNat_ofNat, coords1_0]
    omega
  · rfl

/-- The output window is written back exactly at a row's last point: its block index is the row, which changes
    between a point and the next exactly when the point is its row's last, and the grid's last point is a row's last. -/
theorem flush1_2 (t : Fin cfg1.N) : (cfg1.win 2).flush t = true ↔ t.val % 782 = 781 := by
  have ht := lt1 t
  have hidx : ∀ s : Fin cfg1.N, (cfg1.win 2).index s = (![s.val / 782, 0] : Fin 2 → ℕ) := fun s => funext (index1_2 s)
  unfold Pipeline.Window.flush
  rw [show (cfg1.win 2).isOut = true from rfl, Bool.true_and, Bool.or_eq_true, decide_eq_true_eq, decide_eq_true_eq]
  constructor
  · rintro (h | ⟨h, hne⟩)
    · have h' : t.val + 1 = 25806 := h.trans N1_eq
      omega
    · rw [hidx, hidx] at hne
      by_contra hc
      apply hne
      have hd : (t.val + 1) / 782 = t.val / 782 := by omega
      show (![(t.val + 1) / 782, 0] : Fin 2 → ℕ) = ![t.val / 782, 0]
      rw [hd]
  · intro h
    by_cases hl : t.val + 1 = 25806
    · exact Or.inl (hl.trans N1_eq.symm)
    · refine Or.inr ⟨lt_of_lt_of_eq (by omega : t.val + 1 < 25806) N1_eq.symm, ?_⟩
      rw [hidx, hidx]
      intro heq
      have h0 := congrFun heq 0
      have h0' : (t.val + 1) / 782 = t.val / 782 := h0
      omega

end Cert.KernelIdeal.Hand

end
-- ==== Proof.KI.Dat1.lean ====
/-
  The proof data of the scatter region (pipeline 1) at the buffer contents `V` the region is entered from:
  the accumulator's contents point by point (a recursion over the points, each step the body's `accNext1`), the
  invariant that keeps the scratch buffer at that value between points, what each window's staging buffer holds after
  the body, and the body obligation.
-/
import proofs.«420660_j45414984188550_2_alg».proof.Proof.KI.Sched1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the first `n` points (zero before the first). -/
def acc1 (c : Dev nD) : ℕ → Vec F S3072x64 .f32
  | 0 => k1_pay1
  | n + 1 => if h : n < cfg1.N then accNext1 (grid1.coords ⟨n, h⟩) (iblk1 V c 0 ⟨n, h⟩) (iblk1 V c 1 ⟨n, h⟩) (acc1 c n) else acc1 c n

theorem acc1_succ (c : Dev nD) (n : ℕ) (h : n < cfg1.N) :
    acc1 V c (n + 1) = accNext1 (grid1.coords ⟨n, h⟩) (iblk1 V c 0 ⟨n, h⟩) (iblk1 V c 1 ⟨n, h⟩) (acc1 V c n) := by
  rw [acc1, dif_pos h]

/-- The kernel's scratch buffer, whole. -/
abbrev scM1 : Memref sig .tc .vmem S3072x64 .f32 := Memref.whole cc1_scratch0

/-- The scoped buffers that are neither this pipeline's staging buffers nor its scratch, each at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f))

/-- The invariant before point `t`: the scratch buffer holds the accumulator left by the points before (anything before
    the first point), the other scoped buffers are held at some contents. -/
def Phi1 (c : Dev nD) (t : Fin (cfg1.N + 1)) : sProp 𝕄 :=
  iprop((∃ a : Vec F S3072x64 .f32, ⌜t.val ≠ 0 → a = acc1 V c t.val⌝ ∗ owns (c : Thread nD τ) scM1 fullShare a) ∗ rest1 c)

/-- The invariant at the first point, from the scoped buffers the pipeline does not stage. -/
theorem Phi1_intro (c : Dev nD) :
    (Pipeline.scopedRest (Ix := Unit) (Name := ℕ) (U := UR sig nD τ) (Lvl := ℕ) (Val := Elt F) spec1 c : sProp 𝕄) ⊢ Phi1 V c 0 := by
  rw [scopedRest1_eq]; unfold Phi1 rest1; simp only [scM1, owns_whole]
  iintro ⟨H1, H2, H3, H4, H5, H6, H7, ⟨%f, Hs⟩⟩
  isplitl [Hs]
  · iexists f; isplitr
    · ipureintro; intro h; exact absurd (Fin.val_zero _) h
    · iexact Hs
  isplitl [H1]; · iexact H1
  isplitl [H2]; · iexact H2
  isplitl [H3]; · iexact H3
  isplitl [H4]; · iexact H4
  isplitl [H5]; · iexact H5
  isplitl [H6]; · iexact H6
  iexact H7

/-- The invariant at any point gives those scoped buffers back. -/
theorem Phi1_elim (c : Dev nD) (t : Fin (cfg1.N + 1)) :
    Phi1 V c t ⊢ (Pipeline.scopedRest (Ix := Unit) (Name := ℕ) (U := UR sig nD τ) (Lvl := ℕ) (Val := Elt F) spec1 c : sProp 𝕄) := by
  rw [scopedRest1_eq]; unfold Phi1 rest1; simp only [scM1, owns_whole]
  iintro ⟨⟨%a, -, Hs⟩, H1, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexists a; iexact Hs

/-- The proof data: the arrays as the region finds them; after the body each input's buffer at its block and the
    output's at the accumulator after the point; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c (t.val + 1)
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c (t.val + 1) := by dsimp only [dat1]
theorem Phi_eq1 (c : Dev nD) (t : Fin (cfg1.N + 1)) : (dat1 V c).Φ t = Phi1 V c t := by dsimp only [dat1]

/-- An input window's current buffer holds the window's block at the point, whether the block was fetched at this
    point or is the one fetched at an earlier point of the same index: the body leaves the inputs in place. -/
private theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

private theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- One step of the accumulator's recursion from what the scratch buffer holds before the point: after the first point
    it holds the accumulator so far; at the first point, a row's first, the body resets it whatever it holds. -/
private theorem acc1_step (c : Dev nD) (t : Fin cfg1.N) (a : Vec F S3072x64 .f32) (ha : t.val ≠ 0 → a = acc1 V c t.val) :
    accNext1 (grid1.coords t) (iblk1 V c 0 t) (iblk1 V c 1 t) a = acc1 V c (t.val + 1) := by
  rw [acc1_succ V c t.val t.isLt]
  by_cases h0 : t.val = 0
  · have hf : first1 (grid1.coords t) := (first1_iff t).mpr (by rw [h0])
    show k1_pay2 _ _ _ (if first1 (grid1.coords t) then k1_pay1 else a)
      = k1_pay2 _ _ _ (if first1 (grid1.coords t) then k1_pay1 else acc1 V c t.val)
    rw [if_pos hf, if_pos hf]
  · rw [ha h0]

/-- The body at a point, the windows one by one: the inputs' buffers at their blocks, the output's at whatever it holds,
    the scratch at the accumulator so far. The body's triple hands back the inputs, the next accumulator and the output
    block; what the obligation asks of the output block is decided by the point's place in its row. -/
private theorem sound_body1 (c : Dev nD) (t : Fin cfg1.N) :
    iprop(Phi1 V c t.castSucc ∗ (dat1 V c).owesAt () t.castSucc
      ∗ (∃ d, owns (c : Thread nD τ) ((cfg1.win 0).stage (cfg1.slots t 0)) fullShare ((dat1 V c).before 0 t d))
      ∗ (∃ d, owns (c : Thread nD τ) ((cfg1.win 1).stage (cfg1.slots t 1)) fullShare ((dat1 V c).before 1 t d))
      ∗ (∃ d, owns (c : Thread nD τ) ((cfg1.win 2).stage (cfg1.slots t 2)) fullShare ((dat1 V c).before 2 t d)))
    ⊢ wp frame (wpE (defs₀ (F := F)) Variants.none c none) Set.univ
        (cc1__scatter_kernel (grid1.coords t) (win1_0.stage (cfg1.slots t 0)) (hstage1_0 ((cfg1.slots t 0).cast nbuf1_0))
          (win1_1.stage (cfg1.slots t 1)) (hstage1_1 ((cfg1.slots t 1).cast nbuf1_1))
          (win1_2.stage (cfg1.slots t 2)) (hstage1_2 ((cfg1.slots t 2).cast nbuf1_2))
          (Memref.whole cc1_scratch0) (Memref.isWhole_whole _))
        (fun _ => iprop(Phi1 V c t.succ ∗ (dat1 V c).owesAt () t.succ
          ∗ owns (c : Thread nD τ) ((cfg1.win 0).stage (cfg1.slots t 0)) fullShare ((dat1 V c).after 0 t)
          ∗ owns (c : Thread nD τ) ((cfg1.win 1).stage (cfg1.slots t 1)) fullShare ((dat1 V c).after 1 t)
          ∗ (dat1 V c).leavesExact 2 t)) := by
  simp only [before1_0, before1_1]
  rw [after1_0, after1_1]
  unfold Phi1
  by_cases h781 : t.val % 782 = 781
  · -- the row's last point: the window is live and written back, the body stores the accumulator
    have hi : cfg1.idle 2 (cfg1.grid.coords t) = false := Bool.eq_false_iff.mpr fun h => (idle1_2 t).mp h h781
    rw [show (dat1 V c).leavesExact 2 t
        = owns (c : Thread nD τ) ((cfg1.win 2).stage (cfg1.slots t 2)) fullShare ((dat1 V c).after 2 t) from by
      unfold Dat.leavesExact; rw [hi], after1_2]
    iintro ⟨⟨⟨%a, %ha, Hs⟩, Hr⟩, Ho, ⟨%d0, H0⟩, ⟨%d1, H1⟩, ⟨%d2, H2⟩⟩
    iapply (sound_kernel1 c Set.univ (grid1.coords t) _ _ _ _ _ _ _ _ (iblk1 V c 0 t) (iblk1 V c 1 t) ((dat1 V c).before 2 t d2) a _)
    isplitl [H0]; · iexact H0
    isplitl [H1]; · iexact H1
    isplitl [H2]; · iexact H2
    isplitl [Hs]; · iexact Hs
    iintro ⟨H0, H1, H2, Hs⟩
    rw [outNext1, if_pos ((last1_iff t).mpr h781), acc1_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexact H2
  · -- any other point: the window is idle and not written back, the body hands the buffer back as found
    have hi : cfg1.idle 2 (cfg1.grid.coords t) = true := (idle1_2 t).mpr h781
    have hf : (cfg1.win 2).flush t = false := Bool.eq_false_iff.mpr fun h => h781 ((flush1_2 t).mp h)
    rw [Dat.leavesExact_idle (dat1 V c) 2 t hi hf]
    iintro ⟨⟨⟨%a, %ha, Hs⟩, Hr⟩, Ho, ⟨%d0, H0⟩, ⟨%d1, H1⟩, ⟨%d2, H2⟩⟩
    iapply (sound_kernel1 c Set.univ (grid1.coords t) _ _ _ _ _ _ _ _ (iblk1 V c 0 t) (iblk1 V c 1 t) ((dat1 V c).before 2 t d2) a _)
    isplitl [H0]; · iexact H0
    isplitl [H1]; · iexact H1
    isplitl [H2]; · iexact H2
    isplitl [Hs]; · iexact Hs
    iintro ⟨H0, H1, H2, Hs⟩
    rw [outNext1, if_neg fun h => h781 ((last1_iff t).mp h), acc1_step V c t a ha]
    isplitl [Hs Hr]
    · isplitl [Hs]
      · iexists _; isplitr
        · ipureintro; intro _; rfl
        · iexact Hs
      · iexact Hr
    isplitl [Ho]; · iexact Ho
    isplitl [H0]; · iexact H0
    isplitl [H1]; · iexact H1
    iexists d2; iexact H2

/-- The body obligation at every point: the inputs' buffers hold their blocks, the scratch the accumulator so far; the
    body's triple gives the next accumulator, and the output block either stored (the row's last point) or handed back
    as found (every other point, where the window is idle and not written back). -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: its host stretches and its two regions as the launch theorem's segments, from the launch
  memory to a final memory in which every unscoped buffer holds the last valuation — the launch contents folded through
  each host stretch and, at each region, the output array replaced by what the region's write-backs leave. The frame
  claim (the arguments end as launched) and the named result read off it.
-/
import proofs.«420660_j45414984188550_2_alg».proof.Proof.KI.Dat0
import proofs.«420660_j45414984188550_2_alg».proof.Proof.KI.Dat1
import proofs.«420660_j45414984188550_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffer contents region 0 is entered from, read at the TensorCore's references. -/
abbrev VA : (c : Dev nD) → (b : Ref sig .tc) → Buf (Elt F) ((c : Thread nD τ).loc b) := fun c b => V6 m c b

/-- What region 0 leaves in the message array: its write-backs folded over the entry contents. -/
def out0 (c : Dev nD) : Buf (Elt F) ((c : Thread nD τ).loc main_v10) := (dat0 (VA m) c).arrAt 2 cfg0.N

/-- The buffer contents region 1 is entered from. -/
abbrev VB : (c : Dev nD) → (b : Ref sig .tc) → Buf (Elt F) ((c : Thread nD τ).loc b) :=
  fun c b => Function.update (V6 m c) (Proc.devRef .tc main_v10) (out0 m c) b

/-- What region 1 leaves in the padded result array. -/
def out1 (c : Dev nD) : Buf (Elt F) ((c : Thread nD τ).loc main_v11) := (dat1 (VB m) c).arrAt 2 cfg1.N

/-- What the regions leave, as the family the generated valuations are written over: read only at the message array
    after region 0 and at the padded result after region 1. -/
def outs : Outs (F := F) := fun n r c =>
  if h : r = main_v10 then h ▸ out0 m c else if h' : r = main_v11 then h' ▸ out1 m c else m ((c : Thread nD τ).loc r)

theorem outs_v10 (c : Dev nD) : outs m 7 main_v10 c = out0 m c := by
  unfold outs; rw [dif_pos rfl]
theorem outs_v11 (c : Dev nD) : outs m 8 main_v11 c = out1 m c := by
  unfold outs; rw [dif_neg (by decide), dif_pos rfl]
/-- The valuation after region 0 is region 1's entry contents. -/
theorem V7_eq (c : Dev nD) (b : Ref sig .tc) : V7 m (outs m) c b = VB m c b := by
  show Function.update (V6 m c) _ (outs m 7 main_v10 c) _ = _
  rw [outs_v10]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-- What rides beside the buffers through every segment: the generator register at some state and the core owing
    nothing. -/
abbrev Rr (c : Dev nD) : sProp 𝕄 := iprop((∃ r, prngReg c r) ∗ ∃ W, owes (c : Thread nD τ) (0 : CellTallies nD τ sig Unit) W)
abbrev Ee : Fin 3 → Dev nD → sProp 𝕄 := fun _ c => Rr c
abbrev 𝒱₀ : Variants := Variants.none
abbrev Ll : GSem nD τ sig → Finset Unit := fun _ => ∅
abbrev lvl : GSem nD τ sig → Unit → ℕ := fun _ _ => 0

/-! ## The regions' exit contents against the generated valuations -/

/-- At region 0's exit each of its arrays holds what the pipeline leaves: the two inputs as entered (no write-back
    touches an input array, and no item before changed them), the message array at the folded write-backs. -/
theorem hF0 (c : Dev nD) (w : Fin cfg0.W) :
    (pdats m 0 c).arrAt w cfg0.N = (fun b : Ref sig .tc => V7 m (outs m) c b) (Pipeline.arrRef spec0 w) := by
  match w with
  | ⟨0, _⟩ =>
    exact (((pdats m 0 c).arrAt_in 0 rfl _).trans (A_eq0 (VA m) c 0)).trans (V7_of m (outs m) c main_v5 (by decide)).symm
  | ⟨1, _⟩ =>
    exact (((pdats m 0 c).arrAt_in 1 rfl _).trans (A_eq0 (VA m) c 1)).trans (V7_of m (outs m) c main_v9 (by decide)).symm
  | ⟨2, _⟩ =>
    show out0 m c = Function.update (V6 m c) _ (outs m 7 main_v10 c) _
    rw [outs_v10, Function.update_self]

/-- Off region 0's arrays the exit contents are the entry contents. -/
theorem hrest0 (c : Dev nD) : ∀ b : Ref sig .tc, b ∉ Finset.univ.image (Pipeline.arrRef spec0) →
    (fun b : Ref sig .tc => V7 m (outs m) c b) b = VA m c b := fun b hb =>
  V7_of m (outs m) c b fun h => hb (Finset.mem_image.mpr ⟨2, Finset.mem_univ _, (List.mem_singleton.mp h).symm⟩)

/-- At region 1's exit: the indices and the messages as entered, the padded result at the folded write-backs. -/
theorem hF1 (c : Dev nD) (w : Fin cfg1.W) :
    (pdats m 1 c).arrAt w cfg1.N = (fun b : Ref sig .tc => V8 m (outs m) c b) (Pipeline.arrRef spec1 w) := by
  match w with
  | ⟨0, _⟩ =>
    exact (((pdats m 1 c).arrAt_in 0 rfl _).trans (A_eq1 (VB m) c 0)).trans
      ((V8_of m (outs m) c main_v7 (by decide)).trans (V7_eq m c main_v7)).symm
  | ⟨1, _⟩ =>
    exact (((pdats m 1 c).arrAt_in 1 rfl _).trans (A_eq1 (VB m) c 1)).trans
      ((V8_of m (outs m) c main_v10 (by decide)).trans (V7_eq m c main_v10)).symm
  | ⟨2, _⟩ =>
    show out1 m c = Function.update (V7 m (outs m) c) _ (outs m 8 main_v11 c) _
    rw [outs_v11, Function.update_self]

/-- Off region 1's arrays the exit contents are the entry contents. -/
theorem hrest1 (c : Dev nD) : ∀ b : Ref sig .tc, b ∉ Finset.univ.image (Pipeline.arrRef spec1) →
    (fun b : Ref sig .tc => V8 m (outs m) c b) b = VB m c b := fun b hb =>
  (V8_of m (outs m) c b fun h => hb (Finset.mem_image.mpr ⟨2, Finset.mem_univ _, (List.mem_singleton.mp h).symm⟩)).trans
    (V7_eq m c b)

-- a library lemma stated over the pinned configuration unifies with the printed one only when unification may unfold
-- plain definitions in a metavariable's type
set_option backward.isDefEq.respectTransparency.types false in
/-- Region 0 over the thread state "every unscoped buffer at the valuation, the register, nothing owed". -/
def reg0 : RegionSeg (pcfgs (F := F)) adm (pdats m) () defs₀ 𝒱₀ Ll lvl 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ Ll lvl 0 fun _ _ => rfl
  pre c := iprop(StableHlo.held (c : Thread nD τ) (Pipeline.ucRefs τ sig) (V6 m c) ∗ Ee (F := F) 0 c)
  post c := iprop(StableHlo.held (c : Thread nD τ) (Pipeline.ucRefs τ sig) (V7 m (outs m) c) ∗ Ee (F := F) 1 c)
  X _ := iprop(emp)
  Y _ := iprop(emp)
  Z c := iprop(Pipeline.unscopedRest (Ix := Unit) (Name := ℕ) (U := UR sig nD τ) (Lvl := ℕ) spec0 c (VA m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (VA m) c 0 from Phi_eq0 (VA m) c 0]
    iintro ⟨-, -, Hr⟩
    iapply (Phi0_intro (VA m) c)
    iexact Hr
  hout c := by
    rw [Pipeline.ownSems0_none, show (pdats m 0 c).Φ (Fin.last _) = Phi0 (VA m) c (Fin.last _) from Phi_eq0 (VA m) c _]
    iintro H
    isplitr; · iempintro
    isplitr; · iempintro
    iapply (Phi0_elim (VA m) c (Fin.last _))
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V7 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 likewise. -/
def reg1 : RegionSeg (pcfgs (F := F)) adm (pdats m) () defs₀ 𝒱₀ Ll lvl 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ Ll lvl 1 fun _ _ => rfl
  pre c := iprop(StableHlo.held (c : Thread nD τ) (Pipeline.ucRefs τ sig) (V7 m (outs m) c) ∗ Ee (F := F) 1 c)
  post c := iprop(StableHlo.held (c : Thread nD τ) (Pipeline.ucRefs τ sig) (V8 m (outs m) c) ∗ Ee (F := F) 2 c)
  X _ := iprop(emp)
  Y _ := iprop(emp)
  Z c := iprop(Pipeline.unscopedRest (Ix := Unit) (Name := ℕ) (U := UR sig nD τ) (Lvl := ℕ) spec1 c (VB m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    rw [show V7 m (outs m) c = Function.update (V6 m c) (Proc.devRef .tc main_v10) (out0 m c) from by
      show Function.update (V6 m c) _ (outs m 7 main_v10 c) = _; rw [outs_v10]]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (VB m) c 0 from Phi_eq1 (VB m) c 0]
    iintro ⟨-, -, Hr⟩
    iapply (Phi1_intro (VB m) c)
    iexact Hr
  hout c := by
    rw [Pipeline.ownSems0_none, show (pdats m 1 c).Φ (Fin.last _) = Phi1 (VB m) c (Fin.last _) from Phi_eq1 (VB m) c _]
    iintro H
    isplitr; · iempintro
    isplitr; · iempintro
    iapply (Phi1_elim (VB m) c (Fin.last _))
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V8 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

theorem reg0_pre (c : Dev nD) :
    iprop(StableHlo.held (c : Thread nD τ) (Pipeline.ucRefs τ sig) (V6 m c) ∗ Ee (F := F) 0 c) ⊢ (reg0 m).pre c := .rfl
theorem reg0_post (c : Dev nD) :
    (reg0 m).post c ⊢ iprop(StableHlo.held (c : Thread nD τ) (Pipeline.ucRefs τ sig) (V7 m (outs m) c) ∗ Ee (F := F) 1 c) := .rfl
theorem reg1_pre (c : Dev nD) :
    iprop(StableHlo.held (c : Thread nD τ) (Pipeline.ucRefs τ sig) (V7 m (outs m) c) ∗ Ee (F := F) 1 c) ⊢ (reg1 m).pre c := .rfl
theorem reg1_post (c : Dev nD) :
    (reg1 m).post c ⊢ iprop(StableHlo.held (c : Thread nD τ) (Pipeline.ucRefs τ sig) (V8 m (outs m) c) ∗ Ee (F := F) 2 c) := .rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: every weakly fair execution from `m` with zero counters terminates, and in every final memory each
    unscoped buffer holds the last valuation. -/
theorem run (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = V9 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ Ll lvl m ρ main
    (segs m (outs m) 𝒱₀ Ll lvl (Ee (F := F)) () (pdats m) (reg0 m) (reg1 m))
    (fun c Q => by
      rewrite [main_chain c, Seg.run_eq_chain,
        show (segs m (outs m) 𝒱₀ Ll lvl (Ee (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ee (F := F) 0 c))
    (Tₙ := fun c => StableHlo.held (c : Thread nD τ) (Pipeline.ucRefs τ sig) (V9 m (outs m) c))
    (hch := fun c => ⟨.rfl, .rfl, .rfl, .rfl, .rfl, .rfl, reg0_pre m c, (reg0_post m c).trans (reg1_pre m c), reg1_post m c,
      sep_mono .rfl (by iintro ⟨-, H⟩; iexact H)⟩)
    (hinit := ?_)
    (QY := fun c s => ∀ b ∈ Pipeline.ucRefs τ sig, s.mem ((c : Thread nD τ).1, b) = V9 m (outs m) c b)
    (hfin := fun c s' => ?_) (hQ := hQ)
  · -- the launch: the unscoped buffers are held at the launch contents; the register and the core's dues ride along
    refine Pipeline.initEach Ll lvl fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => ((c : Thread nD τ).1, b)) (V9 m (outs m) c) s')
    isplitl [Hh] <;> iassumption

/-- The frame claim at any instance: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run m ρ fun s h c =>
    ⟨(h c _ (mem_uc main_arg0 (by decide))).trans (V9_main_arg0 m (outs m) c),
      (h c _ (mem_uc main_arg1 (by decide))).trans (V9_main_arg1 m (outs m) c)⟩

/-- The run with the result named: the result buffer ends at the last valuation's, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v12) = V9 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run m ρ fun s h c =>
    ⟨h c _ (mem_uc main_v12 (by decide)),
      (h c _ (mem_uc main_arg0 (by decide))).trans (V9_main_arg0 m (outs m) c),
      (h c _ (mem_uc main_arg1 (by decide))).trans (V9_main_arg1 m (outs m) c)⟩

end Cert.KernelIdeal.Hand

end
-- ==== Proof.Spec.lean ====
/-
  The specification, over the extended reals and with no program in sight.
  Features `x : [100000, 64]`, edges `ei : [2, 1600000]` (row 0 the sources, row 1 the targets).
  * `msgsOf s xp`: message `e` is row `s e` of the (zero-padded) feature table `xp : [100352, 64]` when the word `s e`,
    read unsigned, names one of its rows, and the zero row otherwise — what a product with the one-hot matrix
    `[n = s e]` over all 100352 rows gives, since a zero factor annihilates every extended real.
  * `scatOf t ms`: row `n` of the padded result is the sum of the messages whose target word, read unsigned, is `n`.
  * `refOf x ei`: the reference's scatter-add of the gathered rows: row `n` is the sum over the edges whose target word,
    read SIGNED, is `n`, of the feature row at the source word wrapped (a negative one has the table's height added)
    and clamped into the table.
-/
import Idealize.ShloMosaic.Lib.ValueIdx
import Mathlib.Algebra.BigOperators.Group.Finset.Basic
import Mathlib.Data.Fin.SuccPred

noncomputable section

open scoped BigOperators

namespace Cert.Spec

open Idealize.ShloMosaic Idealize.ShloMosaic.ValueIdx

/-- The gathered messages from padded source words and the padded feature table. -/
def msgsOf (s : IVec ⟨2, ![1, 1601536]⟩ 32) (xp : (⟨2, ![100352, 64]⟩ : Shape).Idx → EReal) :
    (⟨2, ![1601536, 64]⟩ : Shape).Idx → EReal :=
  fun j => if h : (s (ix2 (0 : Fin 1) (⟨(j 0).val, idx2_lt0 j⟩ : Fin 1601536))).toNat < 100352
    then xp (ix2 (⟨_, h⟩ : Fin 100352) (⟨(j 1).val, idx2_lt1 j⟩ : Fin 64)) else 0

/-- The scattered sums from padded target words and the messages. -/
def scatOf (t : IVec ⟨2, ![1, 1601536]⟩ 32) (ms : (⟨2, ![1601536, 64]⟩ : Shape).Idx → EReal) :
    (⟨2, ![101376, 64]⟩ : Shape).Idx → EReal :=
  fun i => ∑ e : Fin 1601536, if (t (ix2 (0 : Fin 1) e)).toNat = (i 0).val then ms (ix2 e (⟨(i 1).val, idx2_lt1 i⟩ : Fin 64)) else 0

/-- A source word wrapped as jnp indexing wraps it and clamped into the table as the gather clamps it. -/
def rowOf (w : BitVec 32) : Fin 100000 :=
  ⟨min (if w.toInt < 0 then w + 100000#32 else w).toInt.toNat 99999, by omega⟩

/-- The reference: row `n` sums the feature rows of the edges whose target is `n`. -/
def refOf (x : (⟨2, ![100000, 64]⟩ : Shape).Idx → EReal) (ei : IVec ⟨2, ![2, 1600000]⟩ 32) :
    (⟨2, ![100000, 64]⟩ : Shape).Idx → EReal :=
  fun i => ∑ e : Fin 1600000, if (ei (ix2 (1 : Fin 2) e)).toInt = ((i 0).val : ℤ)
    then x (ix2 (rowOf (ei (ix2 (0 : Fin 2) e))) (⟨(i 1).val, idx2_lt1 i⟩ : Fin 64)) else 0

/-- The kernel's padded index row: the first 1600000 words are row `r` of the edges, the rest the word 100000. -/
def padRow (ei : IVec ⟨2, ![2, 1600000]⟩ 32) (r : Fin 2) : IVec ⟨2, ![1, 1601536]⟩ 32 :=
  fun j => if h : (j 1).val < 1600000 then ei (ix2 r (⟨(j 1).val, h⟩ : Fin 1600000)) else 100000#32

/-- The kernel's padded feature table: the first 100000 rows are the features, the rest zero. -/
def padX (x : (⟨2, ![100000, 64]⟩ : Shape).Idx → EReal) : (⟨2, ![100352, 64]⟩ : Shape).Idx → EReal :=
  fun j => if h : (j 0).val < 100000 then x (ix2 (⟨(j 0).val, h⟩ : Fin 100000) (⟨(j 1).val, idx2_lt1 j⟩ : Fin 64)) else 0

/-- The kernel's result: the first 100000 rows of the scattered sums of the gathered messages. -/
def kerOf (x : (⟨2, ![100000, 64]⟩ : Shape).Idx → EReal) (ei : IVec ⟨2, ![2, 1600000]⟩ 32) :
    (⟨2, ![100000, 64]⟩ : Shape).Idx → EReal :=
  fun i => scatOf (padRow ei 1) (msgsOf (padRow ei 0) (padX x))
    (ix2 (⟨(i 0).val, by have := idx2_lt0 i; omega⟩ : Fin 101376) (⟨(i 1).val, idx2_lt1 i⟩ : Fin 64))

/-! ## Words: unsigned against signed reading below the table's height -/

/-- For a row number below 100000 a 32-bit word names it unsigned exactly when it names it signed: a word whose unsigned
    value is below `2 ^ 31` has that same signed value, and every other word is negative signed and at least `2 ^ 31`
    unsigned. -/
private theorem toNat_eq_iff_toInt_eq (w : BitVec 32) (n : ℕ) (hn : n < 100000) :
    w.toNat = n ↔ w.toInt = (n : ℤ) := by
  have hw := w.isLt
  rw [BitVec.toInt_eq_toNat_cond]
  split <;> omega

/-- A word below the table's height is its own row: read signed it is non-negative, so nothing is added, and the clamp
    at 99999 is the identity. -/
private theorem rowOf_of_lt (w : BitVec 32) (h : w.toNat < 100000) : rowOf w = ⟨w.toNat, h⟩ := by
  have hI : w.toInt = (w.toNat : ℤ) := by
    rw [BitVec.toInt_eq_toNat_cond]
    split <;> omega
  have hneg : ¬ w.toInt < 0 := by omega
  apply Fin.ext
  show min (if w.toInt < 0 then w + 100000#32 else w).toInt.toNat 99999 = w.toNat
  rw [if_neg hneg, hI, Int.toNat_natCast]
  omega

/-! ## The definitions read at a pair of coordinates -/

/-- The padded index row on the first 1600000 columns is the edges' row. -/
private theorem padRow_castLE (ei : IVec ⟨2, ![2, 1600000]⟩ 32) (r : Fin 2) (hle : 1600000 ≤ 1601536)
    (e : Fin 1600000) : padRow ei r (ix2 (0 : Fin 1) (Fin.castLE hle e)) = ei (ix2 r e) := by
  unfold padRow
  exact dif_pos e.isLt

/-- The padded index row past column 1600000 is the word 100000. -/
private theorem padRow_ge (ei : IVec ⟨2, ![2, 1600000]⟩ 32) (r : Fin 2) (e : Fin 1601536)
    (h : ¬ e.val < 1600000) : padRow ei r (ix2 (0 : Fin 1) e) = 100000#32 := by
  unfold padRow
  exact dif_neg h

/-- A message whose source word is below the table's height is that row of the unpadded features: the word is below the
    padded height too, and the padded table agrees with the features on the first 100000 rows. -/
private theorem msgsOf_padX (s : IVec ⟨2, ![1, 1601536]⟩ 32) (x : (⟨2, ![100000, 64]⟩ : Shape).Idx → EReal)
    (e : Fin 1601536) (d : Fin 64) (w : BitVec 32) (hw : s (ix2 (0 : Fin 1) e) = w) (h : w.toNat < 100000) :
    msgsOf s (padX x) (ix2 e d) = x (ix2 (⟨w.toNat, h⟩ : Fin 100000) d) := by
  subst hw
  have h2 : (s (ix2 (0 : Fin 1) e)).toNat < 100352 := by omega
  unfold msgsOf
  refine (dif_pos h2).trans ?_
  unfold padX
  exact dif_pos h

/-- The kernel's result at `(n, d)`: the sum over the 1601536 padded edges. -/
private theorem kerOf_apply (x : (⟨2, ![100000, 64]⟩ : Shape).Idx → EReal) (ei : IVec ⟨2, ![2, 1600000]⟩ 32)
    (n : Fin 100000) (d : Fin 64) :
    kerOf x ei (ix2 n d) = ∑ e : Fin 1601536, if (padRow ei 1 (ix2 (0 : Fin 1) e)).toNat = n.val
      then msgsOf (padRow ei 0) (padX x) (ix2 e d) else 0 := by
  unfold kerOf scatOf
  exact Finset.sum_congr rfl (fun e _ => rfl)

/-- The reference's result at `(n, d)`: the sum over the 1600000 edges. -/
private theorem refOf_apply (x : (⟨2, ![100000, 64]⟩ : Shape).Idx → EReal) (ei : IVec ⟨2, ![2, 1600000]⟩ 32)
    (n : Fin 100000) (d : Fin 64) :
    refOf x ei (ix2 n d) = ∑ e : Fin 1600000, if (ei (ix2 (1 : Fin 2) e)).toInt = (n.val : ℤ)
      then x (ix2 (rowOf (ei (ix2 (0 : Fin 2) e))) d) else 0 := by
  unfold refOf
  exact Finset.sum_congr rfl (fun e _ => rfl)

/-- THE BRIDGE: when every source word, read unsigned, is below the table's height, the kernel's result is the
    reference's. No finiteness is used: a zero one-hot factor annihilates every extended real, and adding zeros changes
    nothing. -/
theorem ker_eq_ref (x : (⟨2, ![100000, 64]⟩ : Shape).Idx → EReal) (ei : IVec ⟨2, ![2, 1600000]⟩ 32)
    (hsrc : ∀ e : Fin 1600000, (ei (ix2 (0 : Fin 2) e)).toNat < 100000) : kerOf x ei = refOf x ei := by
  funext i
  obtain ⟨n, d, rfl⟩ : ∃ (n : Fin 100000) (d : Fin 64), i = ix2 n d := ⟨i 0, i 1, eq_ix2 i⟩
  rw [kerOf_apply, refOf_apply]
  have hle : 1600000 ≤ 1601536 := by omega
  -- The edges sit inside the padded edges as the first 1600000; the padded sum is the edges' sum once the padding's
  -- terms are zero and the terms on the edges agree.
  refine (Fintype.sum_of_injective (Fin.castLE hle) (Fin.castLE_injective hle) _ _ ?_ ?_).symm
  · -- On the padding the target word is 100000, which is no row number below 100000: the term is zero.
    intro e he
    have hge : ¬ e.val < 1600000 := fun hlt => he ⟨⟨e.val, hlt⟩, Fin.ext rfl⟩
    rw [padRow_ge ei 1 e hge]
    have hn := n.isLt
    have hne : ¬ (100000#32 : BitVec 32).toNat = n.val := by
      rw [BitVec.toNat_ofNat]
      omega
    exact if_neg hne
  · -- On an edge both sides test the same target word (unsigned against signed, the same below 100000) and read the
    -- same feature row (the source word is below the table's height, so wrapping and clamping leave it alone).
    intro e
    rw [padRow_castLE ei 1 hle e,
      msgsOf_padX (padRow ei 0) x (Fin.castLE hle e) d (ei (ix2 (0 : Fin 2) e)) (padRow_castLE ei 0 hle e) (hsrc e),
      rowOf_of_lt _ (hsrc e)]
    by_cases ht : (ei (ix2 (1 : Fin 2) e)).toNat = n.val
    · rw [if_pos ht, if_pos ((toNat_eq_iff_toInt_eq _ _ n.isLt).mp ht)]
    · rw [if_neg ht, if_neg (fun h => ht ((toNat_eq_iff_toInt_eq _ _ n.isLt).mpr h))]

end Cert.Spec

end
-- ==== Proof.Val0.lean ====
/-
  The gather region's value over the extended reals: the message array it leaves is `msgsOf` of the padded source row
  and the padded feature table it was entered with. Along a row of the grid (one edge block, the node blocks in turn) the
  accumulator after node block `k` holds, at edge `e` of the block, the feature row named by the edge's source word if
  that word is below 2048·(k+1), and zero otherwise: a one-hot column has at most one unit entry, a zero factor
  annihilates every extended real, and zeros add to nothing. After the last node block that is the message.
-/
import proofs.«420660_j45414984188550_2_alg».proof.Proof.KI.Dat0
import proofs.«420660_j45414984188550_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The one-hot product read at an index

The body's `tpu.matmul` contracts axis 0 of both operands: entry `(e, d)` of the product is the sum over the node
rows `n` of the one-hot column entry `(n, e)` times the feature block's entry `(n, d)`. -/

/-- Left operand, axis 0 (contracted): the contraction position. -/
private theorem lhs_hot_0 (i : S2048x64.Idx) (q : dot_S2048x2048_S2048x64_S2048x64_0_0_1_1_n_n.contr.Idx) :
    (dot_S2048x2048_S2048x64_S2048x64_0_0_1_1_n_n.lhsIdx i q 0).val = (q ⟨0, by decide⟩).val :=
  dot_S2048x2048_S2048x64_S2048x64_0_0_1_1_n_n.lhsIdx_val_of_single rfl i q
/-- Left operand, axis 1 (free): the result's row. -/
private theorem lhs_hot_1 (i : S2048x64.Idx) (q : dot_S2048x2048_S2048x64_S2048x64_0_0_1_1_n_n.contr.Idx) :
    (dot_S2048x2048_S2048x64_S2048x64_0_0_1_1_n_n.lhsIdx i q 1).val = (i 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
/-- Right operand, axis 0 (contracted): the contraction position. -/
private theorem rhs_hot_0 (i : S2048x64.Idx) (q : dot_S2048x2048_S2048x64_S2048x64_0_0_1_1_n_n.contr.Idx) :
    (dot_S2048x2048_S2048x64_S2048x64_0_0_1_1_n_n.rhsIdx i q 0).val = (q ⟨0, by decide⟩).val :=
  dot_S2048x2048_S2048x64_S2048x64_0_0_1_1_n_n.rhsIdx_val_of_single rfl i q
/-- Right operand, axis 1 (free): the result's column. -/
private theorem rhs_hot_1 (i : S2048x64.Idx) (q : dot_S2048x2048_S2048x64_S2048x64_0_0_1_1_n_n.contr.Idx) :
    (dot_S2048x2048_S2048x64_S2048x64_0_0_1_1_n_n.rhsIdx i q 1).val = (i 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

/-- The product into the zero accumulator at `(e, d)`: the sum over the node rows. -/
private theorem hotmul_apply (L : FVec Ideal S2048x2048 .bf16) (R : FVec Ideal S2048x64 .bf16) (e : Fin 2048) (d : Fin 64) :
    (matmul dot_S2048x2048_S2048x64_S2048x64_0_0_1_1_n_n none L R (constant (F := Ideal) S2048x64 .f32 0x00000000#32) : S2048x64.Idx → EReal) (ix2 e d)
      = ∑ n : Fin 2048, L (ix2 n e) * R (ix2 n d) := by
  simp only [matmul]
  rw [Ideal.matmul_constant_zero_apply, ← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 e d) ((contrEquiv1 dot_S2048x2048_S2048x64_S2048x64_0_0_1_1_n_n 2048 rfl rfl).symm k) = ix2 k e := funext fun a => Fin.ext (by
    match a with
    | ⟨0, _⟩ => exact (lhs_hot_0 _ _).trans hk
    | ⟨1, _⟩ => exact lhs_hot_1 _ _)
  have er : dot_S2048x2048_S2048x64_S2048x64_0_0_1_1_n_n.rhsIdx (ix2 e d) ((contrEquiv1 dot_S2048x2048_S2048x64_S2048x64_0_0_1_1_n_n 2048 rfl rfl).symm k) = ix2 k d := funext fun a => Fin.ext (by
    match a with
    | ⟨0, _⟩ => exact (rhs_hot_0 _ _).trans hk
    | ⟨1, _⟩ => exact rhs_hot_1 _ _)
  rw [el, er]

/-- The one-hot column entry: node row `n` of node block `k` against the source word `w`. -/
private def hot (k : ℕ) (w : BitVec 32) (n : Fin 2048) : EReal :=
  if BitVec.ofNat 32 n.val + BitVec.ofNat 32 k * 2048#32 = w then 1 else 0

/-- A `[2048, 1]` column broadcast to `[2048, 2048]` reads, at `(n, e)`, the column at `n`. -/
private theorem broadcastTo_a1_ab_apply {α : Type} (v : S2048x1.Idx → α) (n e : Fin 2048) :
    broadcastTo S2048x2048 v broadcasts_S2048x1_S2048x2048 (ix2 n e) = v (ix2 n (0 : Fin 1)) := by
  refine broadcastTo_apply v _ (ix2 n e) (ix2 n (0 : Fin 1)) fun ax => ?_
  match ax with
  | ⟨0, _⟩ => rfl
  | ⟨1, _⟩ => rfl

/-- The accumulator after the body's update, at `(e, d)`: what it held plus the one-hot column of edge `e` against the
    feature block's column `d`. -/
private theorem pay2_apply (i : grid0.Coords) (x0 : Vec Ideal S1x2048 .i32) (x1 : Vec Ideal S2048x64 .bf16) (a : Vec Ideal S2048x64 .f32)
    (e : Fin 2048) (d : Fin 64) :
    (k0_pay2 (F := Ideal) i x0 x1 a : S2048x64.Idx → EReal) (ix2 e d)
      = (a : S2048x64.Idx → EReal) (ix2 e d) + ∑ n : Fin 2048, hot (i 1).val ((x0 : IVec S1x2048 32) (ix2 (0 : Fin 1) e)) n * (x1 : S2048x64.Idx → EReal) (ix2 n d) := by
  unfold k0_pay2
  simp only [shapeCast_self]
  refine (addf_apply _ _ _).trans ?_
  refine congrArg (_ + ·) ?_
  refine (hotmul_apply _ _ e d).trans ?_
  refine Finset.sum_congr rfl fun n _ => ?_
  refine congrArg (· * _) ?_
  have h9 : broadcastTo S2048x2048 (addi (iota Kind.tc S2048x1 32 [0] iota_S2048x1_d0_w32) (broadcast S2048x1 (Scalar.muli (BitVec.ofNat 32 (i 1).val) 2048#32)))
      broadcasts_S2048x1_S2048x2048 (ix2 n e) = BitVec.ofNat 32 n.val + BitVec.ofNat 32 (i 1).val * 2048#32 := by
    refine (broadcastTo_a1_ab_apply _ n e).trans ?_
    show IntOp.addi (iota Kind.tc S2048x1 32 [0] iota_S2048x1_d0_w32 (ix2 n (0 : Fin 1))) _ = _
    rw [iota_single_apply]
    rfl
  have h10 : broadcastTo S2048x2048 (x0 : IVec S1x2048 32) broadcasts_S1x2048_S2048x2048 (ix2 n e) = (x0 : IVec S1x2048 32) (ix2 (0 : Fin 1) e) :=
    broadcastTo_1b_ab_apply _ _ n e
  show ((((IntOp.cmpi .eq (broadcastTo S2048x2048 (addi (iota Kind.tc S2048x1 32 [0] iota_S2048x1_d0_w32) (broadcast S2048x1 (Scalar.muli (BitVec.ofNat 32 (i 1).val) 2048#32)))
      broadcasts_S2048x1_S2048x2048 (ix2 n e)) (broadcastTo S2048x2048 (x0 : IVec S1x2048 32) broadcasts_S1x2048_S2048x2048 (ix2 n e))).setWidth 32).toInt : ℝ) : EReal) = _
  rw [h9, h10]
  unfold hot IntOp.cmpi
  by_cases h : BitVec.ofNat 32 n.val + BitVec.ofNat 32 (i 1).val * 2048#32 = (x0 : IVec S1x2048 32) (ix2 (0 : Fin 1) e)
  · rw [if_pos h, beq_iff_eq.mpr h]; simp
  · rw [if_neg h, beq_eq_false_iff_ne.mpr h]; simp

/-! ## The one-hot sum

Row `n` of node block `k` is node `n + 2048·k`; its 32-bit word equals the source word exactly when the numbers agree,
nothing wraps below `2048·49`. So the one-hot column has at most one unit entry, and the sum picks that row or is
zero. -/

private theorem hot_iff (k : ℕ) (hk : k < 49) (w : BitVec 32) (n : Fin 2048) :
    BitVec.ofNat 32 n.val + BitVec.ofNat 32 k * 2048#32 = w ↔ n.val + 2048 * k = w.toNat := by
  have hn := n.isLt
  constructor
  · intro h
    have h' := congrArg BitVec.toNat h
    simp only [BitVec.toNat_add, BitVec.toNat_mul, BitVec.toNat_ofNat, Nat.reducePow, Nat.reduceMod] at h'
    omega
  · intro h
    apply BitVec.eq_of_toNat_eq
    simp only [BitVec.toNat_add, BitVec.toNat_mul, BitVec.toNat_ofNat, Nat.reducePow, Nat.reduceMod]
    omega

/-- The one-hot column of block `k` against the word `w`, summed against `f`: `f` at the row `w` names inside the block,
    zero when `w` names no row of it. -/
private theorem hot_sum (k : ℕ) (hk : k < 49) (w : BitVec 32) (f : Fin 2048 → EReal) :
    ∑ n : Fin 2048, hot k w n * f n
      = if h : 2048 * k ≤ w.toNat ∧ w.toNat < 2048 * (k + 1) then f ⟨w.toNat - 2048 * k, by omega⟩ else 0 := by
  by_cases h : 2048 * k ≤ w.toNat ∧ w.toNat < 2048 * (k + 1)
  · rw [dif_pos h, Finset.sum_eq_single (⟨w.toNat - 2048 * k, by omega⟩ : Fin 2048)]
    · unfold hot
      rw [if_pos ((hot_iff k hk w _).mpr (by show w.toNat - 2048 * k + 2048 * k = w.toNat; omega)), one_mul]
    · intro n _ hne
      unfold hot
      rw [if_neg (fun heq => hne (Fin.ext (by
        have := (hot_iff k hk w n).mp heq
        show n.val = w.toNat - 2048 * k
        omega))), zero_mul]
    · intro h'
      exact absurd (Finset.mem_univ _) h'
  · rw [dif_neg h]
    refine Finset.sum_eq_zero fun n _ => ?_
    unfold hot
    rw [if_neg (fun heq => h (by
      have := (hot_iff k hk w n).mp heq
      have := n.isLt
      exact ⟨by omega, by omega⟩)), zero_mul]

/-- The feature row the word `w` names, at column `d`, if `w` is below `m` (and names a row of the table); zero otherwise. -/
private def pick (xp : S100352x64.Idx → EReal) (m : ℕ) (w : BitVec 32) (d : Fin 64) : EReal :=
  if h : w.toNat < m ∧ w.toNat < 100352 then xp (ix2 (⟨w.toNat, h.2⟩ : Fin 100352) d) else 0

/-- One node block more: the rows below `2048·k` already picked, plus the one-hot sum over block `k`, are the rows
    below `2048·(k+1)`. Zero factors annihilate and zeros add to nothing on every extended real. -/
private theorem pick_step (xp : S100352x64.Idx → EReal) (k : ℕ) (hk : k < 49) (w : BitVec 32) (d : Fin 64) (f : Fin 2048 → EReal)
    (hf : ∀ n : Fin 2048, f n = xp (ix2 (⟨2048 * k + n.val, by have := n.isLt; omega⟩ : Fin 100352) d)) :
    pick xp (2048 * k) w d + ∑ n : Fin 2048, hot k w n * f n = pick xp (2048 * (k + 1)) w d := by
  rw [hot_sum k hk w f]
  unfold pick
  by_cases h1 : w.toNat < 2048 * k
  · rw [dif_pos ⟨h1, by omega⟩, dif_neg (by omega), dif_pos ⟨by omega, by omega⟩, add_zero]
  · by_cases h2 : w.toNat < 2048 * (k + 1)
    · rw [dif_neg (by omega), dif_pos ⟨by omega, h2⟩, dif_pos ⟨h2, by omega⟩, zero_add, hf]
      congr 2
      apply Fin.ext
      show 2048 * k + (w.toNat - 2048 * k) = w.toNat
      omega
    · rw [dif_neg (by omega), dif_neg (by omega), dif_neg (by omega), add_zero]

/-! ## The arrays and the blocks, by their literal types -/

/-- The padded source row the region is entered with. -/
private abbrev srcRow (c : Dev nD) : IVec S1x1601536 32 := V c main_v5
/-- The padded feature table the region is entered with. -/
private abbrev featTab (c : Dev nD) : S100352x64.Idx → EReal := V c main_v9
/-- The block of source words a point reads. -/
private abbrev srcBlk (c : Dev nD) (t : Fin cfg0.N) : Vec Ideal S1x2048 .i32 := iblk0 V c 0 t
/-- The block of feature rows a point reads. -/
private abbrev featBlk (c : Dev nD) (t : Fin cfg0.N) : Vec Ideal S2048x64 .bf16 := iblk0 V c 1 t
/-- The messages: what the region is to leave. -/
private abbrev msgs (c : Dev nD) : S1601536x64.Idx → EReal := msgsOf (srcRow V c) (featTab V c)

/-- The source block of a point of edge block `t / 49` holds the words of edges `2048·(t / 49) + e`. -/
private theorem srcBlk_apply (c : Dev nD) (t : Fin cfg0.N) (e : Fin 2048) (j : Fin 1601536) (hj : j.val = 2048 * (t.val / 49) + e.val) :
    (srcBlk V c t : IVec S1x2048 32) (ix2 (0 : Fin 1) e) = srcRow V c (ix2 (0 : Fin 1) j) := by
  unfold srcBlk iblk0
  rw [View.read_apply]
  show V c main_v5 _ = V c main_v5 _
  congr 1
  funext a
  apply Fin.ext
  match a with
  | ⟨0, _⟩ =>
    show (cfg0.win 0).index t 0 * 1 + 1 * 0 = 0
    rw [index0_0 t 0]
    rfl
  | ⟨1, _⟩ =>
    show (cfg0.win 0).index t 1 * 2048 + 1 * e.val = j.val
    rw [index0_0 t 1, hj]
    show t.val / 49 * 2048 + 1 * e.val = _
    omega

/-- The feature block of a point of node block `t % 49` holds the rows `2048·(t % 49) + n` of the table. -/
private theorem featBlk_apply (c : Dev nD) (t : Fin cfg0.N) (n : Fin 2048) (d : Fin 64) (j : Fin 100352) (hj : j.val = 2048 * (t.val % 49) + n.val) :
    (featBlk V c t : S2048x64.Idx → EReal) (ix2 n d) = featTab V c (ix2 j d) := by
  unfold featBlk iblk0
  rw [View.read_apply]
  show V c main_v9 _ = V c main_v9 _
  congr 1
  funext a
  apply Fin.ext
  match a with
  | ⟨0, _⟩ =>
    show (cfg0.win 1).index t 0 * 2048 + 1 * n.val = j.val
    rw [index0_1 t 0, hj]
    show t.val % 49 * 2048 + 1 * n.val = _
    omega
  | ⟨1, _⟩ =>
    show (cfg0.win 1).index t 1 * 64 + 1 * d.val = d.val
    rw [index0_1 t 1]
    show 0 * 64 + 1 * d.val = d.val
    omega

/-- The accumulator a row starts from is zero everywhere. -/
private theorem pay1_apply (j : S2048x64.Idx) : (k0_pay1 (F := Ideal) : S2048x64.Idx → EReal) j = 0 := by
  unfold k0_pay1
  simp only [shapeCast_self]
  exact Ideal.ofBits_zero_f32

/-- One point of a row: an accumulator holding the rows below `2048·k` picked, updated at node block `k`, holds the rows
    below `2048·(k+1)` picked. -/
private theorem step_apply (xp : S100352x64.Idx → EReal) (i : grid0.Coords) (k : ℕ) (hk : k < 49) (hik : (i 1).val = k)
    (x0 : Vec Ideal S1x2048 .i32) (x1 : Vec Ideal S2048x64 .bf16) (a : Vec Ideal S2048x64 .f32) (e : Fin 2048) (d : Fin 64) (w : BitVec 32)
    (hw : (x0 : IVec S1x2048 32) (ix2 (0 : Fin 1) e) = w)
    (hx1 : ∀ n : Fin 2048, (x1 : S2048x64.Idx → EReal) (ix2 n d) = xp (ix2 (⟨2048 * k + n.val, by have := n.isLt; omega⟩ : Fin 100352) d))
    (ha : (a : S2048x64.Idx → EReal) (ix2 e d) = pick xp (2048 * k) w d) :
    (k0_pay2 (F := Ideal) i x0 x1 a : S2048x64.Idx → EReal) (ix2 e d) = pick xp (2048 * (k + 1)) w d := by
  rw [pay2_apply, hik, hw, ha]
  exact pick_step xp k hk w d _ hx1

/-! ## Along a row of the grid -/

/-- THE INVARIANT. In edge block `b`, after node block `k` the accumulator holds at edge `e` the feature row the edge's
    source word names if that word is below `2048·(k+1)`, zero otherwise. -/
private theorem acc_row (c : Dev nD) (b : ℕ) (hb : b < 782) (e : Fin 2048) (d : Fin 64) (j : Fin 1601536) (hj : j.val = 2048 * b + e.val) :
    ∀ k : ℕ, k < 49 → (acc0 (F := Ideal) V c (49 * b + k + 1) : S2048x64.Idx → EReal) (ix2 e d)
      = pick (featTab V c) (2048 * (k + 1)) (srcRow V c (ix2 (0 : Fin 1) j)) d := by
  intro k
  induction k with
  | zero =>
    intro hk
    have hN : 49 * b + 0 < cfg0.N := by rw [N0_eq]; omega
    rw [acc0_succ V c (49 * b + 0) hN]
    unfold accNext0
    rw [if_pos ((first0_iff ⟨49 * b + 0, hN⟩).mpr (by show (49 * b + 0) % 49 = 0; omega))]
    exact step_apply (featTab V c) (grid0.coords ⟨49 * b + 0, hN⟩) 0 hk
      (by rw [coords0_1]; show (49 * b + 0) % 49 = 0; omega)
      (srcBlk V c ⟨49 * b + 0, hN⟩) (featBlk V c ⟨49 * b + 0, hN⟩) (k0_pay1 (F := Ideal)) e d (srcRow V c (ix2 (0 : Fin 1) j))
      (srcBlk_apply V c ⟨49 * b + 0, hN⟩ e j (by show j.val = 2048 * ((49 * b + 0) / 49) + e.val; omega))
      (fun n => featBlk_apply V c ⟨49 * b + 0, hN⟩ n d _ (by show 2048 * 0 + n.val = 2048 * ((49 * b + 0) % 49) + n.val; omega))
      ((pay1_apply _).trans (by unfold pick; rw [dif_neg (by omega)]))
  | succ k ih =>
    intro hk
    have hN : 49 * b + (k + 1) < cfg0.N := by rw [N0_eq]; omega
    rw [acc0_succ V c (49 * b + (k + 1)) hN]
    unfold accNext0
    rw [if_neg (fun hf => by
      have h0 : (49 * b + (k + 1)) % 49 = 0 := (first0_iff ⟨49 * b + (k + 1), hN⟩).mp hf
      omega)]
    exact step_apply (featTab V c) (grid0.coords ⟨49 * b + (k + 1), hN⟩) (k + 1) hk
      (by rw [coords0_1]; show (49 * b + (k + 1)) % 49 = k + 1; omega)
      (srcBlk V c ⟨49 * b + (k + 1), hN⟩) (featBlk V c ⟨49 * b + (k + 1), hN⟩) (acc0 (F := Ideal) V c (49 * b + (k + 1))) e d (srcRow V c (ix2 (0 : Fin 1) j))
      (srcBlk_apply V c ⟨49 * b + (k + 1), hN⟩ e j (by show j.val = 2048 * ((49 * b + (k + 1)) / 49) + e.val; omega))
      (fun n => featBlk_apply V c ⟨49 * b + (k + 1), hN⟩ n d _ (by show 2048 * (k + 1) + n.val = 2048 * ((49 * b + (k + 1)) % 49) + n.val; omega))
      (ih (by omega))

/-! ## From the row's last point to the array -/

/-- A message at `(j, d)`: the feature row the source word of edge `j` names, below the table's height `2048·49`. -/
private theorem msgsOf_apply (s : IVec S1x1601536 32) (xp : S100352x64.Idx → EReal) (j : Fin 1601536) (d : Fin 64) :
    msgsOf s xp (ix2 j d) = pick xp (2048 * 49) (s (ix2 (0 : Fin 1) j)) d := by
  unfold msgsOf pick
  show (if h : (s (ix2 (0 : Fin 1) j)).toNat < 100352 then xp (ix2 (⟨_, h⟩ : Fin 100352) d) else 0) = _
  by_cases h : (s (ix2 (0 : Fin 1) j)).toNat < 100352
  · rw [dif_pos h, dif_pos ⟨by omega, h⟩]
  · rw [dif_neg h, dif_neg (by omega)]

/-- The output block of a point of edge block `t / 49`, read off a whole array: rows `2048·(t / 49) + e`. -/
private theorem outBlk_apply (c : Dev nD) (t : Fin cfg0.N) (G : S1601536x64.Idx → EReal) (e : Fin 2048) (d : Fin 64) (j : Fin 1601536)
    (hj : j.val = 2048 * (t.val / 49) + e.val) :
    (((cfg0.win 2).blk t).view.read (Elt Ideal) G : S2048x64.Idx → EReal) (ix2 e d) = G (ix2 j d) := by
  rw [View.read_apply]
  show G _ = G _
  congr 1
  funext a
  apply Fin.ext
  match a with
  | ⟨0, _⟩ =>
    show (cfg0.win 2).index t 0 * 2048 + 1 * e.val = j.val
    rw [index0_2 t 0, hj]
    show t.val / 49 * 2048 + 1 * e.val = _
    omega
  | ⟨1, _⟩ =>
    show (cfg0.win 2).index t 1 * 64 + 1 * d.val = d.val
    rw [index0_2 t 1]
    show 0 * 64 + 1 * d.val = d.val
    omega

/-- WHAT A ROW'S LAST POINT WRITES BACK is its block of the messages: after the last node block every row of the table
    has been offered, and `2048·49` is the table's height. -/
private theorem flushed_eq (c : Dev nD) (t : Fin cfg0.N) (hf : (cfg0.win 2).flush t = true) :
    (dat0 (F := Ideal) V c).flushed 2 t = ((cfg0.win 2).blk t).view.read (Elt Ideal) (msgs V c) := by
  have h48 : t.val % 49 = 48 := (flush0_2 t).mp hf
  have hlt : t.val < 38318 := lt_of_lt_of_eq t.isLt N0_eq
  show (cfg0.win 2).cut (grid0.coords t) ((dat0 (F := Ideal) V c).after 2 t) = _
  rw [after0_2]
  funext y
  obtain ⟨e, d, rfl⟩ : ∃ (e : Fin 2048) (d : Fin 64), y = ix2 e d := ⟨y 0, y 1, eq_ix2 y⟩
  have hj : 2048 * (t.val / 49) + e.val < 1601536 := by have := e.isLt; omega
  refine Eq.trans ?_ ((outBlk_apply c t (msgs V c) e d ⟨_, hj⟩ rfl).trans (msgsOf_apply (srcRow V c) (featTab V c) ⟨_, hj⟩ d)).symm
  show (acc0 (F := Ideal) V c (t.val + 1) : S2048x64.Idx → EReal) (ix2 e d) = _
  have h := acc_row V c (t.val / 49) (by omega) e d ⟨_, hj⟩ rfl 48 (by omega)
  rwa [show 49 * (t.val / 49) + 48 + 1 = t.val + 1 from by omega] at h

/-- An index of the message array is in a point's output block iff each coordinate is in the block's range. -/
private theorem mem_outBlk (t : Fin cfg0.N) (i : S1601536x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v10).slice (win0_2.rect t)).set ↔ _
  rw [View.set_slice_whole, Rect.mem_set_unit]
  exact Iff.rfl

/-- Row `r` of the message array lies in the output block of the last point of edge block `r / 2048`. -/
private theorem covered (i : S1601536x64.Idx) :
    ∃ t : Fin cfg0.N, (cfg0.win 2).flush t = true ∧ i ∈ ((cfg0.win 2).blk t).view.set := by
  have hi0 : (i 0).val < 1601536 := idx2_lt0 i
  have hi1 : (i 1).val < 64 := idx2_lt1 i
  have hN : 49 * ((i 0).val / 2048) + 48 < cfg0.N := by rw [N0_eq]; omega
  refine ⟨⟨49 * ((i 0).val / 2048) + 48, hN⟩, (flush0_2 _).mpr (by show (49 * ((i 0).val / 2048) + 48) % 49 = 48; omega), ?_⟩
  rw [mem_outBlk]
  intro a
  match a with
  | ⟨0, _⟩ =>
    show win0_2.index ⟨49 * ((i 0).val / 2048) + 48, hN⟩ 0 * 2048 ≤ (i 0).val ∧ (i 0).val < win0_2.index ⟨49 * ((i 0).val / 2048) + 48, hN⟩ 0 * 2048 + 2048
    rw [show win0_2.index ⟨49 * ((i 0).val / 2048) + 48, hN⟩ 0 = (49 * ((i 0).val / 2048) + 48) / 49 from index0_2 ⟨49 * ((i 0).val / 2048) + 48, hN⟩ 0]
    omega
  | ⟨1, _⟩ =>
    show win0_2.index ⟨49 * ((i 0).val / 2048) + 48, hN⟩ 1 * 64 ≤ (i 1).val ∧ (i 1).val < win0_2.index ⟨49 * ((i 0).val / 2048) + 48, hN⟩ 1 * 64 + 64
    rw [show win0_2.index ⟨49 * ((i 0).val / 2048) + 48, hN⟩ 1 = 0 from index0_2 ⟨49 * ((i 0).val / 2048) + 48, hN⟩ 1]
    omega

/-- REGION 0's VALUE: the message array after the region. -/
theorem gather_value (c : Dev nD) :
    ((dat0 (F := Ideal) V c).arrAt 2 cfg0.N : S1601536x64.Idx → EReal)
      = msgsOf (V c main_v5 : IVec S1x1601536 32) (V c main_v9 : S100352x64.Idx → EReal) :=
  (dat0 (F := Ideal) V c).arrAt_eq_of_cover 2 (msgs V c) (flushed_eq V c) covered

end Cert.KernelIdeal.Val

end
-- ==== Proof.Val1.lean ====
/-
  The scatter region's value over the extended reals: the padded result array it leaves is `scatOf` of the padded
  target row and the message array it was entered with. Along a row of the grid (one node block, the edge blocks in
  turn) the accumulator after edge block `b` holds, at node `n` of the block, the sum of the messages of the edges
  below 2048·(b+1) whose target word is that node; after the last edge block that is the whole sum.
-/
import proofs.«420660_j45414984188550_2_alg».proof.Proof.KI.Dat1
import proofs.«420660_j45414984188550_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The contraction index of the kernel's product is its one coordinate, an edge of the block. -/
private theorem scat_matmul_apply (A : FVec Ideal S3072x2048 .bf16) (B : FVec Ideal S2048x64 .bf16) (n : Fin 3072) (d : Fin 64) :
    matmul dot_S3072x2048_S2048x64_S3072x64_1_0_0_1_n_n none A B (constant S3072x64 .f32 0x00000000#32) (ix2 n d)
      = ∑ e : Fin 2048, A (ix2 n e) * B (ix2 e d) := by
  show FloatOps.matmul _ none A B _ (ix2 n d) = _
  rw [Ideal.matmul_constant_zero_apply,
    ← Equiv.sum_comp (contrEquiv1 dot_S3072x2048_S2048x64_S3072x64_1_0_0_1_n_n 2048 rfl rfl).symm]
  refine Finset.sum_congr rfl fun e _ => ?_
  have c2 := contrEquiv1_symm_val dot_S3072x2048_S2048x64_S3072x64_1_0_0_1_n_n 2048 rfl rfl e
  have l2 : dot_S3072x2048_S2048x64_S3072x64_1_0_0_1_n_n.lhsIdx (ix2 n d) ((contrEquiv1 _ 2048 rfl rfl).symm e) = ix2 n e := by
    funext ax; apply Fin.ext
    match ax with
    | ⟨0, _⟩ => simp [DotDims.lhsIdx, dot_S3072x2048_S2048x64_S3072x64_1_0_0_1_n_n]; rfl
    | ⟨1, _⟩ => simp [DotDims.lhsIdx, dot_S3072x2048_S2048x64_S3072x64_1_0_0_1_n_n]; exact c2
  have r2 : dot_S3072x2048_S2048x64_S3072x64_1_0_0_1_n_n.rhsIdx (ix2 n d) ((contrEquiv1 _ 2048 rfl rfl).symm e) = ix2 e d := by
    funext ax; apply Fin.ext
    match ax with
    | ⟨0, _⟩ => simp [DotDims.rhsIdx, dot_S3072x2048_S2048x64_S3072x64_1_0_0_1_n_n]; exact c2
    | ⟨1, _⟩ => simp [DotDims.rhsIdx, dot_S3072x2048_S2048x64_S3072x64_1_0_0_1_n_n]; rfl
  rw [l2, r2]

/-- An entry of the one-hot matrix of a point: 1 where the node's word is the edge's target word, 0 elsewhere. -/
private theorem scat_onehot_apply (w : BitVec 32) (x0 : IVec S1x2048 32) (n : Fin 3072) (e : Fin 2048) :
    (truncf .bf16 (sitofp (F := Ideal) .f32 (extui 32 (cmpi .eq
        (broadcastTo S3072x2048 (addi (iota .tc S3072x1 32 [0] iota_S3072x1_d0_w32) (broadcast S3072x1 w)) broadcasts_S3072x1_S3072x2048)
        (broadcastTo S3072x2048 x0 broadcasts_S1x2048_S3072x2048)) natLt_1_32)) bitsLt_bf16_f32 : FVec Ideal S3072x2048 .bf16) (ix2 n e)
      = if BitVec.ofNat 32 n.val + w = x0 (ix2 (0 : Fin 1) e) then (1 : EReal) else 0 := by
  have hL := broadcastTo_apply (addi (iota .tc S3072x1 32 [0] iota_S3072x1_d0_w32) (broadcast S3072x1 w))
    broadcasts_S3072x1_S3072x2048 (ix2 n e) (ix2 n (0 : Fin 1)) (fun a => by match a with | ⟨0, _⟩ => rfl | ⟨1, _⟩ => rfl)
  have hR := broadcastTo_apply x0 broadcasts_S1x2048_S3072x2048 (ix2 n e) (ix2 (0 : Fin 1) e)
    (fun a => by match a with | ⟨0, _⟩ => rfl | ⟨1, _⟩ => rfl)
  have hI : iota .tc S3072x1 32 [0] iota_S3072x1_d0_w32 (ix2 n (0 : Fin 1)) = BitVec.ofNat 32 n.val :=
    iota_single_apply .tc S3072x1 32 0 iota_S3072x1_d0_w32 (ix2 n (0 : Fin 1))
  show ((((IntOp.cmpi .eq
      (broadcastTo S3072x2048 (addi (iota .tc S3072x1 32 [0] iota_S3072x1_d0_w32) (broadcast S3072x1 w)) broadcasts_S3072x1_S3072x2048 (ix2 n e))
      (broadcastTo S3072x2048 x0 broadcasts_S1x2048_S3072x2048 (ix2 n e))).setWidth 32).toInt : ℝ) : EReal) = _
  rw [hL, hR]
  show ((((IntOp.cmpi .eq (IntOp.addi (iota .tc S3072x1 32 [0] iota_S3072x1_d0_w32 (ix2 n (0 : Fin 1))) w)
      (x0 (ix2 (0 : Fin 1) e))).setWidth 32).toInt : ℝ) : EReal) = _
  rw [hI]
  by_cases h : BitVec.ofNat 32 n.val + w = x0 (ix2 (0 : Fin 1) e)
  · rw [if_pos h]
    have : IntOp.cmpi .eq (IntOp.addi (BitVec.ofNat 32 n.val) w) (x0 (ix2 (0 : Fin 1) e)) = 1#1 := by
      simp [IntOp.cmpi, IntOp.addi, h]
    rw [this]; simp
  · rw [if_neg h]
    have hb : (BitVec.ofNat 32 n.val + w == x0 (ix2 (0 : Fin 1) e)) = false := beq_eq_false_iff_ne.mpr h
    have : IntOp.cmpi .eq (IntOp.addi (BitVec.ofNat 32 n.val) w) (x0 (ix2 (0 : Fin 1) e)) = 0#1 := by
      simp [IntOp.cmpi, IntOp.addi, hb]
    rw [this]; simp

/-- The accumulating step read at a node and a feature: the accumulator there plus the messages of the block's edges
    whose target word is the node's. -/
private theorem scat_pay2_apply (i : grid1.Coords) (x0 : Vec Ideal S1x2048 .i32) (x1 : Vec Ideal S2048x64 .bf16)
    (a : Vec Ideal S3072x64 .f32) (n : Fin 3072) (d : Fin 64) :
    k1_pay2 (F := Ideal) i x0 x1 a (ix2 n d)
      = a (ix2 n d) + ∑ e : Fin 2048,
          (if BitVec.ofNat 32 n.val + BitVec.ofNat 32 (i 0).val * 3072#32 = x0 (ix2 (0 : Fin 1) e) then (1 : EReal) else 0)
            * x1 (ix2 e d) := by
  unfold k1_pay2
  dsimp only
  simp only [shapeCast_self]
  refine (addf_apply _ _ _).trans ?_
  congr 1
  refine (scat_matmul_apply _ _ n d).trans ?_
  refine Finset.sum_congr rfl fun e _ => ?_
  congr 1
  exact scat_onehot_apply _ x0 n e

/-- The reset value is zero at every node and feature. -/
private theorem scat_pay1_apply (j : S3072x64.Idx) : (k1_pay1 (F := Ideal)) j = 0 := by
  unfold k1_pay1
  rw [shapeCast_self]
  exact Ideal.ofBits_zero_f32

/-- The word comparison of the one-hot matrix is an equation between naturals: no node index wraps at 32 bits. -/
private theorem scat_word_eq_iff (n nb : ℕ) (hn : n < 3072) (hnb : nb < 33) (tw : BitVec 32) :
    BitVec.ofNat 32 n + BitVec.ofNat 32 nb * 3072#32 = tw ↔ tw.toNat = 3072 * nb + n := by
  constructor
  · intro h; rw [← h]; simp [BitVec.toNat_add, BitVec.toNat_mul]; omega
  · intro h; apply BitVec.eq_of_toNat_eq; simp [BitVec.toNat_add, BitVec.toNat_mul]; omega

/-- The target-word block of a point: words 2048·(t % 782) … of the padded target row. -/
private theorem scat_tgt_block (c : Dev nD) (t : Fin cfg1.N) (e : Fin 2048) (he : 2048 * (t.val % 782) + e.val < 1601536) :
    (iblk1 V c 0 t : Vec Ideal S1x2048 .i32) (ix2 (0 : Fin 1) e)
      = (V c main_v7 : IVec S1x1601536 32) (ix2 (0 : Fin 1) ⟨2048 * (t.val % 782) + e.val, he⟩) := by
  unfold iblk1
  rw [View.read_apply]
  show V c main_v7 _ = V c main_v7 _
  congr 1
  funext a
  apply Fin.ext
  match a with
  | ⟨0, _⟩ => show (cfg1.win 0).index t 0 * 1 + 1 * 0 = 0; rw [index1_0 t 0]; rfl
  | ⟨1, _⟩ => show (cfg1.win 0).index t 1 * 2048 + 1 * e.val = 2048 * (t.val % 782) + e.val; rw [index1_0 t 1]; show (t.val % 782) * 2048 + 1 * e.val = _; omega

/-- The message block of a point: rows 2048·(t % 782) … of the message array. -/
private theorem scat_msg_block (c : Dev nD) (t : Fin cfg1.N) (e : Fin 2048) (d : Fin 64) (he : 2048 * (t.val % 782) + e.val < 1601536) :
    (iblk1 V c 1 t : Vec Ideal S2048x64 .bf16) (ix2 e d)
      = (V c main_v10 : S1601536x64.Idx → EReal) (ix2 ⟨2048 * (t.val % 782) + e.val, he⟩ d) := by
  unfold iblk1
  rw [View.read_apply]
  show V c main_v10 _ = V c main_v10 _
  congr 1
  funext a
  apply Fin.ext
  match a with
  | ⟨0, _⟩ => show (cfg1.win 1).index t 0 * 2048 + 1 * e.val = 2048 * (t.val % 782) + e.val; rw [index1_1 t 0]; show (t.val % 782) * 2048 + 1 * e.val = _; omega
  | ⟨1, _⟩ => show (cfg1.win 1).index t 1 * 64 + 1 * d.val = d.val; rw [index1_1 t 1]; show 0 * 64 + 1 * d.val = _; omega

/-- The message of edge `e'` at feature `d` when the edge's target word, read unsigned, is `tgt`; zero otherwise, and zero
    past the padded edge list. -/
private def scatTerm (T : IVec S1x1601536 32) (M : S1601536x64.Idx → EReal) (tgt : ℕ) (d : Fin 64) (e' : ℕ) : EReal :=
  if h : e' < 1601536 then (if (T (ix2 (0 : Fin 1) ⟨e', h⟩)).toNat = tgt then M (ix2 ⟨e', h⟩ d) else 0) else 0

/-- The accumulating step at point `t`, read at a node and a feature: the messages of the point's 2048 edges whose target
    is the node are added. A zero one-hot factor annihilates every extended real. -/
private theorem scat_step_apply (c : Dev nD) (t : Fin cfg1.N) (a : Vec Ideal S3072x64 .f32) (n : Fin 3072) (d : Fin 64) :
    k1_pay2 (F := Ideal) (grid1.coords t) (iblk1 V c 0 t) (iblk1 V c 1 t) a (ix2 n d)
      = a (ix2 n d) + ∑ e ∈ Finset.range 2048,
          scatTerm (V c main_v7) (V c main_v10) (3072 * (t.val / 782) + n.val) d (2048 * (t.val % 782) + e) := by
  have hN : cfg1.N = 25806 := N1_eq
  have ht : t.val < 25806 := hN ▸ t.isLt
  refine (scat_pay2_apply (grid1.coords t) (iblk1 V c 0 t) (iblk1 V c 1 t) a n d).trans ?_
  congr 1
  rw [Finset.sum_range]
  refine Finset.sum_congr rfl fun e _ => ?_
  have he : 2048 * (t.val % 782) + e.val < 1601536 := by have := e.isLt; omega
  rw [scat_tgt_block V c t e he, scat_msg_block V c t e d he, coords1_0 t]
  unfold scatTerm
  rw [dif_pos he]
  by_cases hw : ((V c main_v7 : IVec S1x1601536 32) (ix2 (0 : Fin 1) ⟨2048 * (t.val % 782) + e.val, he⟩)).toNat = 3072 * (t.val / 782) + n.val
  · rw [if_pos hw, if_pos ((scat_word_eq_iff n.val (t.val / 782) n.isLt (by omega) _).mpr hw), one_mul]
  · rw [if_neg hw, if_neg (fun h => hw ((scat_word_eq_iff n.val (t.val / 782) n.isLt (by omega) _).mp h)), zero_mul]

/-- One point of the accumulator's recursion at a node and a feature: reset at a row's first point, carried elsewhere,
    then the point's messages added. -/
private theorem scat_acc_step (c : Dev nD) (t : ℕ) (h : t < cfg1.N) (n : Fin 3072) (d : Fin 64) :
    acc1 V c (t + 1) (ix2 n d)
      = (if t % 782 = 0 then 0 else acc1 V c t (ix2 n d)) + ∑ e ∈ Finset.range 2048,
          scatTerm (V c main_v7) (V c main_v10) (3072 * (t / 782) + n.val) d (2048 * (t % 782) + e) := by
  rw [acc1_succ V c t h]
  unfold accNext1
  by_cases h0 : t % 782 = 0
  · rw [if_pos ((first1_iff ⟨t, h⟩).mpr h0), if_pos h0]
    refine (scat_step_apply V c ⟨t, h⟩ (k1_pay1 (F := Ideal)) n d).trans ?_
    rw [scat_pay1_apply]
  · rw [if_neg (fun hf => h0 ((first1_iff ⟨t, h⟩).mp hf)), if_neg h0]
    exact scat_step_apply V c ⟨t, h⟩ (acc1 V c t) n d

/-- THE INVARIANT along a row of the grid: after the point at edge block `t % 782` of node block `t / 782` the
    accumulator holds, at node `n` of the block, the messages of the edges below 2048·(t % 782 + 1) whose target word
    is node 3072·(t / 782) + n. -/
private theorem scat_acc_inv (c : Dev nD) (n : Fin 3072) (d : Fin 64) : ∀ (t : ℕ), t < cfg1.N →
    acc1 V c (t + 1) (ix2 n d)
      = ∑ e' ∈ Finset.range (2048 * (t % 782 + 1)), scatTerm (V c main_v7) (V c main_v10) (3072 * (t / 782) + n.val) d e' := by
  intro t
  induction t with
  | zero =>
    intro h
    rw [scat_acc_step V c 0 h n d, if_pos (by decide), zero_add]
    refine Finset.sum_congr rfl fun e _ => ?_
    congr 1
    omega
  | succ t' ih =>
    intro h
    rw [scat_acc_step V c (t' + 1) h n d]
    by_cases h0 : (t' + 1) % 782 = 0
    · rw [if_pos h0, zero_add, h0]
      refine Finset.sum_congr rfl fun e _ => ?_
      congr 1
      omega
    · have e1 : (t' + 1) / 782 = t' / 782 := by omega
      have e2 : (t' + 1) % 782 = t' % 782 + 1 := by omega
      rw [if_neg h0, ih (by omega), e1, e2, show 2048 * (t' % 782 + 1 + 1) = 2048 * (t' % 782 + 1) + 2048 by omega,
        Finset.sum_range_add]

/-- The sum over all the padded edges is the specification's row. -/
private theorem scat_sum_term_eq (T : IVec S1x1601536 32) (M : S1601536x64.Idx → EReal) (r : Fin 101376) (d : Fin 64) :
    ∑ e' ∈ Finset.range 1601536, scatTerm T M r.val d e' = scatOf T M (ix2 r d) := by
  unfold scatOf
  rw [Finset.sum_range]
  refine Finset.sum_congr rfl fun e _ => ?_
  unfold scatTerm
  rw [dif_pos e.isLt]

/-- At a row's last point the accumulator is the specification's rows 3072·(t / 782) … of the result. -/
private theorem scat_acc_last (c : Dev nD) (t : Fin cfg1.N) (h781 : t.val % 782 = 781) (n : Fin 3072) (d : Fin 64)
    (hr : 3072 * (t.val / 782) + n.val < 101376) :
    acc1 V c (t.val + 1) (ix2 n d)
      = scatOf (V c main_v7) (V c main_v10) (ix2 (⟨3072 * (t.val / 782) + n.val, hr⟩ : Fin 101376) d) := by
  rw [scat_acc_inv V c n d t.val t.isLt, h781]
  exact scat_sum_term_eq (V c main_v7) (V c main_v10) ⟨3072 * (t.val / 782) + n.val, hr⟩ d

/-- What a row's last point writes back is its block of the specification's array. -/
private theorem scat_flushed_eq (c : Dev nD) (t : Fin cfg1.N) (hf : (cfg1.win 2).flush t = true) :
    (dat1 (F := Ideal) V c).flushed 2 t
      = ((cfg1.win 2).blk t).view.read (Elt Ideal) (scatOf (V c main_v7) (V c main_v10)) := by
  have hN : cfg1.N = 25806 := N1_eq
  have ht : t.val < 25806 := hN ▸ t.isLt
  have h781 : t.val % 782 = 781 := (flush1_2 t).mp hf
  show (cfg1.win 2).cut (grid1.coords t) ((dat1 (F := Ideal) V c).after 2 t) = _
  rw [after1_2]
  funext y
  rw [View.read_apply]
  have hy0 : (y 0).val < 3072 := (y 0).isLt
  have hy1 : (y 1).val < 64 := (y 1).isLt
  have hr : 3072 * (t.val / 782) + (y 0).val < 101376 := by omega
  refine Eq.trans ?_ (cast_eq _ _).symm
  have hA : ((cfg1.win 2).xinj (grid1.coords t) y : S3072x64.Idx) = ix2 (⟨(y 0).val, hy0⟩ : Fin 3072) (⟨(y 1).val, hy1⟩ : Fin 64) :=
    funext fun a => Fin.ext (match a with | ⟨0, _⟩ => rfl | ⟨1, _⟩ => rfl)
  have hL : (cfg1.win 2).cut (grid1.coords t) (acc1 V c (t.val + 1)) y
      = acc1 V c (t.val + 1) (ix2 (⟨(y 0).val, hy0⟩ : Fin 3072) (⟨(y 1).val, hy1⟩ : Fin 64)) :=
    congrArg (acc1 V c (t.val + 1)) hA
  have hB : (((cfg1.win 2).blk t).view.emb y : S101376x64.Idx)
      = ix2 (⟨3072 * (t.val / 782) + (y 0).val, hr⟩ : Fin 101376) (⟨(y 1).val, hy1⟩ : Fin 64) :=
    funext fun a => Fin.ext (match a with
      | ⟨0, _⟩ => by
        show (cfg1.win 2).index t 0 * 3072 + 1 * (y 0).val = 3072 * (t.val / 782) + (y 0).val
        rw [index1_2 t 0]; show (t.val / 782) * 3072 + 1 * (y 0).val = _; omega
      | ⟨1, _⟩ => by
        show (cfg1.win 2).index t 1 * 64 + 1 * (y 1).val = (y 1).val
        rw [index1_2 t 1]; show 0 * 64 + 1 * (y 1).val = _; omega)
  exact hL.trans ((scat_acc_last V c t h781 ⟨(y 0).val, hy0⟩ ⟨(y 1).val, hy1⟩ hr).trans
    (congrArg (scatOf (V c main_v7) (V c main_v10)) hB).symm)

/-- REGION 1's VALUE: the padded result array after the region. -/
theorem scatter_value (c : Dev nD) :
    ((dat1 (F := Ideal) V c).arrAt 2 cfg1.N : S101376x64.Idx → EReal)
      = scatOf (V c main_v7 : IVec S1x1601536 32) (V c main_v10 : S1601536x64.Idx → EReal) := by
  have hN : cfg1.N = 25806 := N1_eq
  refine (dat1 (F := Ideal) V c).arrAt_eq_of_cover 2 (scatOf (V c main_v7) (V c main_v10)) (scat_flushed_eq V c) fun i => ?_
  have hi0 : (i 0).val < 101376 := (i 0).isLt
  have hi1 : (i 1).val < 64 := (i 1).isLt
  have htN : 782 * ((i 0).val / 3072) + 781 < cfg1.N := by rw [hN]; omega
  refine ⟨⟨782 * ((i 0).val / 3072) + 781, htN⟩, (flush1_2 _).mpr (by show (782 * ((i 0).val / 3072) + 781) % 782 = 781; omega), ?_⟩
  show i ∈ ((View.whole main_v11).slice ((cfg1.win 2).rect ⟨782 * ((i 0).val / 3072) + 781, htN⟩)).set
  rw [View.set_slice_whole, Rect.mem_set_unit]
  intro a
  match a with
  | ⟨0, _⟩ =>
    show (cfg1.win 2).index ⟨782 * ((i 0).val / 3072) + 781, htN⟩ 0 * 3072 ≤ (i 0).val
      ∧ (i 0).val < (cfg1.win 2).index ⟨782 * ((i 0).val / 3072) + 781, htN⟩ 0 * 3072 + 3072
    rw [index1_2 _ 0]
    show (782 * ((i 0).val / 3072) + 781) / 782 * 3072 ≤ (i 0).val
      ∧ (i 0).val < (782 * ((i 0).val / 3072) + 781) / 782 * 3072 + 3072
    omega
  | ⟨1, _⟩ =>
    show (cfg1.win 2).index ⟨782 * ((i 0).val / 3072) + 781, htN⟩ 1 * 64 ≤ (i 1).val
      ∧ (i 1).val < (cfg1.win 2).index ⟨782 * ((i 0).val / 3072) + 781, htN⟩ 1 * 64 + 64
    rw [index1_2 _ 1]
    show 0 * 64 ≤ (i 1).val ∧ (i 1).val < 0 * 64 + 64
    omega

end Cert.KernelIdeal.Val

end
-- ==== Proof.KVal.lean ====
/-
  The idealized kernel's result as one function of its arguments: the host operations before the regions pad the two
  index rows with the word 100000 and the feature table with zero rows (narrowing is the identity over the extended
  reals), region 0 leaves the messages, region 1 the scattered sums, and the last host operation keeps the first 100000
  rows.
-/
import proofs.«420660_j45414984188550_2_alg».proof.Proof.KI.Run
import proofs.«420660_j45414984188550_2_alg».proof.Proof.Val0
import proofs.«420660_j45414984188550_2_alg».proof.Proof.Val1
import Idealize.ShloMosaic.Lib.StableHlo.Run

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

open Idealize.ShloMosaic.StableHlo
variable (m : (ℓ : Loc nD τ sig) → Buf (Elt Ideal) ℓ)

/-! ## The host operations before the regions, as terms of the arguments -/

/-- Row `r` of the edges, padded to 1601536 words with the word 100000, as a [1, 1601536] row. -/
def rowTerm (ei : IVec S2x1600000 32) (off : Fin 2 → ℕ) (h : S2x1600000.Slices off S1x1600000) : IVec S1x1601536 32 :=
  shapeCast S1x1601536 (pad S1601536 ![0] ![1536] ![0]
    (shapeCast S1600000 (extractStridedSlice S1x1600000 off ei h) shapeCasts_S1x1600000_S1600000)
    (constantI S_ 32 100000#32) pads_S1600000_S1601536_015360 h_S_) shapeCasts_S1601536_S1x1601536

/-- The feature table narrowed and padded with 352 rows of the narrowed word 0. -/
def tabTerm (x : FVec Ideal S100000x64 .f32) : FVec Ideal S100352x64 .bf16 :=
  pad S100352x64 ![0, 0] ![352, 0] ![0, 0] (truncf .bf16 x bitsLt_bf16_f32)
    (sitofp (F := Ideal) .bf16 (constantI S_ 32 0#32)) pads_S100000x64_S100352x64_03520_000 h_S_

theorem v5_term (c : Dev nD) : (V6 m c main_v5 : IVec S1x1601536 32)
    = rowTerm (m ((c.tc : Thread nD τ).loc main_arg1)) ![0, 0] slices_S2x1600000_S1x1600000_0_0 := by
  show StableHlo.after hostOps0_5 (StableHlo.after hostOps0_4 (StableHlo.after hostOps0_3 (StableHlo.after hostOps0_2 (StableHlo.after hostOps0_1 (StableHlo.after hostOps0 (V0 m c)))))) (Proc.devRef .tc main_v5) = _
  dsimp only [hostOps0, hostOps0_1, hostOps0_2, hostOps0_3, hostOps0_4, hostOps0_5]
  after_results
  simp only [cast_eq, id_eq, eq_rec_constant, eq_mpr_eq_cast]
  rfl

theorem v7_term (c : Dev nD) : (V6 m c main_v7 : IVec S1x1601536 32)
    = rowTerm (m ((c.tc : Thread nD τ).loc main_arg1)) ![1, 0] slices_S2x1600000_S1x1600000_1_0 := by
  show StableHlo.after hostOps0_5 (StableHlo.after hostOps0_4 (StableHlo.after hostOps0_3 (StableHlo.after hostOps0_2 (StableHlo.after hostOps0_1 (StableHlo.after hostOps0 (V0 m c)))))) (Proc.devRef .tc main_v7) = _
  dsimp only [hostOps0, hostOps0_1, hostOps0_2, hostOps0_3, hostOps0_4, hostOps0_5]
  after_results
  simp only [cast_eq, id_eq, eq_rec_constant, eq_mpr_eq_cast]
  rfl

theorem v9_term (c : Dev nD) : (V6 m c main_v9 : S100352x64.Idx → EReal)
    = tabTerm (m ((c.tc : Thread nD τ).loc main_arg0)) := by
  show StableHlo.after hostOps0_5 (StableHlo.after hostOps0_4 (StableHlo.after hostOps0_3 (StableHlo.after hostOps0_2 (StableHlo.after hostOps0_1 (StableHlo.after hostOps0 (V0 m c)))))) (Proc.devRef .tc main_v9) = _
  dsimp only [hostOps0, hostOps0_1, hostOps0_2, hostOps0_3, hostOps0_4, hostOps0_5]
  after_results
  simp only [cast_eq, id_eq, eq_rec_constant, eq_mpr_eq_cast]
  rfl

/-! ## The padded row and the padded table read at an index -/

/-- A rank-1 pad with high padding only reads the operand below its extent and the padding value above. -/
theorem pad1_apply {α : Type} (x : S1600000.Idx → α) (v : S_.Idx → α) (j : Fin 1601536) :
    pad S1601536 ![0] ![1536] ![0] x v pads_S1600000_S1601536_015360 h_S_ (ix1 j)
      = if h : j.val < 1600000 then x (ix1 ⟨j.val, h⟩) else v (Shape.Idx.first h_S_) := by
  unfold pad
  by_cases h : j.val < 1600000
  · have hin : ∀ a : Fin S1600000.rank, (![0] : Fin 1 → ℕ) a ≤ ((ix1 j : S1601536.Idx) (a.cast pads_S1600000_S1601536_015360.1)).val
        ∧ (((ix1 j : S1601536.Idx) (a.cast pads_S1600000_S1601536_015360.1)).val - (![0] : Fin 1 → ℕ) a) % ((![0] : Fin 1 → ℕ) a + 1) = 0
        ∧ (((ix1 j : S1601536.Idx) (a.cast pads_S1600000_S1601536_015360.1)).val - (![0] : Fin 1 → ℕ) a) / ((![0] : Fin 1 → ℕ) a + 1) < S1600000.size a := by
      intro a
      obtain rfl : a = 0 := Subsingleton.elim _ _
      refine ⟨Nat.zero_le _, Nat.mod_one _, ?_⟩
      show (j.val - 0) / (0 + 1) < 1600000
      omega
    rw [dif_pos hin, dif_pos h]
    refine congrArg x (funext fun a => Fin.ext ?_)
    obtain rfl : a = 0 := Subsingleton.elim _ _
    show (j.val - 0) / (0 + 1) = j.val
    omega
  · rw [dif_neg h, dif_neg]
    intro hin
    have := (hin 0).2.2
    change (j.val - 0) / (0 + 1) < 1600000 at this
    omega

/-- A rank-2 pad with high padding on the rows only reads the operand below its height and the padding value above. -/
theorem pad2_apply {α : Type} (x : S100000x64.Idx → α) (v : S_.Idx → α) (p : Fin 100352) (d : Fin 64) :
    pad S100352x64 ![0, 0] ![352, 0] ![0, 0] x v pads_S100000x64_S100352x64_03520_000 h_S_ (ix2 p d)
      = if h : p.val < 100000 then x (ix2 ⟨p.val, h⟩ d) else v (Shape.Idx.first h_S_) := by
  unfold pad
  by_cases h : p.val < 100000
  · have hin : ∀ a : Fin S100000x64.rank, (![0, 0] : Fin 2 → ℕ) a ≤ ((ix2 p d : S100352x64.Idx) (a.cast pads_S100000x64_S100352x64_03520_000.1)).val
        ∧ (((ix2 p d : S100352x64.Idx) (a.cast pads_S100000x64_S100352x64_03520_000.1)).val - (![0, 0] : Fin 2 → ℕ) a) % ((![0, 0] : Fin 2 → ℕ) a + 1) = 0
        ∧ (((ix2 p d : S100352x64.Idx) (a.cast pads_S100000x64_S100352x64_03520_000.1)).val - (![0, 0] : Fin 2 → ℕ) a) / ((![0, 0] : Fin 2 → ℕ) a + 1) < S100000x64.size a := by
      intro a
      match a with
      | ⟨0, _⟩ =>
        refine ⟨Nat.zero_le _, Nat.mod_one _, ?_⟩
        show (p.val - 0) / (0 + 1) < 100000
        omega
      | ⟨1, _⟩ =>
        refine ⟨Nat.zero_le _, Nat.mod_one _, ?_⟩
        show (d.val - 0) / (0 + 1) < 64
        have := d.isLt
        omega
    rw [dif_pos hin, dif_pos h]
    refine congrArg x (funext fun a => Fin.ext ?_)
    match a with
    | ⟨0, _⟩ => show (p.val - 0) / (0 + 1) = p.val; omega
    | ⟨1, _⟩ => show (d.val - 0) / (0 + 1) = d.val; omega
  · rw [dif_neg h, dif_neg]
    intro hin
    have := (hin 0).2.2
    change (p.val - 0) / (0 + 1) < 100000 at this
    omega

/-- The padded row of the edges is the specification's. -/
theorem rowTerm_eq (ei : IVec S2x1600000 32) (r : Fin 2) (off : Fin 2 → ℕ) (h : S2x1600000.Slices off S1x1600000)
    (h0 : off 0 = r.val) (h1 : off 1 = 0) : rowTerm ei off h = padRow ei r := by
  funext j
  obtain ⟨u, e, rfl⟩ : ∃ (u : Fin 1) (e : Fin 1601536), j = ix2 u e := ⟨j 0, j 1, eq_ix2 j⟩
  unfold rowTerm padRow
  rw [shapeCast_a_1a_apply, pad1_apply]
  by_cases he : e.val < 1600000
  · rw [dif_pos he, dif_pos (show ((ix2 u e : S1x1601536.Idx) 1).val < 1600000 from he), shapeCast_1a_a_apply]
    refine extractStridedSlice_apply _ _ _ _ _ fun a => ?_
    match a with
    | ⟨0, _⟩ => show r.val = off 0 + 0; omega
    | ⟨1, _⟩ => show e.val = off 1 + e.val; omega
  · rw [dif_neg he, dif_neg (show ¬ ((ix2 u e : S1x1601536.Idx) 1).val < 1600000 from he)]
    rfl

/-- The narrowed and padded feature table is the specification's: narrowing is the identity over the extended reals
    and the padding value is the integer zero read exactly. -/
theorem tabTerm_eq (x : FVec Ideal S100000x64 .f32) : tabTerm x = padX x := by
  funext j
  obtain ⟨p, d, rfl⟩ : ∃ (p : Fin 100352) (d : Fin 64), j = ix2 p d := ⟨j 0, j 1, eq_ix2 j⟩
  unfold tabTerm padX
  rw [pad2_apply]
  by_cases hp : p.val < 100000
  · rw [dif_pos hp, dif_pos (show ((ix2 p d : S100352x64.Idx) 0).val < 100000 from hp)]
    rfl
  · rw [dif_neg hp, dif_neg (show ¬ ((ix2 p d : S100352x64.Idx) 0).val < 100000 from hp)]
    show ((((0#32 : BitVec 32).toInt : ℝ)) : EReal) = 0
    simp

/-! ## The chain: slice ∘ scatter ∘ gather of the padded arguments -/

/-- THE KERNEL'S VALUE: the result buffer's last valuation is `kerOf` of the launch contents of the arguments. -/
theorem kernel_value (c : Dev nD) :
    (V9 m (outs m) c main_v12 : S100000x64.Idx → EReal)
      = kerOf (m ((c.tc : Thread nD τ).loc main_arg0) : S100000x64.Idx → EReal) (m ((c.tc : Thread nD τ).loc main_arg1) : IVec S2x1600000 32) := by
  -- the last host operation keeps the first 100000 rows of the padded result
  have h12 : (V9 m (outs m) c main_v12 : S100000x64.Idx → EReal)
      = extractStridedSlice S100000x64 ![0, 0] (V8 m (outs m) c main_v11 : S101376x64.Idx → EReal) slices_S101376x64_S100000x64_0_0 := by
    show StableHlo.after hostOps2 (V8 m (outs m) c) (Proc.devRef .tc main_v12) = _
    dsimp only [hostOps2]
    after_results
  -- the padded result is region 1's output, the scattered sums of what it was entered with
  have h11 : (V8 m (outs m) c main_v11 : S101376x64.Idx → EReal) = out1 m c := by
    show Function.update (V7 m (outs m) c) (Proc.devRef .tc main_v11) (outs m 8 main_v11 c) (Proc.devRef .tc main_v11) = _
    rw [Function.update_self, outs_v11]
  have hs : (out1 m c : S101376x64.Idx → EReal)
      = scatOf (VB m c main_v7 : IVec S1x1601536 32) (VB m c main_v10 : S1601536x64.Idx → EReal) := scatter_value (VB m) c
  -- the messages are region 0's output, gathered from what it was entered with
  have h10 : (VB m c main_v10 : S1601536x64.Idx → EReal) = out0 m c := by
    show Function.update (V6 m c) (Proc.devRef .tc main_v10) (out0 m c) (Proc.devRef .tc main_v10) = _
    rw [Function.update_self]
  have hg : (out0 m c : S1601536x64.Idx → EReal)
      = msgsOf (VA m c main_v5 : IVec S1x1601536 32) (VA m c main_v9 : S100352x64.Idx → EReal) := gather_value (VA m) c
  have h7 : (VB m c main_v7 : IVec S1x1601536 32) = V6 m c main_v7 := by
    show Function.update (V6 m c) (Proc.devRef .tc main_v10) (out0 m c) (Proc.devRef .tc main_v7) = _
    rw [Function.update_of_ne (StableHlo.devRef_ne_of_ne (by decide))]
  rw [h12, h11, hs, h10, hg, h7]
  show extractStridedSlice S100000x64 ![0, 0]
      (scatOf (V6 m c main_v7 : IVec S1x1601536 32) (msgsOf (V6 m c main_v5 : IVec S1x1601536 32) (V6 m c main_v9 : S100352x64.Idx → EReal)))
      slices_S101376x64_S100000x64_0_0 = _
  rw [v5_term, v7_term, v9_term, rowTerm_eq _ 0 ![0, 0] _ rfl rfl, rowTerm_eq _ 1 ![1, 0] _ rfl rfl, tabTerm_eq]
  funext i
  unfold kerOf
  refine extractStridedSlice_apply _ _ _ _ _ fun a => ?_
  match a with
  | ⟨0, _⟩ => show (i 0).val = 0 + (i 0).val; omega
  | ⟨1, _⟩ => show (i 1).val = 0 + (i 1).val; omega

end Cert.KernelIdeal.Val

end
-- ==== Proof.Ref.lean ====
/-
  The reference's value over the extended reals: its result array is `refOf` of its two arguments.
-/
import proofs.«420660_j45414984188550_2_alg».proof.Defs
import proofs.«420660_j45414984188550_2_alg».proof.Proof.Gen.ReferenceIdeal.Run
import proofs.«420660_j45414984188550_2_alg».proof.Proof.Gen.ReferenceIdeal.Read
import proofs.«420660_j45414984188550_2_alg».proof.Proof.Spec
import Idealize.ShloMosaic.Lib.StableHlo.Predicate
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Spec

/-- The reference's gather and scatter dimension numbers. -/
private abbrev gd := gather_S100000x64_S1600000x1_S1600000x64_1_0_n_n_0_1_164
private abbrev sd := scatter_S100000x64_S1600000x1_S1600000x64_1_0_0_1

/-- THE ROW GATHER READ AT `(e, dd)`: the table at (the start word of edge `e`, read signed and clamped into the
    table's rows, column `dd`). Axis 0 of the table is collapsed and start-indexed, axis 1 is the one offset axis. -/
private theorem gather_apply {α : Type} (x : S100000x64.Idx → α) (idx : IVec S1600000x1 32) (e : Fin 1600000) (dd : Fin 64) :
    Host.gather gd x idx (ix2 e dd)
      = x (ix2 (⟨min (idx (ix2 e (0 : Fin 1))).toInt.toNat 99999, by omega⟩ : Fin 100000) dd) := by
  unfold Host.gather
  congr 1
  funext a
  refine Fin.ext ?_
  have hsi : gd.siIdx (ix2 e dd) ⟨List.idxOf (0 : Fin 2) gd.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show gd.start (ix2 e dd) idx 0 + gd.batchCoord (ix2 e dd) 0 + gd.offCoord (ix2 e dd) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gd.startIndexMap from List.mem_singleton.mpr rfl), hsi]
    rfl
  | ⟨1, _⟩ =>
    show gd.start (ix2 e dd) idx 1 + gd.batchCoord (ix2 e dd) 1 + gd.offCoord (ix2 e dd) 1 = _
    rw [GatherDims.batchCoord_eq_zero _ _ _ List.not_mem_nil]
    unfold GatherDims.start
    rw [dif_neg (show (1 : Fin 2) ∉ gd.startIndexMap from by decide)]
    show 0 + 0 + gd.offCoord (ix2 e dd) 1 = dd.val
    rw [Nat.zero_add]
    rfl

/-- The scatter's start on axis 0 for the update `(e, dd)`: the target word of edge `e`, read signed. -/
private theorem sd_start0 (idx : IVec S1600000x1 32) (e : Fin 1600000) (dd : Fin 64) :
    sd.start (ix2 e dd) idx 0 = (idx (ix2 e (0 : Fin 1))).toInt := by
  unfold ScatterDims.start
  rw [dif_pos (show (0 : Fin 2) ∈ sd.scatterDimsToOperandDims from List.mem_singleton.mpr rfl)]
  have hsi : sd.siIdx (ix2 e dd) ⟨List.idxOf (0 : Fin 2) sd.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not start-indexed: its start is zero. -/
private theorem sd_start1 (idx : IVec S1600000x1 32) (e : Fin 1600000) (dd : Fin 64) :
    sd.start (ix2 e dd) idx 1 = 0 := by
  unfold ScatterDims.start
  rw [dif_neg (show (1 : Fin 2) ∉ sd.scatterDimsToOperandDims from by decide)]

/-- Axis 0 is an inserted window axis: its window coordinate is zero. -/
private theorem sd_window0 (e : Fin 1600000) (dd : Fin 64) : sd.window (ix2 e dd) 0 = 0 := by
  unfold ScatterDims.window
  rw [dif_neg (show (0 : Fin 2) ∉ sd.sKept from by decide)]

/-- Axis 1 carries the update's window coordinate: its column. -/
private theorem sd_window1 (e : Fin 1600000) (dd : Fin 64) : sd.window (ix2 e dd) 1 = dd.val := by
  unfold ScatterDims.window
  rw [dif_pos (show (1 : Fin 2) ∈ sd.sKept from by decide)]
  rfl

/-- WHERE AN UPDATE LANDS: the update `(e, dd)` lands at `i` exactly when the target word of edge `e`, read signed, is
    `i`'s row and `dd` is `i`'s column; a target outside the table's rows lands nowhere. -/
private theorem resultIdx_eq_some (idx : IVec S1600000x1 32) (e : Fin 1600000) (dd : Fin 64) (i : S100000x64.Idx) :
    sd.resultIdx? (ix2 e dd) idx = some i
      ↔ (idx (ix2 e (0 : Fin 1))).toInt = ((i 0).val : ℤ) ∧ dd.val = (i 1).val := by
  have hi0 : (i 0).val < 100000 := idx2_lt0 i
  have hi1 : (i 1).val < 64 := idx2_lt1 i
  have hdd : dd.val < 64 := dd.isLt
  unfold ScatterDims.resultIdx?
  split
  · next h =>
    rw [Option.some.injEq]
    constructor
    · intro hf
      have h0 : (sd.start (ix2 e dd) idx 0 + (sd.window (ix2 e dd) 0 : ℕ)).toNat = (i 0).val := congrArg (fun f => (f 0).val) hf
      have h1 : (sd.start (ix2 e dd) idx 1 + (sd.window (ix2 e dd) 1 : ℕ)).toNat = (i 1).val := congrArg (fun f => (f 1).val) hf
      have hh := (h 0).1
      rw [sd_start0, sd_window0] at h0 hh
      rw [sd_start1, sd_window1] at h1
      constructor <;> omega
    · rintro ⟨h0, h1⟩
      funext a
      refine Fin.ext ?_
      match a with
      | ⟨0, _⟩ =>
        show (sd.start (ix2 e dd) idx 0 + (sd.window (ix2 e dd) 0 : ℕ)).toNat = (i 0).val
        rw [sd_start0, sd_window0]; omega
      | ⟨1, _⟩ =>
        show (sd.start (ix2 e dd) idx 1 + (sd.window (ix2 e dd) 1 : ℕ)).toNat = (i 1).val
        rw [sd_start1, sd_window1]; omega
  · next h =>
    constructor
    · intro hf; exact absurd hf (by simp)
    · rintro ⟨h0, h1⟩
      refine absurd (fun a => ?_) h
      match a with
      | ⟨0, _⟩ =>
        show 0 ≤ sd.start (ix2 e dd) idx 0 + (sd.window (ix2 e dd) 0 : ℕ)
          ∧ sd.start (ix2 e dd) idx 0 + (sd.window (ix2 e dd) 0 : ℕ) < ((100000 : ℕ) : ℤ)
        rw [sd_start0, sd_window0]; omega
      | ⟨1, _⟩ =>
        show 0 ≤ sd.start (ix2 e dd) idx 1 + (sd.window (ix2 e dd) 1 : ℕ)
          ∧ sd.start (ix2 e dd) idx 1 + (sd.window (ix2 e dd) 1 : ℕ) < ((64 : ℕ) : ℤ)
        rw [sd_start1, sd_window1]; omega

/-- jnp's wrap of a negative index, as the program computes it word by word, is the specification's `if`. -/
private theorem wrap_eq (w : BitVec 32) :
    Scalar.select (IntOp.cmpi .slt w 0#32) (IntOp.addi w 100000#32) w = if w.toInt < 0 then w + 100000#32 else w := by
  have h0 : (0#32 : BitVec 32).toInt = 0 := by decide
  have hc : IntOp.cmpi .slt w 0#32 = (1 : BitVec 1) ↔ w.toInt < 0 := by
    unfold IntOp.cmpi
    exact (StableHlo.Predicate.ofBool_eq_one_iff _).trans (by simp only [BitVec.slt, h0, decide_eq_true_eq])
  unfold Scalar.select IntOp.addi
  by_cases hw : w.toInt < 0
  · rw [if_pos hw, if_pos (hc.2 hw)]
  · rw [if_neg hw, if_neg (fun h => hw (hc.1 h))]

/-- Row 0 of the edges, sliced out and flattened, read at edge `e`. -/
private theorem v1_apply (ei : IVec S2x1600000 32) (e : Fin 1600000) :
    Read.val_main_v1 (F := Ideal) ei (ix1 e) = ei (ix2 (0 : Fin 2) e) := by
  rw [Read.val_main_v1_apply, Read.val_main_v0_apply]
  congr 1
  funext a
  refine Fin.ext ?_
  match a with
  | ⟨0, _⟩ => rfl
  | ⟨1, _⟩ => exact Nat.mod_eq_of_lt e.isLt

/-- The gather's start word of edge `e`: the source word, wrapped. -/
private theorem v7_apply (ei : IVec S2x1600000 32) (e : Fin 1600000) :
    Read.val_main_v7 (F := Ideal) ei (ix2 e (0 : Fin 1))
      = if (ei (ix2 (0 : Fin 2) e)).toInt < 0 then ei (ix2 (0 : Fin 2) e) + 100000#32 else ei (ix2 (0 : Fin 2) e) := by
  have hix : Read.idx_main_v7 (ix2 e (0 : Fin 1)) = ix1 e := by
    funext a; match a with | ⟨0, _⟩ => rfl
  rw [Read.val_main_v7_apply, Read.val_main_v6_apply, Read.val_main_v3_apply, Read.val_main_v5_apply,
    Read.val_main_v2_apply, Read.val_main_v4_apply, Read.val_main_c_apply, Read.val_main_c_0_apply, hix, v1_apply]
  exact wrap_eq _

/-- The scatter's index word of edge `e`: the target word, row 1 of the edges. -/
private theorem v12_apply (ei : IVec S2x1600000 32) (e : Fin 1600000) :
    Read.val_main_v12 (F := Ideal) ei (ix2 e (0 : Fin 1)) = ei (ix2 (1 : Fin 2) e) := by
  rw [Read.val_main_v12_apply, Read.val_main_v10_apply, Read.val_main_v9_apply]
  congr 1
  funext a
  refine Fin.ext ?_
  match a with
  | ⟨0, _⟩ => rfl
  | ⟨1, _⟩ => exact Nat.mod_eq_of_lt e.isLt

/-- The gathered element `(e, dd)`: the feature row at the wrapped and clamped source word, column `dd`. -/
private theorem v8_apply (x : S100000x64.Idx → EReal) (ei : IVec S2x1600000 32) (e : Fin 1600000) (dd : Fin 64) :
    Read.val_main_v8 (F := Ideal) x ei (ix2 e dd) = x (ix2 (rowOf (ei (ix2 (0 : Fin 2) e))) dd) := by
  unfold Read.val_main_v8
  rw [gather_apply]
  refine congrArg (fun r : Fin 100000 => x (ix2 r dd)) (Fin.ext ?_)
  show min (Read.val_main_v7 (F := Ideal) ei (ix2 e (0 : Fin 1))).toInt.toNat 99999 = (rowOf (ei (ix2 (0 : Fin 2) e))).val
  rw [v7_apply]
  rfl

/-- THE SCATTER-ADD READ AT AN ELEMENT, for any operand that is zero there, any index words and any updates: the sum
    over the edges whose index word, read signed, is the element's row of the update in the element's column. The
    filtered sum over the rank-2 update indices splits by coordinates; in each row of updates at most the one column
    that is the element's contributes. -/
private theorem scatter_apply (z : S100000x64.Idx → EReal) (idx : IVec S1600000x1 32) (upd : S1600000x64.Idx → EReal)
    (i : S100000x64.Idx) (hz : z i = 0) :
    Ideal.hostScatterAdd sd z idx upd i
      = ∑ e : Fin 1600000, if (idx (ix2 e (0 : Fin 1))).toInt = ((i 0).val : ℤ)
          then upd (ix2 e (⟨(i 1).val, idx2_lt1 i⟩ : Fin 64)) else 0 := by
  unfold Ideal.hostScatterAdd
  rw [hz, zero_add, Finset.sum_filter, sum_idx2]
  refine Finset.sum_congr rfl (fun e _ => ?_)
  simp only [resultIdx_eq_some]
  by_cases ht : (idx (ix2 e (0 : Fin 1))).toInt = ((i 0).val : ℤ)
  · rw [if_pos ht]
    simp only [ht, true_and]
    rw [Finset.sum_eq_single (⟨(i 1).val, idx2_lt1 i⟩ : Fin 64)
      (fun b _ hb => if_neg (fun h => hb (Fin.ext h))) (fun h => absurd (Finset.mem_univ _) h)]
    rw [if_pos rfl]
  · rw [if_neg ht]
    simp only [ht, false_and, if_false]
    exact Finset.sum_const_zero

/-- The last stage is the ideal scatter-add of the three stages before it. -/
private theorem v13_unfold (x : S100000x64.Idx → EReal) (ei : IVec S2x1600000 32) :
    Read.val_main_v13 (F := Ideal) x ei
      = Ideal.hostScatterAdd sd (Read.val_main_v11 (F := Ideal)) (Read.val_main_v12 (F := Ideal) ei)
          (Read.val_main_v8 (F := Ideal) x ei) := rfl

/-- THE REFERENCE'S RESULT ARRAY IS THE SPECIFICATION: the scatter-add into the zero array of the gathered rows, at the
    target words, is `refOf` element by element. -/
private theorem val13_eq (x : S100000x64.Idx → EReal) (ei : IVec S2x1600000 32) :
    Read.val_main_v13 (F := Ideal) x ei = refOf x ei := by
  funext i
  have h11 : Read.val_main_v11 (F := Ideal) i = 0 := by
    rw [Read.val_main_v11_apply, Read.val_main_cst_apply]
    exact Ideal.ofBits_zero_f32
  rw [v13_unfold, scatter_apply _ _ _ i h11]
  refine Finset.sum_congr rfl (fun e _ => ?_)
  rw [v12_apply, v8_apply]

/-- THE REFERENCE'S VALUE: every weakly fair execution terminates with the result array at `refOf` of the arguments, the
    arguments unchanged. The gather reads the feature row at the source word wrapped and clamped; the scatter-add sums,
    at each element, the gathered elements whose target row (read signed, never clamped) and column are that element's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v13) : S100000x64.Idx → EReal)
          = refOf (m ((c.tc : Thread nD τ).loc main_arg0) : S100000x64.Idx → EReal) (m ((c.tc : Thread nD τ).loc main_arg1) : IVec S2x1600000 32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (Cert.ReferenceIdeal.Value.run (F := Ideal) m ρ)
  obtain ⟨h13, h0, h1⟩ := h c
  refine ⟨?_, h0, h1⟩
  rw [h13, Read.val_main_v13_eq]
  exact val13_eq _ _

end Cert.ReferenceIdeal.RefValue

end
-- ==== Proof.PreDecode.lean ====
/-
  The precondition read back: when the printed predicate is all ones, every source word (row 0 of the edges), read
  unsigned, is below the feature table's height — the signed comparisons `0 ≤ w` and `w < 100000` hold at every edge.
-/
import proofs.«420660_j45414984188550_2_alg».proof.Defs
import proofs.«420660_j45414984188550_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

/-- A 32-bit word that is signed-at-least zero and signed-below 100000 is, read unsigned, below 100000: a non-negative
    signed reading is the unsigned one. -/
private theorem toNat_lt_of_cmp (w : BitVec 32) (h1 : IntOp.cmpi .sge w 0#32 = 1#1) (h2 : IntOp.cmpi .slt w 100000#32 = 1#1) :
    w.toNat < 100000 := by
  simp only [IntOp.cmpi, StableHlo.Predicate.ofBool_eq_one_iff, BitVec.sle, BitVec.slt, decide_eq_true_eq] at h1 h2
  have h0 : (0#32 : BitVec 32).toInt = 0 := by decide
  have hc : (100000#32 : BitVec 32).toInt = 100000 := by decide
  rw [h0] at h1
  rw [hc] at h2
  have hw := BitVec.toInt_eq_toNat_cond w
  have hlt := w.isLt
  split at hw <;> omega

/-- The scalar shape has one index. -/
private instance : Subsingleton S_.Idx := ⟨fun a b => funext fun d => d.elim0⟩

/-- Row 0 of the edges, sliced out and flattened, read at edge `e` is the edges at `(0, e)`. -/
private theorem row0_apply (ei : IVec S2x1600000 32) (e : Fin 1600000) :
    shapeCast S1600000 (extractStridedSlice S1x1600000 ![0, 0] ei Facts.slices_S2x1600000_S1x1600000_0_0)
      Facts.shapeCasts_S1x1600000_S1600000 (ix1 e) = ei (ix2 (0 : Fin 2) e) := by
  rw [shapeCast_apply _ Facts.shapeCasts_S1x1600000_S1600000 (ix1 e) (ix2 (0 : Fin 1) e)
    (by rw [Shape.rowMajor_val_two, Shape.rowMajor_val_one]; show 0 * 1600000 + e.val = e.val; omega)]
  exact extractStridedSlice_apply ![0, 0] ei Facts.slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

/-- Every source word is a row of the feature table. -/
theorem src_lt_of_pre {F : FTy → Type} [FloatOps F] (x : FVec F S100000x64 .f32) (ei : IVec S2x1600000 32)
    (h : Cert.Pre_finite_inputs.fn (F := F) x ei = fun _ => 1#1) :
    ∀ e : Fin 1600000, (ei (ix2 (0 : Fin 2) e)).toNat < 100000 := by
  intro e
  have h0 := congrFun h ix0
  change IntOp.andi _ (Host.reduce IntOp.andi _ _ _ _ ix0) = 1#1 at h0
  obtain ⟨-, h13⟩ := IntOp.andi_eq_one.1 h0
  have hel := Host.reduce_andi_all _ _ _ _ _ h13 (ix1 e)
  change IntOp.andi (IntOp.cmpi .sge _ _) (IntOp.cmpi .slt _ _) = 1#1 at hel
  obtain ⟨hge, hlt⟩ := IntOp.andi_eq_one.1 hel
  rw [row0_apply] at hge hlt
  exact toNat_lt_of_cmp _ hge hlt

end Cert.PreDecode

end
-- ==== Proof.lean ====
/-
  The certificate: the three frames, the (empty) idealization ledger, and the equivalence over the extended reals.
  Both printed kernels run as the launch theorem's segments with hand-written proof data for their two regions (each
  region accumulates a one-hot matrix product in scratch along a grid row and stores its output block at the row's last
  point); the idealized kernel's result is then the scattered sums of the gathered messages, the reference's is its
  scatter-add of its gather, and under the precondition that every source index is a row of the feature table the two
  are the same sums.
-/
import proofs.«420660_j45414984188550_2_alg».proof.Defs
import proofs.«420660_j45414984188550_2_alg».proof.Proof.Gen.Kernel
import proofs.«420660_j45414984188550_2_alg».proof.Proof.Gen.KernelIdeal
import proofs.«420660_j45414984188550_2_alg».proof.Proof.Gen.ReferenceIdeal
import proofs.«420660_j45414984188550_2_alg».proof.Proof.Gen.Pre_finite_inputs
import proofs.«420660_j45414984188550_2_alg».proof.Proof.K.Run
import proofs.«420660_j45414984188550_2_alg».proof.Proof.KI.Run
import proofs.«420660_j45414984188550_2_alg».proof.Proof.KVal
import proofs.«420660_j45414984188550_2_alg».proof.Proof.Ref
import proofs.«420660_j45414984188550_2_alg».proof.Proof.PreDecode
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end at the same function of the arguments: the kernel's at the scattered sums of its gathered messages,
    the reference's at its scatter-add of its gather, equal because the precondition puts every source index inside the
    feature table. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.kerOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Val.kernel_value m c), (h c).2⟩) (Cert.KernelIdeal.Hand.run_result m ρ)
  · refine (θ_run Cert.ReferenceIdeal.defs _ _).mono (fun _ h c => ⟨(h c).1.trans ?_, (h c).2⟩)
      (Cert.ReferenceIdeal.RefValue.ref_run m' ρ')
    rw [(hagree c).1, (hagree c).2]
    exact (Cert.Spec.ker_eq_ref _ _ (Cert.PreDecode.src_lt_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
